-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v17_1)) (v3 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v17_1) = v2 c
          ∧ r.2.mem ((c.tc : Thread Cert.KernelIdeal.nD Cert.KernelIdeal.τ).loc Cert.KernelIdeal.main_v17_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64 : Shape := ⟨2, ![256, 64]⟩
abbrev S65536x1024 : Shape := ⟨2, ![65536, 1024]⟩
abbrev S6 : Shape := ⟨1, ![6]⟩
abbrev S65536 : Shape := ⟨1, ![65536]⟩
abbrev S524288 : Shape := ⟨1, ![524288]⟩
abbrev S64x256 : Shape := ⟨2, ![64, 256]⟩
abbrev S256 : Shape := ⟨1, ![256]⟩
abbrev S1024x256 : Shape := ⟨2, ![1024, 256]⟩
abbrev S256x128 : Shape := ⟨2, ![256, 128]⟩
abbrev S128 : Shape := ⟨1, ![128]⟩
abbrev S128x4 : Shape := ⟨2, ![128, 4]⟩
abbrev S4 : Shape := ⟨1, ![4]⟩
abbrev S512x128 : Shape := ⟨2, ![512, 128]⟩
abbrev S128x3 : Shape := ⟨2, ![128, 3]⟩
abbrev S3 : Shape := ⟨1, ![3]⟩
abbrev S70x128 : Shape := ⟨2, ![70, 128]⟩
abbrev S128x2 : Shape := ⟨2, ![128, 2]⟩
abbrev S2 : Shape := ⟨1, ![2]⟩
abbrev S128x9 : Shape := ⟨2, ![128, 9]⟩
abbrev S9 : Shape := ⟨1, ![9]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel
  bcast_S_S65536x1024 : S_.BroadcastsInDim S65536x1024 (![] : Fin 0 → Fin S65536x1024.rank)
  reducesTo_S65536x1024_S_d0_1 : S65536x1024.ReducesTo [0, 1] S_
  bcast_S_S6 : S_.BroadcastsInDim S6 (![] : Fin 0 → Fin S6.rank)
  reducesTo_S6_S_d0 : S6.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S512x128 : S_.BroadcastsInDim S512x128 (![] : Fin 0 → Fin S512x128.rank)
  reducesTo_S512x128_S_d0_1 : S512x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S70x128 : S_.BroadcastsInDim S70x128 (![] : Fin 0 → Fin S70x128.rank)
  reducesTo_S70x128_S_d0_1 : S70x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S128x9 : S_.BroadcastsInDim S128x9 (![] : Fin 0 → Fin S128x9.rank)
  reducesTo_S128x9_S_d0_1 : S128x9.ReducesTo [0, 1] S_
  bcast_S_S9 : S_.BroadcastsInDim S9 (![] : Fin 0 → Fin S9.rank)
  reducesTo_S9_S_d0 : S9.ReducesTo [0] S_
  bcast_S_S65536 : S_.BroadcastsInDim S65536 (![] : Fin 0 → Fin S65536.rank)
  reducesTo_S65536_S_d0 : S65536.ReducesTo [0] S_

variable [Facts]

def fn_part7 {F : FTy → Type} [FloatOps F] (main_arg3 : IVec S65536 32) (main_v117 : IVec S_ 1) (main_v118 : IVec S65536 32) : IVec S_ 1 :=
  let main_v119 : IVec S65536 1 := cmpi .slt main_arg3 main_v118
  let main_c_47 : IVec S_ 1 := constantI S_ 1 1#1
  let main_v120 : IVec S_ 1 := (fun x v => Host.reduce IntOp.andi x v reducesTo_S65536_S_d0 h_S_) main_v119 main_c_47
  let main_v121 : IVec S_ 1 := andi main_v117 main_v120
  main_v121

def fn_part6 {F : FTy → Type} [FloatOps F] (main_arg3 : IVec S65536 32) (main_arg24 : FVec F S128x9 .f32) (main_arg25 : FVec F S9 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x9 .f32 := Host.absf main_arg24
  let main_cst_40 : FVec F S_ .f32 := constant S_ .f32 0x7F800000#32
  let main_v105 : FVec F S128x9 .f32 := broadcastInDim S128x9 ![] bcast_S_S128x9 main_cst_40
  let main_v106 : IVec S128x9 1 := cmpf .olt main_v104 main_v105
  let main_c_41 : IVec S_ 1 := constantI S_ 1 1#1
  let main_v107 : IVec S_ 1 := (fun x v => Host.reduce IntOp.andi x v reducesTo_S128x9_S_d0_1 h_S_) main_v106 main_c_41
  let main_v108 : IVec S_ 1 := andi main_v103 main_v107
  let main_v109 : FVec F S9 .f32 := Host.absf main_arg25
  let main_cst_42 : FVec F S_ .f32 := constant S_ .f32 0x7F800000#32
  let main_v110 : FVec F S9 .f32 := broadcastInDim S9 ![] bcast_S_S9 main_cst_42
  let main_v111 : IVec S9 1 := cmpf .olt main_v109 main_v110
  let main_c_43 : IVec S_ 1 := constantI S_ 1 1#1
  let main_v112 : IVec S_ 1 := (fun x v => Host.reduce IntOp.andi x v reducesTo_S9_S_d0 h_S_) main_v111 main_c_43
  let main_v113 : IVec S_ 1 := andi main_v108 main_v112
  let main_c_44 : IVec S_ 32 := constantI S_ 32 0#32
  let main_v114 : IVec S65536 32 := broadcastInDim S65536 ![] bcast_S_S65536 main_c_44
  let main_v115 : IVec S65536 1 := cmpi .sge main_arg3 main_v114
  let main_c_45 : IVec S_ 1 := constantI S_ 1 1#1
  let main_v116 : IVec S_ 1 := (fun x v => Host.reduce IntOp.andi x v reducesTo_S65536_S_d0 h_S_) main_v115 main_c_45
  let main_v117 : IVec S_ 1 := andi main_v113 main_v116
  let main_c_46 : IVec S_ 32 := constantI S_ 32 256#32
  let main_v118 : IVec S65536 32 := broadcastInDim S65536 ![] bcast_S_S65536 main_c_46
  fn_part7 (F := F) main_arg3 main_v117 main_v118

def fn_part5 {F : FTy → Type} [FloatOps F] (main_arg3 : IVec S65536 32) (main_arg21 : FVec F S2 .f32) (main_arg22 : FVec F S70x128 .f32) (main_arg23 : FVec F S128 .f32) (main_arg24 : FVec F S128x9 .f32) (main_arg25 : FVec F S9 .f32) (main_v83 : IVec S_ 1) (main_v84 : FVec F S128x2 .f32) (main_cst_32 : FVec F S_ .f32) : IVec S_ 1 :=
  let main_v85 : FVec F S128x2 .f32 := broadcastInDim S128x2 ![] bcast_S_S128x2 main_cst_32
  let main_v86 : IVec S128x2 1 := cmpf .olt main_v84 main_v85
  let main_c_33 : IVec S_ 1 := constantI S_ 1 1#1
  let main_v87 : IVec S_ 1 := (fun x v => Host.reduce IntOp.andi x v reducesTo_S128x2_S_d0_1 h_S_) main_v86 main_c_33
  let main_v88 : IVec S_ 1 := andi main_v83 main_v87
  let main_v89 : FVec F S2 .f32 := Host.absf main_arg21
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  let main_v94 : FVec F S70x128 .f32 := Host.absf main_arg22
  let main_cst_36 : FVec F S_ .f32 := constant S_ .f32 0x7F800000#32
  let main_v95 : FVec F S70x128 .f32 := broadcastInDim S70x128 ![] bcast_S_S70x128 main_cst_36
  let main_v96 : IVec S70x128 1 := cmpf .olt main_v94 main_v95
  let main_c_37 : IVec S_ 1 := constantI S_ 1 1#1
  let main_v97 : IVec S_ 1 := (fun x v => Host.reduce IntOp.andi x v reducesTo_S70x128_S_d0_1 h_S_) main_v96 main_c_37
  let main_v98 : IVec S_ 1 := andi main_v93 main_v97
  let main_v99 : FVec F S128 .f32 := Host.absf main_arg23
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg3 main_arg24 main_arg25 main_v98 main_v101 main_c_39

def fn_part4 {F : FTy → Type} [FloatOps F] (main_arg3 : IVec S65536 32) (main_arg17 : FVec F S3 .f32) (main_arg18 : FVec F S70x128 .f32) (main_arg19 : FVec F S128 .f32) (main_arg20 : FVec F S128x2 .f32) (main_arg21 : FVec F S2 .f32) (main_arg22 : FVec F S70x128 .f32) (main_arg23 : FVec F S128 .f32) (main_arg24 : FVec F S128x9 .f32) (main_arg25 : FVec F S9 .f32) (main_v63 : IVec S_ 1) (main_v67 : IVec S_ 1) : IVec S_ 1 :=
  let main_v68 : IVec S_ 1 := andi main_v63 main_v67
  let main_v69 : FVec F S3 .f32 := Host.absf main_arg17
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  let main_v74 : FVec F S70x128 .f32 := Host.absf main_arg18
  let main_cst_28 : FVec F S_ .f32 := constant S_ .f32 0x7F800000#32
  let main_v75 : FVec F S70x128 .f32 := broadcastInDim S70x128 ![] bcast_S_S70x128 main_cst_28
  let main_v76 : IVec S70x128 1 := cmpf .olt main_v74 main_v75
  let main_c_29 : IVec S_ 1 := constantI S_ 1 1#1
  let main_v77 : IVec S_ 1 := (fun x v => Host.reduce IntOp.andi x v reducesTo_S70x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x2 .f32 := Host.absf main_arg20
  let main_cst_32 : FVec F S_ .f32 := constant S_ .f32 0x7F800000#32
  fn_part5 (F := F) main_arg3 main_arg21 main_arg22 main_arg23 main_arg24 main_arg25 main_v83 main_v84 main_cst_32

def fn_part3 {F : FTy → Type} [FloatOps F] (main_arg3 : IVec S65536 32) (main_arg14 : FVec F S512x128 .f32) (main_arg15 : FVec F S128 .f32) (main_arg16 : FVec F S128x3 .f32) (main_arg17 : FVec F S3 .f32) (main_arg18 : FVec F S70x128 .f32) (main_arg19 : FVec F S128 .f32) (main_arg20 : FVec F S128x2 .f32) (main_arg21 : FVec F S2 .f32) (main_arg22 : FVec F S70x128 .f32) (main_arg23 : FVec F S128 .f32) (main_arg24 : FVec F S128x9 .f32) (main_arg25 : FVec F S9 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S512x128 .f32 := Host.absf main_arg14
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x3 .f32 := Host.absf main_arg16
  let main_cst_24 : FVec F S_ .f32 := constant S_ .f32 0x7F800000#32
  let main_v65 : FVec F S128x3 .f32 := broadcastInDim S128x3 ![] bcast_S_S128x3 main_cst_24
  let main_v66 : IVec S128x3 1 := cmpf .olt main_v64 main_v65
  let main_c_25 : IVec S_ 1 := constantI S_ 1 1#1
  let main_v67 : IVec S_ 1 := (fun x v => Host.reduce IntOp.andi x v reducesTo_S128x3_S_d0_1 h_S_) main_v66 main_c_25
  fn_part4 (F := F) main_arg3 main_arg17 main_arg18 main_arg19 main_arg20 main_arg21 main_arg22 main_arg23 main_arg24 main_arg25 main_v63 main_v67

def fn_part2 {F : FTy → Type} [FloatOps F] (main_arg3 : IVec S65536 32) (main_arg10 : FVec F S256x128 .f32) (main_arg11 : FVec F S128 .f32) (main_arg12 : FVec F S128x4 .f32) (main_arg13 : FVec F S4 .f32) (main_arg14 : FVec F S512x128 .f32) (main_arg15 : FVec F S128 .f32) (main_arg16 : FVec F S128x3 .f32) (main_arg17 : FVec F S3 .f32) (main_arg18 : FVec F S70x128 .f32) (main_arg19 : FVec F S128 .f32) (main_arg20 : FVec F S128x2 .f32) (main_arg21 : FVec F S2 .f32) (main_arg22 : FVec F S70x128 .f32) (main_arg23 : FVec F S128 .f32) (main_arg24 : FVec F S128x9 .f32) (main_arg25 : FVec F S9 .f32) (main_v33 : IVec S_ 1) : IVec S_ 1 :=
  let main_v34 : FVec F S256x128 .f32 := Host.absf main_arg10
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x4 .f32 := Host.absf main_arg12
  let main_cst_16 : FVec F S_ .f32 := constant S_ .f32 0x7F800000#32
  let main_v45 : FVec F S128x4 .f32 := broadcastInDim S128x4 ![] bcast_S_S128x4 main_cst_16
  let main_v46 : IVec S128x4 1 := cmpf .olt main_v44 main_v45
  let main_c_17 : IVec S_ 1 := constantI S_ 1 1#1
  let main_v47 : IVec S_ 1 := (fun x v => Host.reduce IntOp.andi x v reducesTo_S128x4_S_d0_1 h_S_) main_v46 main_c_17
  let main_v48 : IVec S_ 1 := andi main_v43 main_v47
  let main_v49 : FVec F S4 .f32 := Host.absf main_arg13
  let main_cst_18 : FVec F S_ .f32 := constant S_ .f32 0x7F800000#32
  let main_v50 : FVec F S4 .f32 := broadcastInDim S4 ![] bcast_S_S4 main_cst_18
  fn_part3 (F := F) main_arg3 main_arg14 main_arg15 main_arg16 main_arg17 main_arg18 main_arg19 main_arg20 main_arg21 main_arg22 main_arg23 main_arg24 main_arg25 main_v48 main_v49 main_v50

def fn_part1 {F : FTy → Type} [FloatOps F] (main_arg3 : IVec S65536 32) (main_arg7 : FVec F S256 .f32) (main_arg8 : FVec F S1024x256 .f32) (main_arg9 : FVec F S256 .f32) (main_arg10 : FVec F S256x128 .f32) (main_arg11 : FVec F S128 .f32) (main_arg12 : FVec F S128x4 .f32) (main_arg13 : FVec F S4 .f32) (main_arg14 : FVec F S512x128 .f32) (main_arg15 : FVec F S128 .f32) (main_arg16 : FVec F S128x3 .f32) (main_arg17 : FVec F S3 .f32) (main_arg18 : FVec F S70x128 .f32) (main_arg19 : FVec F S128 .f32) (main_arg20 : FVec F S128x2 .f32) (main_arg21 : FVec F S2 .f32) (main_arg22 : FVec F S70x128 .f32) (main_arg23 : FVec F S128 .f32) (main_arg24 : FVec F S128x9 .f32) (main_arg25 : FVec F S9 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1024x256 .f32 := Host.absf main_arg8
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg3 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S256x64 .f32) (main_arg1 : FVec F S65536x1024 .f32) (main_arg2 : FVec F S6 .f32) (main_arg3 : IVec S65536 32) (main_arg4 : IVec S524288 32) (main_arg5 : IVec S524288 32) (main_arg6 : FVec F S64x256 .f32) (main_arg7 : FVec F S256 .f32) (main_arg8 : FVec F S1024x256 .f32) (main_arg9 : FVec F S256 .f32) (main_arg10 : FVec F S256x128 .f32) (main_arg11 : FVec F S128 .f32) (main_arg12 : FVec F S128x4 .f32) (main_arg13 : FVec F S4 .f32) (main_arg14 : FVec F S512x128 .f32) (main_arg15 : FVec F S128 .f32) (main_arg16 : FVec F S128x3 .f32) (main_arg17 : FVec F S3 .f32) (main_arg18 : FVec F S70x128 .f32) (main_arg19 : FVec F S128 .f32) (main_arg20 : FVec F S128x2 .f32) (main_arg21 : FVec F S2 .f32) (main_arg22 : FVec F S70x128 .f32) (main_arg23 : FVec F S128 .f32) (main_arg24 : FVec F S128x9 .f32) (main_arg25 : FVec F S9 .f32) : IVec S_ 1 :=
  let main_v0 : FVec F S256x64 .f32 := Host.absf main_arg0
  let main_cst : FVec F S_ .f32 := constant S_ .f32 0x7F800000#32
  let main_v1 : FVec F S256x64 .f32 := broadcastInDim S256x64 ![] bcast_S_S256x64 main_cst
  let main_v2 : IVec S256x64 1 := cmpf .olt main_v0 main_v1
  let main_c : IVec S_ 1 := constantI S_ 1 1#1
  let main_v3 : IVec S_ 1 := (fun x v => Host.reduce IntOp.andi x v reducesTo_S256x64_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S6 .f32 := Host.absf main_arg2
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  let main_v14 : FVec F S64x256 .f32 := Host.absf main_arg6
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg3 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S256x64 : Shape := ⟨2, ![256, 64]⟩
abbrev S65536x1024 : Shape := ⟨2, ![65536, 1024]⟩
abbrev S6 : Shape := ⟨1, ![6]⟩
abbrev S65536 : Shape := ⟨1, ![65536]⟩
abbrev S524288 : Shape := ⟨1, ![524288]⟩
abbrev S64x256 : Shape := ⟨2, ![64, 256]⟩
abbrev S256 : Shape := ⟨1, ![256]⟩
abbrev S1024x256 : Shape := ⟨2, ![1024, 256]⟩
abbrev S256x128 : Shape := ⟨2, ![256, 128]⟩
abbrev S128 : Shape := ⟨1, ![128]⟩
abbrev S128x4 : Shape := ⟨2, ![128, 4]⟩
abbrev S4 : Shape := ⟨1, ![4]⟩
abbrev S512x128 : Shape := ⟨2, ![512, 128]⟩
abbrev S128x3 : Shape := ⟨2, ![128, 3]⟩
abbrev S3 : Shape := ⟨1, ![3]⟩
abbrev S70x128 : Shape := ⟨2, ![70, 128]⟩
abbrev S128x2 : Shape := ⟨2, ![128, 2]⟩
abbrev S2 : Shape := ⟨1, ![2]⟩
abbrev S128x9 : Shape := ⟨2, ![128, 9]⟩
abbrev S9 : Shape := ⟨1, ![9]⟩
abbrev S64x128 : Shape := ⟨2, ![64, 128]⟩
abbrev S6x128 : Shape := ⟨2, ![6, 128]⟩
abbrev S1x6 : Shape := ⟨2, ![1, 6]⟩
abbrev S1x256 : Shape := ⟨2, ![1, 256]⟩
abbrev S1x128 : Shape := ⟨2, ![1, 128]⟩
abbrev S1x4 : Shape := ⟨2, ![1, 4]⟩
abbrev S1x3 : Shape := ⟨2, ![1, 3]⟩
abbrev S1x2 : Shape := ⟨2, ![1, 2]⟩
abbrev S1x9 : Shape := ⟨2, ![1, 9]⟩
abbrev S256x256 : Shape := ⟨2, ![256, 256]⟩
abbrev S256x2 : Shape := ⟨2, ![256, 2]⟩
abbrev S256x9 : Shape := ⟨2, ![256, 9]⟩
abbrev S65536x1 : Shape := ⟨2, ![65536, 1]⟩
abbrev S65536x4 : Shape := ⟨2, ![65536, 4]⟩
abbrev S2048x1024 : Shape := ⟨2, ![2048, 1024]⟩
abbrev S2048x1 : Shape := ⟨2, ![2048, 1]⟩
abbrev S2048x4 : Shape := ⟨2, ![2048, 4]⟩
abbrev S2048x256 : Shape := ⟨2, ![2048, 256]⟩
abbrev S2048x128 : Shape := ⟨2, ![2048, 128]⟩
abbrev S_ : Shape := ⟨0, ![]⟩
abbrev S524288x1 : Shape := ⟨2, ![524288, 1]⟩
abbrev S524288x3 : Shape := ⟨2, ![524288, 3]⟩
abbrev S4096x1 : Shape := ⟨2, ![4096, 1]⟩
abbrev S4096x3 : Shape := ⟨2, ![4096, 3]⟩
abbrev S4096x256 : Shape := ⟨2, ![4096, 256]⟩
abbrev S4096x128 : Shape := ⟨2, ![4096, 128]⟩

abbrev nBuf : Space → Nat
  | .hbm => 71
  | .vmem => 45
  | .smem => 0
  | _ => 0

abbrev bufTy : (tb : Table) → Fin (tcTables nBuf tb) → BufTy
  | .hbm, ⟨0, _⟩ => ⟨S256x64, .f32⟩
  | .hbm, ⟨1, _⟩ => ⟨S65536x1024, .f32⟩
  | .hbm, ⟨2, _⟩ => ⟨S6, .f32⟩
  | .hbm, ⟨3, _⟩ => ⟨S65536, .i32⟩
  | .hbm, ⟨4, _⟩ => ⟨S524288, .i32⟩
  | .hbm, ⟨5, _⟩ => ⟨S524288, .i32⟩
  | .hbm, ⟨6, _⟩ => ⟨S64x256, .f32⟩
  | .hbm, ⟨7, _⟩ => ⟨S256, .f32⟩
  | .hbm, ⟨8, _⟩ => ⟨S1024x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x4, .f32⟩
  | .hbm, ⟨13, _⟩ => ⟨S4, .f32⟩
  | .hbm, ⟨14, _⟩ => ⟨S512x128, .f32⟩
  | .hbm, ⟨15, _⟩ => ⟨S128, .f32⟩
  | .hbm, ⟨16, _⟩ => ⟨S128x3, .f32⟩
  | .hbm, ⟨17, _⟩ => ⟨S3, .f32⟩
  | .hbm, ⟨18, _⟩ => ⟨S70x128, .f32⟩
  | .hbm, ⟨19, _⟩ => ⟨S128, .f32⟩
  | .hbm, ⟨20, _⟩ => ⟨S128x2, .f32⟩
  | .hbm, ⟨21, _⟩ => ⟨S2, .f32⟩
  | .hbm, ⟨22, _⟩ => ⟨S70x128, .f32⟩
  | .hbm, ⟨23, _⟩ => ⟨S128, .f32⟩
  | .hbm, ⟨24, _⟩ => ⟨S128x9, .f32⟩
  | .hbm, ⟨25, _⟩ => ⟨S9, .f32⟩
  | .hbm, ⟨26, _⟩ => ⟨S64x128, .f32⟩
  | .hbm, ⟨27, _⟩ => ⟨S6x128, .f32⟩
  | .hbm, ⟨28, _⟩ => ⟨S64x128, .f32⟩
  | .hbm, ⟨29, _⟩ => ⟨S6x128, .f32⟩
  | .hbm, ⟨30, _⟩ => ⟨S256x128, .f32⟩
  | .hbm, ⟨31, _⟩ => ⟨S256x128, .f32⟩
  | .hbm, ⟨32, _⟩ => ⟨S1x6, .f32⟩
  | .hbm, ⟨33, _⟩ => ⟨S1x256, .f32⟩
  | .hbm, ⟨34, _⟩ => ⟨S1x256, .f32⟩
  | .hbm, ⟨35, _⟩ => ⟨S1x128, .f32⟩
  | .hbm, ⟨36, _⟩ => ⟨S1x4, .f32⟩
  | .hbm, ⟨37, _⟩ => ⟨S1x128, .f32⟩
  | .hbm, ⟨38, _⟩ => ⟨S1x3, .f32⟩
  | .hbm, ⟨39, _⟩ => ⟨S1x128, .f32⟩
  | .hbm, ⟨40, _⟩ => ⟨S1x2, .f32⟩
  | .hbm, ⟨41, _⟩ => ⟨S1x128, .f32⟩
  | .hbm, ⟨42, _⟩ => ⟨S1x9, .f32⟩
  | .hbm, ⟨43, _⟩ => ⟨S256x256, .f32⟩
  | .hbm, ⟨44, _⟩ => ⟨S256x2, .f32⟩
  | .hbm, ⟨45, _⟩ => ⟨S256x9, .f32⟩
  | .hbm, ⟨46, _⟩ => ⟨S256x128, .f32⟩
  | .hbm, ⟨47, _⟩ => ⟨S256x128, .f32⟩
  | .hbm, ⟨48, _⟩ => ⟨S65536x1, .i32⟩
  | .hbm, ⟨49, _⟩ => ⟨S65536x4, .f32⟩
  | .hbm, ⟨50, _⟩ => ⟨S_, .i32⟩
  | .hbm, ⟨51, _⟩ => ⟨S524288, .i32⟩
  | .hbm, ⟨52, _⟩ => ⟨S524288, .i1⟩
  | .hbm, ⟨53, _⟩ => ⟨S_, .i32⟩
  | .hbm, ⟨54, _⟩ => ⟨S524288, .i32⟩
  | .hbm, ⟨55, _⟩ => ⟨S524288, .i32⟩
  | .hbm, ⟨56, _⟩ => ⟨S524288, .i32⟩
  | .hbm, ⟨57, _⟩ => ⟨S524288x1, .i32⟩
  | .hbm, ⟨58, _⟩ => ⟨S524288, .i32⟩
  | .hbm, ⟨59, _⟩ => ⟨S524288x1, .i32⟩
  | .hbm, ⟨60, _⟩ => ⟨S_, .i32⟩
  | .hbm, ⟨61, _⟩ => ⟨S524288, .i32⟩
  | .hbm, ⟨62, _⟩ => ⟨S524288, .i1⟩
  | .hbm, ⟨63, _⟩ => ⟨S_, .i32⟩
  | .hbm, ⟨64, _⟩ => ⟨S524288, .i32⟩
  | .hbm, ⟨65, _⟩ => ⟨S524288, .i32⟩
  | .hbm, ⟨66, _⟩ => ⟨S524288, .i32⟩
  | .hbm, ⟨67, _⟩ => ⟨S524288x1, .i32⟩
  | .hbm, ⟨68, _⟩ => ⟨S524288, .i32⟩
  | .hbm, ⟨69, _⟩ => ⟨S524288x1, .i32⟩
  | .hbm, ⟨70, _⟩ => ⟨S524288x3, .f32⟩
  | .local _ .vmem, ⟨0, _⟩ => ⟨S256x64, .f32⟩
  | .local _ .vmem, ⟨1, _⟩ => ⟨S1x6, .f32⟩
  | .local _ .vmem, ⟨2, _⟩ => ⟨S64x256, .f32⟩
  | .local _ .vmem, ⟨3, _⟩ => ⟨S1x256, .f32⟩
  | .local _ .vmem, ⟨4, _⟩ => ⟨S256x128, .f32⟩
  | .local _ .vmem, ⟨5, _⟩ => ⟨S256x128, .f32⟩
  | .local _ .vmem, ⟨6, _⟩ => ⟨S64x128, .f32⟩
  | .local _ .vmem, ⟨7, _⟩ => ⟨S6x128, .f32⟩
  | .local _ .vmem, ⟨8, _⟩ => ⟨S1x128, .f32⟩
  | .local _ .vmem, ⟨9, _⟩ => ⟨S128x2, .f32⟩
  | .local _ .vmem, ⟨10, _⟩ => ⟨S1x2, .f32⟩
  | .local _ .vmem, ⟨11, _⟩ => ⟨S64x128, .f32⟩
  | .local _ .vmem, ⟨12, _⟩ => ⟨S6x128, .f32⟩
  | .local _ .vmem, ⟨13, _⟩ => ⟨S1x128, .f32⟩
  | .local _ .vmem, ⟨14, _⟩ => ⟨S128x9, .f32⟩
  | .local _ .vmem, ⟨15, _⟩ => ⟨S1x9, .f32⟩
  | .local _ .vmem, ⟨16, _⟩ => ⟨S256x256, .f32⟩
  | .local _ .vmem, ⟨17, _⟩ => ⟨S256x2, .f32⟩
  | .local _ .vmem, ⟨18, _⟩ => ⟨S256x9, .f32⟩
  | .local _ .vmem, ⟨19, _⟩ => ⟨S256x128, .f32⟩
  | .local _ .vmem, ⟨20, _⟩ => ⟨S256x128, .f32⟩
  | .local _ .vmem, ⟨21, _⟩ => ⟨S2048x1024, .f32⟩
  | .local _ .vmem, ⟨22, _⟩ => ⟨S2048x1024, .f32⟩
  | .local _ .vmem, ⟨23, _⟩ => ⟨S2048x1, .i32⟩
  | .local _ .vmem, ⟨24, _⟩ => ⟨S2048x1, .i32⟩
  | .local _ .vmem, ⟨25, _⟩ => ⟨S256x256, .f32⟩
  | .local _ .vmem, ⟨26, _⟩ => ⟨S1024x256, .f32⟩
  | .local _ .vmem, ⟨27, _⟩ => ⟨S1x256, .f32⟩
  | .local _ .vmem, ⟨28, _⟩ => ⟨S256x128, .f32⟩
  | .local _ .vmem, ⟨29, _⟩ => ⟨S1x128, .f32⟩
  | .local _ .vmem, ⟨30, _⟩ => ⟨S128x4, .f32⟩
  | .local _ .vmem, ⟨31, _⟩ => ⟨S1x4, .f32⟩
  | .local _ .vmem, ⟨32, _⟩ => ⟨S2048x4, .f32⟩
  | .local _ .vmem, ⟨33, _⟩ => ⟨S2048x4, .f32⟩
  | .local _ .vmem, ⟨34, _⟩ => ⟨S4096x1, .i32⟩
  | .local _ .vmem, ⟨35, _⟩ => ⟨S4096x1, .i32⟩
  | .local _ .vmem, ⟨36, _⟩ => ⟨S4096x1, .i32⟩
  | .local _ .vmem, ⟨37, _⟩ => ⟨S4096x1, .i32⟩
  | .local _ .vmem, ⟨38, _⟩ => ⟨S256x128, .f32⟩
  | .local _ .vmem, ⟨39, _⟩ => ⟨S256x128, .f32⟩
  | .local _ .vmem, ⟨40, _⟩ => ⟨S1x128, .f32⟩
  | .local _ .vmem, ⟨41, _⟩ => ⟨S128x3, .f32⟩
  | .local _ .vmem, ⟨42, _⟩ => ⟨S1x3, .f32⟩
  | .local _ .vmem, ⟨43, _⟩ => ⟨S4096x3, .f32⟩
  | .local _ .vmem, ⟨44, _⟩ => ⟨S4096x3, .f32⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17_0 : Ref sig .tc := ⟨.hbm, 43, rfl⟩
abbrev main_v17_1 : Ref sig .tc := ⟨.hbm, 44, rfl⟩
abbrev main_v17_2 : Ref sig .tc := ⟨.hbm, 45, rfl⟩
abbrev main_v17_3 : Ref sig .tc := ⟨.hbm, 46, rfl⟩
abbrev main_v17_4 : Ref sig .tc := ⟨.hbm, 47, rfl⟩
abbrev main_v18 : Ref sig .tc := ⟨.hbm, 48, rfl⟩
abbrev main_v19 : Ref sig .tc := ⟨.hbm, 49, rfl⟩
abbrev main_c : Ref sig .tc := ⟨.hbm, 50, rfl⟩
abbrev main_v20 : Ref sig .tc := ⟨.hbm, 51, rfl⟩
abbrev main_v21 : Ref sig .tc := ⟨.hbm, 52, rfl⟩
abbrev main_c_0 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_1 : Ref sig .tc := ⟨.hbm, 60, rfl⟩
abbrev main_v28 : Ref sig .tc := ⟨.hbm, 61, rfl⟩
abbrev main_v29 : Ref sig .tc := ⟨.hbm, 62, rfl⟩
abbrev main_c_2 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg9_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg7_1 : Ref sig .tc := ⟨.vmem, 44, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem9_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem7_1 : DmaSem sig := 44

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x9 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x9 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x9 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x4 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x4 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4096x3 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S70x128_S64x128_0_0 : S70x128.Slices ![0, 0] S64x128
  slices_S70x128_S6x128_64_0 : S70x128.Slices ![64, 0] S6x128
  slices_S512x128_S256x128_0_0 : S512x128.Slices ![0, 0] S256x128
  slices_S512x128_S256x128_256_0 : S512x128.Slices ![256, 0] S256x128
  shapeCasts_S6_S1x6 : S6.ShapeCasts S1x6
  shapeCasts_S256_S1x256 : S256.ShapeCasts S1x256
  shapeCasts_S128_S1x128 : S128.ShapeCasts S1x128
  shapeCasts_S4_S1x4 : S4.ShapeCasts S1x4
  shapeCasts_S3_S1x3 : S3.ShapeCasts S1x3
  shapeCasts_S2_S1x2 : S2.ShapeCasts S1x2
  shapeCasts_S9_S1x9 : S9.ShapeCasts S1x9
  inb_S256x64_S256x64_0_0 : ∀ a, (![0, 0] : Fin 2 → Nat) a + S256x64.size a ≤ S256x64.size a
  h_S256x64 : 0 < S256x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x6_S1x6_0_0 : ∀ a, (![0, 0] : Fin 2 → Nat) a + S1x6.size a ≤ S1x6.size a
  h_S1x6 : 0 < S1x6.numel
  shapeCasts_S1x6_S1x6 : S1x6.ShapeCasts S1x6
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S6x128_S6x128_0_0 : ∀ a, (![0, 0] : Fin 2 → Nat) a + S6x128.size a ≤ S6x128.size a
  h_S6x128 : 0 < S6x128.numel
  shapeCasts_S6x128_S6x128 : S6x128.ShapeCasts S6x128
  broadcasts_S1x128_S256x128 : S1x128.Broadcasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  inb_S128x9_S128x9_0_0 : ∀ a, (![0, 0] : Fin 2 → Nat) a + S128x9.size a ≤ S128x9.size a
  h_S128x9 : 0 < S128x9.numel
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S256x9 : S1x9.Broadcasts S256x9
  inb_S256x9_S256x9_0_0 : ∀ a, (![0, 0] : Fin 2 → Nat) a + S256x9.size a ≤ S256x9.size a
  h_S256x9 : 0 < S256x9.numel
  shapeCasts_S65536_S65536x1 : S65536.ShapeCasts S65536x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x256_d1_w32 : S2048x256.Iotas .tc 32 [1]
  broadcasts_S2048x1_S2048x256 : S2048x1.Broadcasts S2048x256
  natLt_1_32 : 1 < 32
  shapeCasts_S256x256_S256x256 : S256x256.ShapeCasts S256x256
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  broadcasts_S1x256_S2048x256 : S1x256.Broadcasts S2048x256
  broadcasts_S1x128_S2048x128 : S1x128.Broadcasts S2048x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2048x4 : S1x4.Broadcasts S2048x4
  inb_S2048x4_S2048x4_0_0 : ∀ a, (![0, 0] : Fin 2 → Nat) a + S2048x4.size a ≤ S2048x4.size a
  h_S2048x4 : 0 < S2048x4.numel
  bcast_S_S524288 : S_.BroadcastsInDim S524288 (![] : Fin 0 → Fin S524288.rank)
  bcast_S524288_S524288x1_0 : S524288.BroadcastsInDim S524288x1 (![0] : Fin 1 → Fin S524288x1.rank)
  shapeCasts_S524288_S524288x1 : S524288.ShapeCasts S524288x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x256_d1_w32 : S4096x256.Iotas .tc 32 [1]
  broadcasts_S4096x1_S4096x256 : S4096x1.Broadcasts S4096x256
  broadcasts_S1x128_S4096x128 : S1x128.Broadcasts S4096x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4096x3 : S1x3.Broadcasts S4096x3
  inb_S4096x3_S4096x3_0_0 : ∀ a, (![0, 0] : Fin 2 → Nat) a + S4096x3.size a ≤ S4096x3.size a
  h_S4096x3 : 0 < S4096x3.numel
  dot_S256x64_S64x256_S256x256_1_0_0_1_n_n_wf : DotDims.WF S256x64 S64x256 S256x256 [1] [0] [0] [1] [] []
  dot_S256x256_S256x128_S256x128_1_0_0_1_n_n_wf : DotDims.WF S256x256 S256x128 S256x128 [1] [0] [0] [1] [] []
  dot_S256x64_S64x128_S256x128_1_0_0_1_n_n_wf : DotDims.WF S256x64 S64x128 S256x128 [1] [0] [0] [1] [] []
  dot_S1x6_S6x128_S1x128_1_0_0_1_n_n_wf : DotDims.WF S1x6 S6x128 S1x128 [1] [0] [0] [1] [] []
  dot_S256x128_S128x2_S256x2_1_0_0_1_n_n_wf : DotDims.WF S256x128 S128x2 S256x2 [1] [0] [0] [1] [] []
  dot_S256x128_S128x9_S256x9_1_0_0_1_n_n_wf : DotDims.WF S256x128 S128x9 S256x9 [1] [0] [0] [1] [] []
  dot_S2048x256_S256x256_S2048x256_1_0_0_1_n_n_wf : DotDims.WF S2048x256 S256x256 S2048x256 [1] [0] [0] [1] [] []
  dot_S2048x1024_S1024x256_S2048x256_1_0_0_1_n_n_wf : DotDims.WF S2048x1024 S1024x256 S2048x256 [1] [0] [0] [1] [] []
  dot_S2048x256_S256x128_S2048x128_1_0_0_1_n_n_wf : DotDims.WF S2048x256 S256x128 S2048x128 [1] [0] [0] [1] [] []
  dot_S2048x128_S128x4_S2048x4_1_0_0_1_n_n_wf : DotDims.WF S2048x128 S128x4 S2048x4 [1] [0] [0] [1] [] []
  gather_S65536_S524288x1_S524288_n_0_n_n_0_1_1_wf : GatherDims.WF S65536 S524288x1 S524288 [] [0] [] [0] [] 1 ![1]
  dot_S4096x256_S256x128_S4096x128_1_0_0_1_n_n_wf : DotDims.WF S4096x256 S256x128 S4096x128 [1] [0] [0] [1] [] []
  dot_S4096x128_S128x3_S4096x3_1_0_0_1_n_n_wf : DotDims.WF S4096x128 S128x3 S4096x3 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S256x64.size a
  hwx0_0 : ∀ i : grid0.Coords, EltTy.bits .f32 = 32 ∨ (Rect.block (s := S256x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x6.size a ≤ S1x6.size a
  hwx0_1 : ∀ i : grid0.Coords, EltTy.bits .f32 = 32 ∨ (Rect.block (s := S1x6) S1x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x128.size a ≤ S6x128.size a
  hwx0_7 : ∀ i : grid0.Coords, EltTy.bits .f32 = 32 ∨ (Rect.block (s := S6x128) S6x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x2.size a ≤ S128x2.size a
  hwx0_9 : ∀ i : grid0.Coords, EltTy.bits .f32 = 32 ∨ (Rect.block (s := S128x2) S128x2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2.size a ≤ S1x2.size a
  hwx0_10 : ∀ i : grid0.Coords, EltTy.bits .f32 = 32 ∨ (Rect.block (s := S1x2) S1x2.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x128.size a ≤ S64x128.size a
  hwx0_11 : ∀ i : grid0.Coords, EltTy.bits .f32 = 32 ∨ (Rect.block (s := S64x128) S64x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S6x128.size a ≤ S6x128.size a
  hwx0_12 : ∀ i : grid0.Coords, EltTy.bits .f32 = 32 ∨ (Rect.block (s := S6x128) S6x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x9.size a ≤ S128x9.size a
  hwx0_14 : ∀ i : grid0.Coords, EltTy.bits .f32 = 32 ∨ (Rect.block (s := S128x9) S128x9.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x9.size a ≤ S1x9.size a
  hwx0_15 : ∀ i : grid0.Coords, EltTy.bits .f32 = 32 ∨ (Rect.block (s := S1x9) S1x9.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S256x256.size a
  hwx0_16 : ∀ i : grid0.Coords, EltTy.bits .f32 = 32 ∨ (Rect.block (s := S256x256) S256x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x2.size a ≤ S256x2.size a
  hwx0_17 : ∀ i : grid0.Coords, EltTy.bits .f32 = 32 ∨ (Rect.block (s := S256x2) S256x2.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x9.size a ≤ S256x9.size a
  hwx0_18 : ∀ i : grid0.Coords, EltTy.bits .f32 = 32 ∨ (Rect.block (s := S256x9) S256x9.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x128.size a ≤ S256x128.size a
  hwx0_19 : ∀ i : grid0.Coords, EltTy.bits .f32 = 32 ∨ (Rect.block (s := S256x128) S256x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x128.size a ≤ S256x128.size a
  hwx0_20 : ∀ i : grid0.Coords, EltTy.bits .f32 = 32 ∨ (Rect.block (s := S256x128) S256x128.size (cc0_transform_20 i) (hinb0_20 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S65536x1024.size a
  hwx1_0 : ∀ i : grid1.Coords, EltTy.bits .f32 = 32 ∨ (Rect.block (s := S65536x1024) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S65536x1.size a
  hwx1_1 : ∀ i : grid1.Coords, EltTy.bits .i32 = 32 ∨ (Rect.block (s := S65536x1) S2048x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S1024x256.size a
  hwx1_3 : ∀ i : grid1.Coords, EltTy.bits .f32 = 32 ∨ (Rect.block (s := S1024x256) S1024x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x4.size a ≤ S128x4.size a
  hwx1_7 : ∀ i : grid1.Coords, EltTy.bits .f32 = 32 ∨ (Rect.block (s := S128x4) S128x4.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x4.size a ≤ S1x4.size a
  hwx1_8 : ∀ i : grid1.Coords, EltTy.bits .f32 = 32 ∨ (Rect.block (s := S1x4) S1x4.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x4.size a ≤ S65536x4.size a
  hwx1_9 : ∀ i : grid1.Coords, EltTy.bits .f32 = 32 ∨ (Rect.block (s := S65536x4) S2048x4.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x1.size a ≤ S524288x1.size a
  hwx2_0 : ∀ i : grid2.Coords, EltTy.bits .i32 = 32 ∨ (Rect.block (s := S524288x1) S4096x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S524288x1.size a
  hwx2_1 : ∀ i : grid2.Coords, EltTy.bits .i32 = 32 ∨ (Rect.block (s := S524288x1) S4096x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x3.size a ≤ S128x3.size a
  hwx2_5 : ∀ i : grid2.Coords, EltTy.bits .f32 = 32 ∨ (Rect.block (s := S128x3) S128x3.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x3.size a ≤ S1x3.size a
  hwx2_6 : ∀ i : grid2.Coords, EltTy.bits .f32 = 32 ∨ (Rect.block (s := S1x3) S1x3.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4096x3.size a ≤ S524288x3.size a
  hwx2_7 : ∀ i : grid2.Coords, EltTy.bits .f32 = 32 ∨ (Rect.block (s := S524288x3) S4096x3.size (cc2_transform_7 i) (hinb2_7 i)).WholeWords (EltTy.packing .f32)

variable [Facts₀]

def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S1x6_S6x128_S1x128_1_0_0_1_n_n : DotDims S1x6 S6x128 S1x128 where
  lhsContracting := [1]
  rhsContracting := [0]
  lhsNonContracting := [0]
  rhsNonContracting := [1]
  lhsBatch := []
  rhsBatch := []
  wf := dot_S1x6_S6x128_S1x128_1_0_0_1_n_n_wf
def dot_S256x128_S128x2_S256x2_1_0_0_1_n_n : DotDims S256x128 S128x2 S256x2 where
  lhsContracting := [1]
  rhsContracting := [0]
  lhsNonContracting := [0]
  rhsNonContracting := [1]
  lhsBatch := []
  rhsBatch := []
  wf := dot_S256x128_S128x2_S256x2_1_0_0_1_n_n_wf
def dot_S256x128_S128x9_S256x9_1_0_0_1_n_n : DotDims S256x128 S128x9 S256x9 where
  lhsContracting := [1]
  rhsContracting := [0]
  lhsNonContracting := [0]
  rhsNonContracting := [1]
  lhsBatch := []
  rhsBatch := []
  wf := dot_S256x128_S128x9_S256x9_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x4_S2048x4_1_0_0_1_n_n : DotDims S2048x128 S128x4 S2048x4 where
  lhsContracting := [1]
  rhsContracting := [0]
  lhsNonContracting := [0]
  rhsNonContracting := [1]
  lhsBatch := []
  rhsBatch := []
  wf := dot_S2048x128_S128x4_S2048x4_1_0_0_1_n_n_wf
def gather_S65536_S524288x1_S524288_n_0_n_n_0_1_1 : GatherDims S65536 S524288x1 S524288 where
  offsetDims := []
  collapsedSliceDims := [0]
  operandBatchingDims := []
  startIndicesBatchingDims := []
  startIndexMap := [0]
  indexVectorDim := 1
  sliceSizes := ![1]
  wf := gather_S65536_S524288x1_S524288_n_0_n_n_0_1_1_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x3_S4096x3_1_0_0_1_n_n : DotDims S4096x128 S128x3 S4096x3 where
  lhsContracting := [1]
  rhsContracting := [0]
  lhsNonContracting := [0]
  rhsNonContracting := [1]
  lhsBatch := []
  rhsBatch := []
  wf := dot_S4096x128_S128x3_S4096x3_1_0_0_1_n_n_wf

abbrev win0_0 : Pipeline.Window sig grid0 :=
  Pipeline.Window.ofSpec (Memref.whole main_arg0) S256x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S6x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg20) S128x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S64x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S6x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg24) S128x9.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16) S1x9.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v17_0) S256x256.size cc0_transform_16 reads0_16 true true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17_1) S256x2.size cc0_transform_17 reads0_17 true true 1 stage0_17 sem0_17
    hrank0 hreads0_17 hinb0_17 nbuf0_17 (Memref.isWhole_whole _) hwx0_17 hstage0_17

abbrev win0_18 : Pipeline.Window sig grid0 :=
  Pipeline.Window.ofSpec (Memref.whole main_v17_2) S256x9.size cc0_transform_18 reads0_18 true true 1 stage0_18 sem0_18
    hrank0 hreads0_18 hinb0_18 nbuf0_18 (Memref.isWhole_whole _) hwx0_18 hstage0_18

abbrev win0_19 : Pipeline.Window sig grid0 :=
  Pipeline.Window.ofSpec (Memref.whole main_v17_3) S256x128.size cc0_transform_19 reads0_19 true true 1 stage0_19 sem0_19
    hrank0 hreads0_19 hinb0_19 nbuf0_19 (Memref.isWhole_whole _) hwx0_19 hstage0_19

abbrev win0_20 : Pipeline.Window sig grid0 :=
  Pipeline.Window.ofSpec (Memref.whole main_v17_4) S256x128.size cc0_transform_20 reads0_20 true true 1 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_0) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S1024x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S128x4.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S1x4.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19) S2048x4.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v27) S4096x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17_3) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17_4) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S128x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S1x3.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v36) S4096x3.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S256x64 : Shape := ⟨2, ![256, 64]⟩
abbrev S65536x1024 : Shape := ⟨2, ![65536, 1024]⟩
abbrev S6 : Shape := ⟨1, ![6]⟩
abbrev S65536 : Shape := ⟨1, ![65536]⟩
abbrev S524288 : Shape := ⟨1, ![524288]⟩
abbrev S64x256 : Shape := ⟨2, ![64, 256]⟩
abbrev S256 : Shape := ⟨1, ![256]⟩
abbrev S1024x256 : Shape := ⟨2, ![1024, 256]⟩
abbrev S256x128 : Shape := ⟨2, ![256, 128]⟩
abbrev S128 : Shape := ⟨1, ![128]⟩
abbrev S128x4 : Shape := ⟨2, ![128, 4]⟩
abbrev S4 : Shape := ⟨1, ![4]⟩
abbrev S512x128 : Shape := ⟨2, ![512, 128]⟩
abbrev S128x3 : Shape := ⟨2, ![128, 3]⟩
abbrev S3 : Shape := ⟨1, ![3]⟩
abbrev S70x128 : Shape := ⟨2, ![70, 128]⟩
abbrev S128x2 : Shape := ⟨2, ![128, 2]⟩
abbrev S2 : Shape := ⟨1, ![2]⟩
abbrev S128x9 : Shape := ⟨2, ![128, 9]⟩
abbrev S9 : Shape := ⟨1, ![9]⟩
abbrev S256x256 : Shape := ⟨2, ![256, 256]⟩
abbrev S1x256 : Shape := ⟨2, ![1, 256]⟩
abbrev S_ : Shape := ⟨0, ![]⟩
abbrev S65536x1 : Shape := ⟨2, ![65536, 1]⟩
abbrev S65536x256 : Shape := ⟨2, ![65536, 256]⟩
abbrev S65536x128 : Shape := ⟨2, ![65536, 128]⟩
abbrev S1x128 : Shape := ⟨2, ![1, 128]⟩
abbrev S65536x4 : Shape := ⟨2, ![65536, 4]⟩
abbrev S1x4 : Shape := ⟨2, ![1, 4]⟩
abbrev S524288x1 : Shape := ⟨2, ![524288, 1]⟩
abbrev S524288x256 : Shape := ⟨2, ![524288, 256]⟩
abbrev S524288x128 : Shape := ⟨2, ![524288, 128]⟩
abbrev S524288x3 : Shape := ⟨2, ![524288, 3]⟩
abbrev S1x3 : Shape := ⟨2, ![1, 3]⟩
abbrev S256x6 : Shape := ⟨2, ![256, 6]⟩
abbrev S256x70 : Shape := ⟨2, ![256, 70]⟩
abbrev S256x2 : Shape := ⟨2, ![256, 2]⟩
abbrev S1x2 : Shape := ⟨2, ![1, 2]⟩
abbrev S256x9 : Shape := ⟨2, ![256, 9]⟩
abbrev S1x9 : Shape := ⟨2, ![1, 9]⟩

abbrev nBuf : Space → Nat
  | .hbm => 118
  | .vmem => 0
  | .smem => 0
  | _ => 0

abbrev bufTy : (tb : Table) → Fin (tcTables nBuf tb) → BufTy
  | .hbm, ⟨0, _⟩ => ⟨S256x64, .f32⟩
  | .hbm, ⟨1, _⟩ => ⟨S65536x1024, .f32⟩
  | .hbm, ⟨2, _⟩ => ⟨S6, .f32⟩
  | .hbm, ⟨3, _⟩ => ⟨S65536, .i32⟩
  | .hbm, ⟨4, _⟩ => ⟨S524288, .i32⟩
  | .hbm, ⟨5, _⟩ => ⟨S524288, .i32⟩
  | .hbm, ⟨6, _⟩ => ⟨S64x256, .f32⟩
  | .hbm, ⟨7, _⟩ => ⟨S256, .f32⟩
  | .hbm, ⟨8, _⟩ => ⟨S1024x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x4, .f32⟩
  | .hbm, ⟨13, _⟩ => ⟨S4, .f32⟩
  | .hbm, ⟨14, _⟩ => ⟨S512x128, .f32⟩
  | .hbm, ⟨15, _⟩ => ⟨S128, .f32⟩
  | .hbm, ⟨16, _⟩ => ⟨S128x3, .f32⟩
  | .hbm, ⟨17, _⟩ => ⟨S3, .f32⟩
  | .hbm, ⟨18, _⟩ => ⟨S70x128, .f32⟩
  | .hbm, ⟨19, _⟩ => ⟨S128, .f32⟩
  | .hbm, ⟨20, _⟩ => ⟨S128x2, .f32⟩
  | .hbm, ⟨21, _⟩ => ⟨S2, .f32⟩
  | .hbm, ⟨22, _⟩ => ⟨S70x128, .f32⟩
  | .hbm, ⟨23, _⟩ => ⟨S128, .f32⟩
  | .hbm, ⟨24, _⟩ => ⟨S128x9, .f32⟩
  | .hbm, ⟨25, _⟩ => ⟨S9, .f32⟩
  | .hbm, ⟨26, _⟩ => ⟨S256x256, .f32⟩
  | .hbm, ⟨27, _⟩ => ⟨S1x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S65536x256, .f32⟩
  | .hbm, ⟨42, _⟩ => ⟨S65536x256, .f32⟩
  | .hbm, ⟨43, _⟩ => ⟨S1x256, .f32⟩
  | .hbm, ⟨44, _⟩ => ⟨S65536x256, .f32⟩
  | .hbm, ⟨45, _⟩ => ⟨S65536x256, .f32⟩
  | .hbm, ⟨46, _⟩ => ⟨S_, .f32⟩
  | .hbm, ⟨47, _⟩ => ⟨S65536x256, .f32⟩
  | .hbm, ⟨48, _⟩ => ⟨S65536x256, .f32⟩
  | .hbm, ⟨49, _⟩ => ⟨S65536x256, .f32⟩
  | .hbm, ⟨50, _⟩ => ⟨S65536x128, .f32⟩
  | .hbm, ⟨51, _⟩ => ⟨S1x128, .f32⟩
  | .hbm, ⟨52, _⟩ => ⟨S65536x128, .f32⟩
  | .hbm, ⟨53, _⟩ => ⟨S65536x128, .f32⟩
  | .hbm, ⟨54, _⟩ => ⟨S_, .f32⟩
  | .hbm, ⟨55, _⟩ => ⟨S65536x128, .f32⟩
  | .hbm, ⟨56, _⟩ => ⟨S65536x128, .f32⟩
  | .hbm, ⟨57, _⟩ => ⟨S65536x4, .f32⟩
  | .hbm, ⟨58, _⟩ => ⟨S1x4, .f32⟩
  | .hbm, ⟨59, _⟩ => ⟨S65536x4, .f32⟩
  | .hbm, ⟨60, _⟩ => ⟨S65536x4, .f32⟩
  | .hbm, ⟨61, _⟩ => ⟨S256x128, .f32⟩
  | .hbm, ⟨62, _⟩ => ⟨S256x128, .f32⟩
  | .hbm, ⟨63, _⟩ => ⟨S_, .i32⟩
  | .hbm, ⟨64, _⟩ => ⟨S524288, .i32⟩
  | .hbm, ⟨65, _⟩ => ⟨S524288, .i1⟩
  | .hbm, ⟨66, _⟩ => ⟨S_, .i32⟩
  | .hbm, ⟨67, _⟩ => ⟨S524288, .i32⟩
  | .hbm, ⟨68, _⟩ => ⟨S524288, .i32⟩
  | .hbm, ⟨69, _⟩ => ⟨S524288, .i32⟩
  | .hbm, ⟨70, _⟩ => ⟨S524288x1, .i32⟩
  | .hbm, ⟨71, _⟩ => ⟨S524288x256, .f32⟩
  | .hbm, ⟨72, _⟩ => ⟨S524288x128, .f32⟩
  | .hbm, ⟨73, _⟩ => ⟨S_, .i32⟩
  | .hbm, ⟨74, _⟩ => ⟨S524288, .i32⟩
  | .hbm, ⟨75, _⟩ => ⟨S524288, .i1⟩
  | .hbm, ⟨76, _⟩ => ⟨S_, .i32⟩
  | .hbm, ⟨77, _⟩ => ⟨S524288, .i32⟩
  | .hbm, ⟨78, _⟩ => ⟨S524288, .i32⟩
  | .hbm, ⟨79, _⟩ => ⟨S524288, .i32⟩
  | .hbm, ⟨80, _⟩ => ⟨S524288x1, .i32⟩
  | .hbm, ⟨81, _⟩ => ⟨S524288x256, .f32⟩
  | .hbm, ⟨82, _⟩ => ⟨S524288x128, .f32⟩
  | .hbm, ⟨83, _⟩ => ⟨S524288x128, .f32⟩
  | .hbm, ⟨84, _⟩ => ⟨S1x128, .f32⟩
  | .hbm, ⟨85, _⟩ => ⟨S524288x128, .f32⟩
  | .hbm, ⟨86, _⟩ => ⟨S524288x128, .f32⟩
  | .hbm, ⟨87, _⟩ => ⟨S_, .f32⟩
  | .hbm, ⟨88, _⟩ => ⟨S524288x128, .f32⟩
  | .hbm, ⟨89, _⟩ => ⟨S524288x128, .f32⟩
  | .hbm, ⟨90, _⟩ => ⟨S524288x3, .f32⟩
  | .hbm, ⟨91, _⟩ => ⟨S1x3, .f32⟩
  | .hbm, ⟨92, _⟩ => ⟨S524288x3, .f32⟩
  | .hbm, ⟨93, _⟩ => ⟨S524288x3, .f32⟩
  | .hbm, ⟨94, _⟩ => ⟨S256x6, .f32⟩
  | .hbm, ⟨95, _⟩ => ⟨S256x70, .f32⟩
  | .hbm, ⟨96, _⟩ => ⟨S256x128, .f32⟩
  | .hbm, ⟨97, _⟩ => ⟨S1x128, .f32⟩
  | .hbm, ⟨98, _⟩ => ⟨S256x128, .f32⟩
  | .hbm, ⟨99, _⟩ => ⟨S256x128, .f32⟩
  | .hbm, ⟨100, _⟩ => ⟨S_, .f32⟩
  | .hbm, ⟨101, _⟩ => ⟨S256x128, .f32⟩
  | .hbm, ⟨102, _⟩ => ⟨S256x128, .f32⟩
  | .hbm, ⟨103, _⟩ => ⟨S256x2, .f32⟩
  | .hbm, ⟨104, _⟩ => ⟨S1x2, .f32⟩
  | .hbm, ⟨105, _⟩ => ⟨S256x2, .f32⟩
  | .hbm, ⟨106, _⟩ => ⟨S256x2, .f32⟩
  | .hbm, ⟨107, _⟩ => ⟨S256x128, .f32⟩
  | .hbm, ⟨108, _⟩ => ⟨S1x128, .f32⟩
  | .hbm, ⟨109, _⟩ => ⟨S256x128, .f32⟩
  | .hbm, ⟨110, _⟩ => ⟨S256x128, .f32⟩
  | .hbm, ⟨111, _⟩ => ⟨S_, .f32⟩
  | .hbm, ⟨112, _⟩ => ⟨S256x128, .f32⟩
  | .hbm, ⟨113, _⟩ => ⟨S256x128, .f32⟩
  | .hbm, ⟨114, _⟩ => ⟨S256x9, .f32⟩
  | .hbm, ⟨115, _⟩ => ⟨S1x9, .f32⟩
  | .hbm, ⟨116, _⟩ => ⟨S256x9, .f32⟩
  | .hbm, ⟨117, _⟩ => ⟨S256x9, .f32⟩
  | _, _ => ⟨S256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_call0_cst : Ref sig .tc := ⟨.hbm, 30, rfl⟩
abbrev main_call0_v0 : Ref sig .tc := ⟨.hbm, 31, rfl⟩
abbrev main_v4 : Ref sig .tc := ⟨.hbm, 32, rfl⟩
abbrev main_c : Ref sig .tc := ⟨.hbm, 33, rfl⟩
abbrev main_v5 : Ref sig .tc := ⟨.hbm, 34, rfl⟩
abbrev main_v6 : Ref sig .tc := ⟨.hbm, 35, rfl⟩
abbrev main_c_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_call1_cst : Ref sig .tc := ⟨.hbm, 46, rfl⟩
abbrev main_call1_v0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_call2_cst : Ref sig .tc := ⟨.hbm, 54, rfl⟩
abbrev main_call2_v0 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_1 : Ref sig .tc := ⟨.hbm, 63, rfl⟩
abbrev main_v29 : Ref sig .tc := ⟨.hbm, 64, rfl⟩
abbrev main_v30 : Ref sig .tc := ⟨.hbm, 65, rfl⟩
abbrev main_c_2 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_3 : Ref sig .tc := ⟨.hbm, 73, rfl⟩
abbrev main_v37 : Ref sig .tc := ⟨.hbm, 74, rfl⟩
abbrev main_v38 : Ref sig .tc := ⟨.hbm, 75, rfl⟩
abbrev main_c_4 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_call3_cst : Ref sig .tc := ⟨.hbm, 87, rfl⟩
abbrev main_call3_v0 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_call4_cst : Ref sig .tc := ⟨.hbm, 100, rfl⟩
abbrev main_call4_v0 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_call5_cst : Ref sig .tc := ⟨.hbm, 111, rfl⟩
abbrev main_call5_v0 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  bcast_S_S65536 : S_.BroadcastsInDim S65536 (![] : Fin 0 → Fin S65536.rank)
  bcast_S65536_S65536x1_0 : S65536.BroadcastsInDim S65536x1 (![0] : Fin 1 → Fin S65536x1.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  slices_S512x128_S256x128_0_0 : S512x128.Slices ![0, 0] S256x128
  slices_S512x128_S256x128_256_0 : S512x128.Slices ![256, 0] S256x128
  bcast_S_S524288 : S_.BroadcastsInDim S524288 (![] : Fin 0 → Fin S524288.rank)
  bcast_S524288_S524288x1_0 : S524288.BroadcastsInDim S524288x1 (![0] : Fin 1 → Fin S524288x1.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  bcast_S3_S1x3_1 : S3.BroadcastsInDim S1x3 (![1] : Fin 1 → Fin S1x3.rank)
  bcast_S1x3_S524288x3_0_1 : S1x3.BroadcastsInDim S524288x3 (![0, 1] : Fin 2 → Fin S524288x3.rank)
  bcast_S6_S256x6_1 : S6.BroadcastsInDim S256x6 (![1] : Fin 1 → Fin S256x6.rank)
  concatenates_S256x64_S256x6_S256x70_d1 : Shape.Concatenates [S256x64, S256x6] S256x70 1
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  bcast_S9_S1x9_1 : S9.BroadcastsInDim S1x9 (![1] : Fin 1 → Fin S1x9.rank)
  bcast_S1x9_S256x9_0_1 : S1x9.BroadcastsInDim S256x9 (![0, 1] : Fin 2 → Fin S256x9.rank)
  dot_S256x64_S64x256_S256x256_1_0_0_1_n_n_wf : DotDims.WF S256x64 S64x256 S256x256 [1] [0] [0] [1] [] []
  gather_S256x256_S65536x1_S65536x256_1_0_n_n_0_1_1256_wf : GatherDims.WF S256x256 S65536x1 S65536x256 [1] [0] [] [0] [] 1 ![1, 256]
  dot_S65536x1024_S1024x256_S65536x256_1_0_0_1_n_n_wf : DotDims.WF S65536x1024 S1024x256 S65536x256 [1] [0] [0] [1] [] []
  dot_S65536x256_S256x128_S65536x128_1_0_0_1_n_n_wf : DotDims.WF S65536x256 S256x128 S65536x128 [1] [0] [0] [1] [] []
  dot_S65536x128_S128x4_S65536x4_1_0_0_1_n_n_wf : DotDims.WF S65536x128 S128x4 S65536x4 [1] [0] [0] [1] [] []
  gather_S65536x256_S524288x1_S524288x256_1_0_n_n_0_1_1256_wf : GatherDims.WF S65536x256 S524288x1 S524288x256 [1] [0] [] [0] [] 1 ![1, 256]
  dot_S524288x256_S256x128_S524288x128_1_0_0_1_n_n_wf : DotDims.WF S524288x256 S256x128 S524288x128 [1] [0] [0] [1] [] []
  dot_S524288x128_S128x3_S524288x3_1_0_0_1_n_n_wf : DotDims.WF S524288x128 S128x3 S524288x3 [1] [0] [0] [1] [] []
  dot_S256x70_S70x128_S256x128_1_0_0_1_n_n_wf : DotDims.WF S256x70 S70x128 S256x128 [1] [0] [0] [1] [] []
  dot_S256x128_S128x2_S256x2_1_0_0_1_n_n_wf : DotDims.WF S256x128 S128x2 S256x2 [1] [0] [0] [1] [] []
  dot_S256x128_S128x9_S256x9_1_0_0_1_n_n_wf : DotDims.WF S256x128 S128x9 S256x9 [1] [0] [0] [1] [] []

variable [Facts₀]

def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def gather_S256x256_S65536x1_S65536x256_1_0_n_n_0_1_1256 : GatherDims S256x256 S65536x1 S65536x256 where
  offsetDims := [1]
  collapsedSliceDims := [0]
  operandBatchingDims := []
  startIndicesBatchingDims := []
  startIndexMap := [0]
  indexVectorDim := 1
  sliceSizes := ![1, 256]
  wf := gather_S256x256_S65536x1_S65536x256_1_0_n_n_0_1_1256_wf
def dot_S65536x1024_S1024x256_S65536x256_1_0_0_1_n_n : DotDims S65536x1024 S1024x256 S65536x256 where
  lhsContracting := [1]
  rhsContracting := [0]
  lhsNonContracting := [0]
  rhsNonContracting := [1]
  lhsBatch := []
  rhsBatch := []
  wf := dot_S65536x1024_S1024x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x4_S65536x4_1_0_0_1_n_n : DotDims S65536x128 S128x4 S65536x4 where
  lhsContracting := [1]
  rhsContracting := [0]
  lhsNonContracting := [0]
  rhsNonContracting := [1]
  lhsBatch := []
  rhsBatch := []
  wf := dot_S65536x128_S128x4_S65536x4_1_0_0_1_n_n_wf
def gather_S65536x256_S524288x1_S524288x256_1_0_n_n_0_1_1256 : GatherDims S65536x256 S524288x1 S524288x256 where
  offsetDims := [1]
  collapsedSliceDims := [0]
  operandBatchingDims := []
  startIndicesBatchingDims := []
  startIndexMap := [0]
  indexVectorDim := 1
  sliceSizes := ![1, 256]
  wf := gather_S65536x256_S524288x1_S524288x256_1_0_n_n_0_1_1256_wf
def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf
def dot_S524288x128_S128x3_S524288x3_1_0_0_1_n_n : DotDims S524288x128 S128x3 S524288x3 where
  lhsContracting := [1]
  rhsContracting := [0]
  lhsNonContracting := [0]
  rhsNonContracting := [1]
  lhsBatch := []
  rhsBatch := []
  wf := dot_S524288x128_S128x3_S524288x3_1_0_0_1_n_n_wf
def dot_S256x70_S70x128_S256x128_1_0_0_1_n_n : DotDims S256x70 S70x128 S256x128 where
  lhsContracting := [1]
  rhsContracting := [0]
  lhsNonContracting := [0]
  rhsNonContracting := [1]
  lhsBatch := []
  rhsBatch := []
  wf := dot_S256x70_S70x128_S256x128_1_0_0_1_n_n_wf
def dot_S256x128_S128x2_S256x2_1_0_0_1_n_n : DotDims S256x128 S128x2 S256x2 where
  lhsContracting := [1]
  rhsContracting := [0]
  lhsNonContracting := [0]
  rhsNonContracting := [1]
  lhsBatch := []
  rhsBatch := []
  wf := dot_S256x128_S128x2_S256x2_1_0_0_1_n_n_wf
def dot_S256x128_S128x9_S256x9_1_0_0_1_n_n : DotDims S256x128 S128x9 S256x9 where
  lhsContracting := [1]
  rhsContracting := [0]
  lhsNonContracting := [0]
  rhsNonContracting := [1]
  lhsBatch := []
  rhsBatch := []
  wf := dot_S256x128_S128x9_S256x9_1_0_0_1_n_n_wf

class Facts : Prop extends Facts₀ where

variable [Facts]
-- ==== Proof.Spec.lean ====
/-
  The mathematics of the decoder, over the extended reals, on the literal sizes of the statement: 256 graphs, 65536 nodes,
  524288 edges. A matrix is a function of its rank-2 index, a bias a function of its rank-1 index, an integer array a
  function of its rank-1 index into 32-bit words.

  Two descriptions of the four results are given.
  * The GATHERING description: the latent projection `zProj = relu (z · W_lat + b_lat)`; a node takes its graph's row
    of it, the row its segment id names (read as an array index: a negative word counts from the end, and the row number
    is clamped into the table); an edge takes its source's and its destination's node rows likewise; then the dense
    layers. The graph heads act on `z` with the lattice vector appended to every row.
  * The ONE-HOT description: the row taken by an id is the product of the id's one-hot row (1 in the column whose
    number the id equals, 0 elsewhere) with the table; the edge layer's first product is pushed through the one-hot
    (`A = zProj · W_top`, `B = zProj · W_bot`, one-hot times `A` plus one-hot times `B`); the graph heads
    multiply `z` by the top 64 rows of the weight and add the lattice vector's product with the bottom 6 rows.
  That the two agree when every segment id is a row number of the 256-row table is proved in the algebra module.
-/
import Idealize.ShloMosaic.Lib.ValueIdx
import Idealize.ShloMosaic.PureOps.Ideal

noncomputable section

open scoped BigOperators
open Idealize.ShloMosaic Idealize.ShloMosaic.ValueIdx

namespace Cert.Spec

/-- An `M × N` matrix over the extended reals. -/
abbrev Mat (M N : Nat) : Type := (⟨2, ![M, N]⟩ : Shape).Idx → EReal
/-- A vector of `N` extended reals. -/
abbrev Row (N : Nat) : Type := (⟨1, ![N]⟩ : Shape).Idx → EReal
/-- A vector of `N` 32-bit words. -/
abbrev Words (N : Nat) : Type := (⟨1, ![N]⟩ : Shape).Idx → BitVec 32
/-- An `N × 1` column of 32-bit words. -/
abbrev WCol (N : Nat) : Type := (⟨2, ![N, 1]⟩ : Shape).Idx → BitVec 32

/-! ## The dense layers -/

/-- The matrix product: entry `(i, j)` is `∑ k, l i k * r k j`. -/
def mm {M K N : Nat} (l : Mat M K) (r : Mat K N) : Mat M N :=
  fun j => ∑ k : Fin K, l (ix2 (j 0) k) * r (ix2 k (j 1))
/-- Add a bias vector to every row. -/
def addRow {M N : Nat} (x : Mat M N) (b : Row N) : Mat M N := fun j => x j + b (ix1 (j 1))
/-- Add a `1 × N` matrix to every row. -/
def addRow2 {M N : Nat} (x : Mat M N) (b : Mat 1 N) : Mat M N := fun j => x j + b (ix2 0 (j 1))
/-- The entrywise sum. -/
def add {M N : Nat} (x y : Mat M N) : Mat M N := fun j => x j + y j
/-- The entrywise positive part. -/
def relu {M N : Nat} (x : Mat M N) : Mat M N := fun j => max (x j) 0
/-- A bias vector as a `1 × N` matrix. -/
def asRow2 {N : Nat} (b : Row N) : Mat 1 N := fun j => b (ix1 (j 1))
/-- A word vector as an `N × 1` column. -/
def asCol {N : Nat} (w : Words N) : WCol N := fun j => w (ix1 (j 0))
/-- Rows `off … off + M' - 1` of a matrix. -/
def rowSlice {M N : Nat} (M' off : Nat) (h : off + M' ≤ M) (x : Mat M N) : Mat M' N :=
  fun j => x (ix2 ⟨off + (j 0).val, Nat.lt_of_lt_of_le (Nat.add_lt_add_left (idx2_lt0 j) off) h⟩ (j 1))
/-- The rows of a table that a row-number map names. -/
def takeRows {M R N : Nat} (x : Mat M N) (g : Fin R → Fin M) : Mat R N := fun j => x (ix2 (g (j 0)) (j 1))

/-! ## An integer word as a row number -/

/-- Indexing by a signed word: a negative word counts from the end of an `N`-row table. -/
def wrapW (N : Nat) (w : BitVec 32) : BitVec 32 :=
  Scalar.select (IntOp.cmpi .slt w 0#32) (IntOp.addi w (BitVec.ofNat 32 N)) w
/-- A start index read signed and clamped into `0 … N - 1`. -/
def clampRow (N : Nat) (hN : 0 < N) (w : BitVec 32) : Fin N :=
  ⟨min w.toInt.toNat (N - 1), lt_of_le_of_lt (min_le_right _ _) (Nat.sub_lt hN Nat.one_pos)⟩
/-- The row of an `N`-row table an index word names: wrapped, then clamped. -/
def rowOf (N : Nat) (hN : 0 < N) (w : BitVec 32) : Fin N := clampRow N hN (wrapW N w)

/-- The one-hot row of a word against the column numbers `0 … C - 1`. -/
def hot (C : Nat) (w : BitVec 32) (b : Fin C) : EReal := if w = BitVec.ofNat 32 b.val then 1 else 0
/-- The one-hot matrix of a column of words: row `r` is the one-hot row of word `r`. -/
def oneHot {R : Nat} (C : Nat) (s : WCol R) : Mat R C := fun j => hot C (s (ix2 (j 0) 0)) (j 1)

/-! ## The gathering description -/

/-- The latent projection `relu (z · W_lat + b_lat)`. -/
def zProj (z : Mat 256 64) (Wlat : Mat 64 256) (blat : Row 256) : Mat 256 256 := relu (addRow (mm z Wlat) blat)
/-- The row of the latent table a node's segment id names. -/
def segRow (seg : Words 65536) (n : Fin 65536) : Fin 256 := rowOf 256 (by decide) (seg (ix1 n))
/-- The node an edge's endpoint word names. -/
def endRow (w : Words 524288) (e : Fin 524288) : Fin 65536 := rowOf 65536 (by decide) (w (ix1 e))
/-- Each node's latent row. -/
def zExp (zp : Mat 256 256) (seg : Words 65536) : Mat 65536 256 := takeRows zp (segRow seg)
/-- The node embedding's projection `relu (node_emb · W_nep + b_nep)`. -/
def nodeProj (ne : Mat 65536 1024) (Wnep : Mat 1024 256) (bnep : Row 256) : Mat 65536 256 := relu (addRow (mm ne Wnep) bnep)
/-- The node reconstruction. -/
def reconNode (zp : Mat 256 256) (ne : Mat 65536 1024) (seg : Words 65536) (Wnep : Mat 1024 256) (bnep : Row 256)
    (Wnd1 : Mat 256 128) (bnd1 : Row 128) (Wnd2 : Mat 128 4) (bnd2 : Row 4) : Mat 65536 4 :=
  addRow (mm (relu (addRow (mm (add (zExp zp seg) (nodeProj ne Wnep bnep)) Wnd1) bnd1)) Wnd2) bnd2
/-- The edge reconstruction: the source's and the destination's latent rows through the two halves of `W_ed1`. -/
def reconEdge (zp : Mat 256 256) (seg : Words 65536) (src dst : Words 524288) (Wed1 : Mat 512 128) (bed1 : Row 128)
    (Wed2 : Mat 128 3) (bed2 : Row 3) : Mat 524288 3 :=
  addRow (mm (relu (addRow (add (mm (takeRows (zExp zp seg) (endRow src)) (rowSlice 256 0 (by decide) Wed1))
    (mm (takeRows (zExp zp seg) (endRow dst)) (rowSlice 256 256 (by decide) Wed1))) bed1)) Wed2) bed2
/-- `z` with the lattice vector appended to every row. -/
def zLat (z : Mat 256 64) (lat : Row 6) : Mat 256 70 :=
  fun j => if h : (j 1).val < 64 then z (ix2 (j 0) ⟨(j 1).val, h⟩)
    else lat (ix1 ⟨(j 1).val - 64, by have := idx2_lt1 j; omega⟩)
/-- A graph head: two dense layers on `z` with the lattice appended. -/
def head {P : Nat} (z : Mat 256 64) (lat : Row 6) (W1 : Mat 70 128) (b1 : Row 128) (W2 : Mat 128 P) (b2 : Row P) : Mat 256 P :=
  addRow (mm (relu (addRow (mm (zLat z lat) W1) b1)) W2) b2

/-! ## The one-hot description (biases as `1 × N` matrices, ids as columns: the arrays the three stages are handed) -/

/-- The latent projection with the bias a `1 × 256` matrix. -/
def kZProj (z : Mat 256 64) (Wlat : Mat 64 256) (blat : Mat 1 256) : Mat 256 256 := relu (addRow2 (mm z Wlat) blat)
/-- A graph head with the weight split: `z` times the top 64 rows plus the lattice row times the bottom 6 rows. -/
def kHead {P : Nat} (z : Mat 256 64) (lat : Mat 1 6) (W1t : Mat 64 128) (W1b : Mat 6 128) (b1 : Mat 1 128) (W2 : Mat 128 P)
    (b2 : Mat 1 P) : Mat 256 P :=
  addRow2 (mm (relu (addRow2 (addRow2 (mm z W1t) (mm lat W1b)) b1)) W2) b2
/-- The node reconstruction with the latent row taken by a one-hot product. -/
def kNode (ne : Mat 65536 1024) (seg : WCol 65536) (zp : Mat 256 256) (Wnep : Mat 1024 256) (bnep : Mat 1 256)
    (Wnd1 : Mat 256 128) (bnd1 : Mat 1 128) (Wnd2 : Mat 128 4) (bnd2 : Mat 1 4) : Mat 65536 4 :=
  addRow2 (mm (relu (addRow2 (mm (add (mm (oneHot 256 seg) zp) (relu (addRow2 (mm ne Wnep) bnep))) Wnd1) bnd1)) Wnd2) bnd2
/-- The edge reconstruction from the two small tables `A` and `B` and the endpoints' segment ids. -/
def kEdge (ss sd : WCol 524288) (A B : Mat 256 128) (bed1 : Mat 1 128) (Wed2 : Mat 128 3) (bed2 : Mat 1 3) : Mat 524288 3 :=
  addRow2 (mm (relu (addRow2 (add (mm (oneHot 256 ss) A) (mm (oneHot 256 sd) B)) bed1)) Wed2) bed2
/-- The segment id of the node an endpoint word names, as a column. -/
def endSeg (seg : Words 65536) (w : Words 524288) : WCol 524288 := fun j => seg (ix1 (endRow w (j 0)))

/-- Every segment id is a row number of the 256-row latent table. -/
def SegOk (seg : Words 65536) : Prop := ∀ n : Fin 65536, 0 ≤ (seg (ix1 n)).toInt ∧ (seg (ix1 n)).toInt < 256

end Cert.Spec

end
-- ==== Proof.LibRow.lean ====
/-
  The layout and pointwise operations around a dense layer, read at the ideal values as whole-array equations: a bias
  row broadcast down the rows and added (the kernel's `vector.broadcast` of a `1 × N` value, the host's two
  `broadcast_in_dim`s of an `N`-vector), the positive part against a splat zero, a format change (the identity on
  extended reals), a slice of rows, a vector reshaped to one row or one column, and `z` joined with the lattice vector
  broadcast to every row.
-/
import proofs.«401555_j79637283602854_1_alg».proof.Proof.Spec
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.Lib

open Cert.Spec

variable {M N : Nat}

/-- A narrowing format change is the identity on extended reals. -/
theorem truncf_id {s : Shape} {φ ψ : FTy} (x : FVec Ideal s φ) (h : ψ.bits < φ.bits) : (truncf ψ x h : FVec Ideal s ψ) = x := rfl

/-- The entrywise sum of two matrices. -/
theorem addf_eq_add (x y : FVec Ideal ⟨2, ![M, N]⟩ .f32) : addf x y = add x y := rfl

/-- The kernel's bias: a `1 × N` value broadcast to `M × N` and added is that row added to every row. -/
theorem addf_broadcastTo_row (x : FVec Ideal ⟨2, ![M, N]⟩ .f32) (v : FVec Ideal ⟨2, ![1, N]⟩ .f32)
    (h : (⟨2, ![1, N]⟩ : Shape).Broadcasts ⟨2, ![M, N]⟩) :
    addf x (broadcastTo ⟨2, ![M, N]⟩ v h) = addRow2 x v := by
  funext j
  show x j + broadcastTo ⟨2, ![M, N]⟩ v h j = x j + v (ix2 0 (j 1))
  rw [broadcastTo_apply v h j (ix2 0 (j 1)) (fun a => by
    match a with
    | ⟨0, _⟩ => exact (if_pos rfl).symm
    | ⟨1, _⟩ =>
      show (j 1).val = if N = 1 then 0 else (j ⟨1 + (2 - 2), _⟩).val
      by_cases hN : N = 1
      · rw [if_pos hN]; have := idx2_lt1 j; omega
      · rw [if_neg hN]; rfl)]

/-- The kernel's positive part: the maximum with a splat zero. -/
theorem maximumf_broadcast_zero (x : FVec Ideal ⟨2, ![M, N]⟩ .f32) :
    maximumf x (broadcast ⟨2, ![M, N]⟩ (Scalar.ofBits (F := Ideal) .f32 0x00000000#32)) = relu x := by
  funext j
  show max (x j) (Ideal.ofBits .f32 0x00000000#32) = max (x j) 0
  rw [Ideal.ofBits_zero_f32]

/-- The host's bias: an `N`-vector broadcast to `1 × N`, then to `M × N`, and added is the vector added to every row. -/
theorem addf_broadcastInDim_row (x : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf x (broadcastInDim ⟨2, ![M, N]⟩ ![0, 1] h2 (broadcastInDim ⟨2, ![1, N]⟩ ![1] h1 b)) = addRow x b := by
  funext j
  show x j + broadcastInDim ⟨2, ![M, N]⟩ ![0, 1] h2 (broadcastInDim ⟨2, ![1, N]⟩ ![1] h1 b) j = x j + b (ix1 (j 1))
  rw [broadcastInDim_apply (s := ⟨2, ![1, N]⟩) (t := ⟨2, ![M, N]⟩) ![0, 1] h2 _ j (ix2 0 (j 1)) (fun a => by
      match a with
      | ⟨0, _⟩ => exact (if_pos rfl).symm
      | ⟨1, _⟩ =>
        show (j 1).val = if N = 1 then 0 else (j 1).val
        by_cases hN : N = 1
        · rw [if_pos hN]; have := idx2_lt1 j; omega
        · rw [if_neg hN]),
    broadcastInDim_apply (s := ⟨1, ![N]⟩) (t := ⟨2, ![1, N]⟩) ![1] h1 b (ix2 0 (j 1)) (ix1 (j 1)) (fun a => by
      match a with
      | ⟨0, _⟩ =>
        show (j 1).val = if N = 1 then 0 else (j 1).val
        by_cases hN : N = 1
        · rw [if_pos hN]; have := idx2_lt1 j; omega
        · rw [if_neg hN])]

/-- The host's positive part: the maximum with the scalar zero broadcast to the matrix. -/
theorem maximumf_broadcastInDim_zero (x : FVec Ideal ⟨2, ![M, N]⟩ .f32)
    (h : (⟨0, ![]⟩ : Shape).BroadcastsInDim ⟨2, ![M, N]⟩ ![]) :
    maximumf x (broadcastInDim ⟨2, ![M, N]⟩ ![] h (constant (F := Ideal) ⟨0, ![]⟩ .f32 0x00000000#32)) = relu x := by
  funext j
  show max (x j) (Ideal.ofBits .f32 0x00000000#32) = max (x j) 0
  rw [Ideal.ofBits_zero_f32]

/-- A slice of `M'` rows from row `off`, all columns. -/
theorem extractStridedSlice_rows {M' off : Nat} (x : FVec Ideal ⟨2, ![M, N]⟩ .f32)
    (h : (⟨2, ![M, N]⟩ : Shape).Slices ![off, 0] ⟨2, ![M', N]⟩) (hle : off + M' ≤ M) :
    extractStridedSlice ⟨2, ![M', N]⟩ ![off, 0] x h = rowSlice M' off hle x := by
  funext j
  show extractStridedSlice ⟨2, ![M', N]⟩ ![off, 0] x h j
    = x (ix2 ⟨off + (j 0).val, Nat.lt_of_lt_of_le (Nat.add_lt_add_left (idx2_lt0 j) off) hle⟩ (j 1))
  exact extractStridedSlice_apply ![off, 0] x h j
    (ix2 ⟨off + (j 0).val, Nat.lt_of_lt_of_le (Nat.add_lt_add_left (idx2_lt0 j) off) hle⟩ (j 1)) (fun a => by
    match a with
    | ⟨0, _⟩ => rfl
    | ⟨1, _⟩ => exact (Nat.zero_add _).symm)

/-- An `N`-vector reshaped to `1 × N`. -/
theorem shapeCast_asRow2 (b : FVec Ideal ⟨1, ![N]⟩ .f32) (h : (⟨1, ![N]⟩ : Shape).ShapeCasts ⟨2, ![1, N]⟩) :
    shapeCast ⟨2, ![1, N]⟩ b h = asRow2 b := by
  funext j
  show shapeCast ⟨2, ![1, N]⟩ b h j = b (ix1 (j 1))
  have h0 : (j 0).val = 0 := by have := idx2_lt0 j; omega
  refine shapeCast_apply b h j (ix1 (j 1)) ?_
  rw [Shape.rowMajor_val_one, Shape.rowMajor_val_two, h0, Nat.zero_mul, Nat.zero_add]
  rfl

/-- An `N`-vector of words reshaped to `N × 1`. -/
theorem shapeCast_asCol (w : IVec ⟨1, ![N]⟩ 32) (h : (⟨1, ![N]⟩ : Shape).ShapeCasts ⟨2, ![N, 1]⟩) :
    shapeCast ⟨2, ![N, 1]⟩ w h = asCol w := by
  funext j
  show shapeCast ⟨2, ![N, 1]⟩ w h j = w (ix1 (j 0))
  have h1 : (j 1).val = 0 := by have := idx2_lt1 j; omega
  refine shapeCast_apply w h j (ix1 (j 0)) ?_
  rw [Shape.rowMajor_val_one, Shape.rowMajor_val_two, h1, Nat.add_zero]
  show (j 0).val = (j 0).val * 1
  rw [Nat.mul_one]

/-- `z` joined along the columns with the lattice vector broadcast to every row. -/
theorem concatenate_zLat (z : Mat 256 64) (lat : Row 6)
    (hb : (⟨1, ![6]⟩ : Shape).BroadcastsInDim ⟨2, ![256, 6]⟩ ![1])
    (hc : Shape.Concatenates [(⟨2, ![256, 64]⟩ : Shape), ⟨2, ![256, 6]⟩] ⟨2, ![256, 70]⟩ 1) :
    concatenate ⟨2, ![256, 70]⟩ 1 [⟨⟨2, ![256, 64]⟩, z⟩, ⟨⟨2, ![256, 6]⟩, broadcastInDim ⟨2, ![256, 6]⟩ ![1] hb lat⟩] hc
      = zLat z lat := by
  funext j
  show _ = if h : (j 1).val < 64 then z (ix2 (j 0) ⟨(j 1).val, h⟩)
    else lat (ix1 ⟨(j 1).val - 64, by have := idx2_lt1 j; omega⟩)
  by_cases hj : (j 1).val < 64
  · rw [dif_pos hj]
    exact concatenate_pair_apply_left (t := ⟨2, ![256, 70]⟩) 1 z _ hc j rfl (ix2 (j 0) ⟨(j 1).val, hj⟩) (fun b => by
      match b with
      | ⟨0, _⟩ => rfl
      | ⟨1, _⟩ => rfl)
  · rw [dif_neg hj]
    have hlt : (j 1).val - 64 < 6 := by have := idx2_lt1 j; omega
    refine (concatenate_pair_apply_right (t := ⟨2, ![256, 70]⟩) 1 z _ hc j rfl rfl (ix2 (j 0) ⟨(j 1).val - 64, hlt⟩)
      (fun b hb => by
        match b, hb with
        | ⟨0, _⟩, _ => rfl
        | ⟨1, _⟩, hb => exact absurd rfl hb)
      (by show (j 1).val - 64 + 64 = (j 1).val; omega)).trans ?_
    exact broadcastInDim_apply (s := ⟨1, ![6]⟩) (t := ⟨2, ![256, 6]⟩) ![1] hb lat _ (ix1 ⟨(j 1).val - 64, hlt⟩) (fun a => by
      match a with
      | ⟨0, _⟩ => rfl)

end Cert.Lib

end
-- ==== Proof.LibTake.lean ====
/-
  Indexing a table by an integer array, as it lowers: the index words wrapped (a negative word counts from the end),
  made a column, and a gather of whole rows (of a matrix) or of single words (of a vector) whose start index is read
  signed and clamped into the table. At an index the gather reads the table's row `Cert.Spec.clampRow` names.
-/
import proofs.«401555_j79637283602854_1_alg».proof.Proof.Spec
import Idealize.ShloMosaic.Lib.Pipeline.Value

noncomputable section

open scoped BigOperators
open Idealize.ShloMosaic Idealize.ShloMosaic.ValueIdx

namespace Cert.Lib

open Cert.Spec

/-- The dimension numbers of a gather of whole rows of an `M × N` table at an `R × 1` column of start indices. -/
abbrev rowsDims (M R N : Nat)
    (wf : GatherDims.WF ⟨2, ![M, N]⟩ ⟨2, ![R, 1]⟩ ⟨2, ![R, N]⟩ [1] [0] [] [0] [] 1 ![1, N]) :
    GatherDims ⟨2, ![M, N]⟩ ⟨2, ![R, 1]⟩ ⟨2, ![R, N]⟩ where
  offsetDims := [1]
  collapsedSliceDims := [0]
  operandBatchingDims := []
  startIndicesBatchingDims := []
  startIndexMap := [0]
  indexVectorDim := 1
  sliceSizes := ![1, N]
  wf := wf

/-- The gather of rows reads, for result row `r`, the table's row its start index names, clamped. -/
theorem gather_rows {M R N : Nat} (hM : 0 < M)
    (wf : GatherDims.WF ⟨2, ![M, N]⟩ ⟨2, ![R, 1]⟩ ⟨2, ![R, N]⟩ [1] [0] [] [0] [] 1 ![1, N])
    (x : Mat M N) (idx : WCol R) :
    Host.gather (rowsDims M R N wf) x idx = takeRows x (fun r => clampRow M hM (idx (ix2 r 0))) := by
  funext j
  unfold Host.gather takeRows
  congr 1
  funext a
  refine Fin.ext ?_
  match a with
  | ⟨0, _⟩ =>
    -- the indexed, collapsed axis: the clamped start, no batch and no offset coordinate
    show (rowsDims M R N wf).start j idx 0 + (rowsDims M R N wf).batchCoord j 0 + (rowsDims M R N wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims M R N wf).startIndexMap from List.mem_singleton.mpr rfl)]
    have hsi : (rowsDims M R N wf).siIdx j ⟨List.idxOf (0 : Fin 2) (rowsDims M R N wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- the offset axis: start 0 (not in the start index map), no batch coordinate, the result's column as offset
    show (rowsDims M R N wf).start j idx 1 + (rowsDims M R N wf).batchCoord j 1 + (rowsDims M R N wf).offCoord j 1 = (j 1).val
    rw [GatherDims.batchCoord_eq_zero _ _ _ List.not_mem_nil]
    have h1 : (1 : Fin 2) ∉ (rowsDims M R N wf).startIndexMap := by
      intro h; exact Nat.one_ne_zero (congrArg Fin.val (List.mem_singleton.mp h))
    have hk : (1 : Fin 2) ∈ (rowsDims M R N wf).sKept :=
      (GatherDims.mem_sKept _ _).mpr ⟨fun h => Nat.one_ne_zero (congrArg Fin.val (List.mem_singleton.mp h)), List.not_mem_nil⟩
    unfold GatherDims.start GatherDims.offCoord
    rw [dif_neg h1, dif_pos hk]
    simp only [Nat.add_zero, Nat.zero_add]
    rfl

/-- The dimension numbers of a gather of single words of an `M`-vector at an `R × 1` column of start indices. -/
abbrev wordsDims (M R : Nat)
    (wf : GatherDims.WF ⟨1, ![M]⟩ ⟨2, ![R, 1]⟩ ⟨1, ![R]⟩ [] [0] [] [0] [] 1 ![1]) :
    GatherDims ⟨1, ![M]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather of words reads, at `r`, the vector's entry its start index names, clamped. -/
theorem gather_words {M R : Nat} (hM : 0 < M)
    (wf : GatherDims.WF ⟨1, ![M]⟩ ⟨2, ![R, 1]⟩ ⟨1, ![R]⟩ [] [0] [] [0] [] 1 ![1])
    (x : Words M) (idx : WCol R) :
    Host.gather (wordsDims M R wf) x idx = fun j => x (ix1 (clampRow M hM (idx (ix2 (j 0) 0)))) := by
  funext j
  unfold Host.gather
  congr 1
  funext a
  obtain rfl : a = 0 := Subsingleton.elim _ _
  refine Fin.ext ?_
  show (wordsDims M R wf).start j idx 0 + (wordsDims M R wf).batchCoord j 0 + (wordsDims M R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (wordsDims M R wf).startIndexMap from List.mem_singleton.mpr rfl)]
  have hsi : (wordsDims M R wf).siIdx j ⟨List.idxOf (0 : Fin 1) (wordsDims M R wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The wrapped index words as a column: `select (s < 0) (s + M) s`, broadcast to `R × 1`. -/
theorem wrap_col {R : Nat} (M : Nat) (s : Words R) (h0 : (⟨0, ![]⟩ : Shape).BroadcastsInDim ⟨1, ![R]⟩ ![])
    (h1 : (⟨1, ![R]⟩ : Shape).BroadcastsInDim ⟨2, ![R, 1]⟩ ![0]) :
    broadcastInDim ⟨2, ![R, 1]⟩ ![0] h1
        (select (cmpi .slt s (broadcastInDim ⟨1, ![R]⟩ ![] h0 (constantI ⟨0, ![]⟩ 32 0#32)))
          (addi s (broadcastInDim ⟨1, ![R]⟩ ![] h0 (constantI ⟨0, ![]⟩ 32 (BitVec.ofNat 32 M)))) s)
      = asCol (fun i => wrapW M (s i)) := by
  funext j
  refine (broadcastInDim_apply _ h1 _ j (ix1 (j 0)) ?_).trans ?_
  · intro a
    obtain rfl : a = 0 := Subsingleton.elim _ _
    have hlt := idx2_lt0 j
    show (j 0).val = if R = 1 then 0 else (j 0).val
    split
    · omega
    · rfl
  · rfl

end Cert.Lib

end
-- ==== Proof.LibDot.lean ====
/-
  A matrix product with the plain dimension numbers (contract the left operand's columns against the right operand's
  rows, no batch axes), read at the ideal values: the kernel's product into a zero accumulator and the host's product
  are both the matrix product `Cert.Spec.mm`, entry `(i, j)` the sum over `k` of `l i k * r k j`.
-/
import proofs.«401555_j79637283602854_1_alg».proof.Proof.Spec
import Idealize.ShloMosaic.PureOps.Ideal.Laws

noncomputable section

open scoped BigOperators
open Idealize.ShloMosaic Idealize.ShloMosaic.ValueIdx

namespace Cert.Lib

open Cert.Spec

/-- The left operand's row coordinate is the output's row. -/
theorem plain_lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- The left operand's column coordinate is the contraction index. -/
theorem plain_lhs1 (M K N : Nat) (i : (⟨2, ![M, N]⟩ : Shape).Idx) (q : (DotDims.plain M K N).contr.Idx) :
    ((DotDims.plain M K N).lhsIdx i q 1).val = (q ⟨0, (show 0 < (DotDims.plain M K N).contr.rank from Nat.one_pos)⟩).val :=
  (DotDims.plain M K N).lhsIdx_val_of_single rfl i q
/-- The right operand's row coordinate is the contraction index. -/
theorem plain_rhs0 (M K N : Nat) (i : (⟨2, ![M, N]⟩ : Shape).Idx) (q : (DotDims.plain M K N).contr.Idx) :
    ((DotDims.plain M K N).rhsIdx i q 0).val = (q ⟨0, (show 0 < (DotDims.plain M K N).contr.rank from Nat.one_pos)⟩).val :=
  (DotDims.plain M K N).rhsIdx_val_of_single rfl i q
/-- The right operand's column coordinate is the output's column. -/
theorem plain_rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over `k : Fin K` of `l i k * r k j`: the
    contraction index is its one coordinate. -/
theorem plain_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 M K N _ _
      | ⟨1, _⟩ => exact (plain_lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 M K N _ _).trans hk
      | ⟨1, _⟩ => exact plain_rhs1 M K N _ _)
  rw [el, er]
  rfl

/-- A kernel's matrix product into the zero accumulator, at the ideal values, is the matrix product. -/
theorem matmul_plain {M K N : Nat} {φ₁ φ₂ : FTy} (prec : Option ContractPrecision)
    (l : FVec Ideal ⟨2, ![M, K]⟩ φ₁) (r : FVec Ideal ⟨2, ![K, N]⟩ φ₂) :
    matmul (DotDims.plain M K N) prec l r (constant (F := Ideal) ⟨2, ![M, N]⟩ .f32 0x00000000#32) = mm l r := by
  funext j
  simp only [matmul]
  rw [Ideal.matmul_constant_zero_apply]
  exact plain_sum M K N l r j

/-- The host's product, at the ideal values, is the matrix product. -/
theorem dotGeneral_plain {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r := by
  funext j
  simp only [Host.dotGeneral]
  rw [Ideal.dotGeneral_apply]
  exact plain_sum M K N l r j

end Cert.Lib

end
-- ==== Proof.KReg0.lean ====
/-
  The heads stage's five output arrays. Its grid has one point and every window is its whole array, so each output
  array after the stage is the body's stored value of the arrays as the stage finds them: the latent projection, the two
  graph heads with the first weight split into its top 64 and bottom 6 rows, and the two small tables `A` and `B`,
  the latent projection times the top and the bottom half of the edge weight.
-/
import proofs.«401555_j79637283602854_1_alg».proof.Proof.Gen.KernelIdeal.Frame
import proofs.«401555_j79637283602854_1_alg».proof.Proof.Spec
import proofs.«401555_j79637283602854_1_alg».proof.Proof.LibDot
import proofs.«401555_j79637283602854_1_alg».proof.Proof.LibRow

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.KReg0

open Cert.KernelIdeal Cert.KernelIdeal.Gen

variable (V : (c : Dev nD) → (b : Ref sig .tc) → Buf (Elt Ideal) ((c : Thread nD τ).loc b))

/-- A whole-block rectangle is entered at offsets that are all zero. -/
theorem hz : (![0, 0] : Fin 2 → Nat) = fun _ => 0 := funext fun a => by fin_cases a <;> rfl

/-! ## The body's values as the dense layers of the blocks it loads -/

/-- The stored latent projection: the positive part of `z · W_lat` plus the bias row. -/
theorem latentProj_eq (z : Vec Ideal S256x64 .f32) (Wlat : Vec Ideal S64x256 .f32) (blat : Vec Ideal S1x256 .f32) :
    k0_pay3 z Wlat blat = Cert.Spec.kZProj z Wlat blat := by
  unfold k0_pay3 k0_pay2
  have e : dot_S256x64_S64x256_S256x256_1_0_0_1_n_n = DotDims.plain 256 64 256 := rfl
  dsimp only
  simp only [Cert.Lib.truncf_id, shapeCast_self]
  rw [e, Cert.Lib.matmul_plain, Cert.Lib.addf_broadcastTo_row, Cert.Lib.maximumf_broadcast_zero]
  rfl

/-- The table `A`: the latent projection times the top half of the edge weight. -/
theorem tableA_eq (z : Vec Ideal S256x64 .f32) (Wlat : Vec Ideal S64x256 .f32) (blat : Vec Ideal S1x256 .f32)
    (W : Vec Ideal S256x128 .f32) : k0_pay5 z Wlat blat W = Cert.Spec.mm (Cert.Spec.kZProj z Wlat blat) W := by
  unfold k0_pay5 k0_pay4
  have e : dot_S256x256_S256x128_S256x128_1_0_0_1_n_n = DotDims.plain 256 256 128 := rfl
  dsimp only
  simp only [Cert.Lib.truncf_id, shapeCast_self]
  rw [e, Cert.Lib.matmul_plain, latentProj_eq]

/-- The table `B`: the same product with the bottom half of the edge weight. -/
theorem tableB_eq (z : Vec Ideal S256x64 .f32) (Wlat : Vec Ideal S64x256 .f32) (blat : Vec Ideal S1x256 .f32)
    (W : Vec Ideal S256x128 .f32) : k0_pay6 z Wlat blat W = Cert.Spec.mm (Cert.Spec.kZProj z Wlat blat) W := by
  unfold k0_pay6 k0_pay4
  have e : dot_S256x256_S256x128_S256x128_1_0_0_1_n_n = DotDims.plain 256 256 128 := rfl
  dsimp only
  simp only [Cert.Lib.truncf_id, shapeCast_self]
  rw [e, Cert.Lib.matmul_plain, latentProj_eq]

/-- A graph head's hidden layer: the positive part of `z` times the top rows of the first weight, plus the lattice
    row times its bottom rows, plus the bias row. -/
theorem hidden_eq (z : Vec Ideal S256x64 .f32) (lat : Vec Ideal S1x6 .f32) (W1t : Vec Ideal S64x128 .f32)
    (W1b : Vec Ideal S6x128 .f32) (b1 : Vec Ideal S1x128 .f32) :
    k0_pay10 (k0_pay2 z) (k0_pay7 lat) W1t W1b b1
      = Cert.Spec.relu (Cert.Spec.addRow2 (Cert.Spec.addRow2 (Cert.Spec.mm z W1t) (Cert.Spec.mm lat W1b)) b1) := by
  unfold k0_pay10 k0_pay2 k0_pay7
  have e1 : dot_S256x64_S64x128_S256x128_1_0_0_1_n_n = DotDims.plain 256 64 128 := rfl
  have e2 : dot_S1x6_S6x128_S1x128_1_0_0_1_n_n = DotDims.plain 1 6 128 := rfl
  dsimp only
  simp only [Cert.Lib.truncf_id, shapeCast_self]
  rw [e1, e2, Cert.Lib.matmul_plain, Cert.Lib.matmul_plain, Cert.Lib.addf_broadcastTo_row, Cert.Lib.addf_broadcastTo_row,
    Cert.Lib.maximumf_broadcast_zero]

/-- The stored stress head: the hidden layer times the second weight plus its bias row. -/
theorem stressHead_eq (z : Vec Ideal S256x64 .f32) (lat : Vec Ideal S1x6 .f32) (W1t : Vec Ideal S64x128 .f32)
    (W1b : Vec Ideal S6x128 .f32) (b1 : Vec Ideal S1x128 .f32) (W2 : Vec Ideal S128x9 .f32) (b2 : Vec Ideal S1x9 .f32) :
    k0_pay1 (k0_pay10 (k0_pay2 z) (k0_pay7 lat) W1t W1b b1) W2 b2 = Cert.Spec.kHead z lat W1t W1b b1 W2 b2 := by
  rw [hidden_eq]
  unfold k0_pay1
  have e : dot_S256x128_S128x9_S256x9_1_0_0_1_n_n = DotDims.plain 256 128 9 := rfl
  dsimp only
  simp only [Cert.Lib.truncf_id, shapeCast_self]
  rw [e, Cert.Lib.matmul_plain, Cert.Lib.addf_broadcastTo_row]
  rfl

/-- The stored energy head: both layers in one value. -/
theorem energyHead_eq (z : Vec Ideal S256x64 .f32) (lat : Vec Ideal S1x6 .f32) (W1t : Vec Ideal S64x128 .f32)
    (W1b : Vec Ideal S6x128 .f32) (b1 : Vec Ideal S1x128 .f32) (W2 : Vec Ideal S128x2 .f32) (b2 : Vec Ideal S1x2 .f32) :
    k0_pay9 (k0_pay2 z) (k0_pay7 lat) (k0_pay8 W1t) W1b b1 W2 b2 = Cert.Spec.kHead z lat W1t W1b b1 W2 b2 := by
  unfold k0_pay9 k0_pay2 k0_pay7 k0_pay8
  have e1 : dot_S256x64_S64x128_S256x128_1_0_0_1_n_n = DotDims.plain 256 64 128 := rfl
  have e2 : dot_S1x6_S6x128_S1x128_1_0_0_1_n_n = DotDims.plain 1 6 128 := rfl
  have e3 : dot_S256x128_S128x2_S256x2_1_0_0_1_n_n = DotDims.plain 256 128 2 := rfl
  dsimp only
  simp only [Cert.Lib.truncf_id, shapeCast_self]
  rw [e1, e2, e3, Cert.Lib.matmul_plain, Cert.Lib.matmul_plain, Cert.Lib.matmul_plain, Cert.Lib.addf_broadcastTo_row,
    Cert.Lib.addf_broadcastTo_row, Cert.Lib.addf_broadcastTo_row, Cert.Lib.maximumf_broadcast_zero]
  rfl

/-! ## What the body leaves in each output buffer

The body stores each value once, through the whole buffer, and loads every block whole: the buffer ends holding the
value, and the value is the dense layers of the loaded blocks. -/

/-- The latent projection's buffer holds `relu (z · W_lat + b_lat)` of the loaded blocks. -/
theorem stored_latent (x0 : Vec Ideal S256x64 .f32) (x1 : Vec Ideal S1x6 .f32) (x2 : Vec Ideal S64x256 .f32) (x3 : Vec Ideal S1x256 .f32) (x4 : Vec Ideal S256x128 .f32) (x5 : Vec Ideal S256x128 .f32) (x6 : Vec Ideal S64x128 .f32) (x7 : Vec Ideal S6x128 .f32) (x8 : Vec Ideal S1x128 .f32) (x9 : Vec Ideal S128x2 .f32) (x10 : Vec Ideal S1x2 .f32) (x11 : Vec Ideal S64x128 .f32) (x12 : Vec Ideal S6x128 .f32) (x13 : Vec Ideal S1x128 .f32) (x14 : Vec Ideal S128x9 .f32) (x15 : Vec Ideal S1x9 .f32) :
    out0_16 x0 x1 x2 x3 x4 x5 x6 x7 x8 x9 x10 x11 x12 x13 x14 x15 = Cert.Spec.kZProj x0 x2 x3 := by
  unfold out0_16
  rw [View.canon_unit_zero hz]
  simp only [View.ld_unit_zero (S := S256x64) hz, View.ld_unit_zero (S := S64x256) hz, View.ld_unit_zero (S := S1x256) hz]
  exact latentProj_eq x0 x2 x3

/-- The energy head's buffer holds the two dense layers of the loaded blocks, the first weight split into its top and bottom rows. -/
theorem stored_energy (x0 : Vec Ideal S256x64 .f32) (x1 : Vec Ideal S1x6 .f32) (x2 : Vec Ideal S64x256 .f32) (x3 : Vec Ideal S1x256 .f32) (x4 : Vec Ideal S256x128 .f32) (x5 : Vec Ideal S256x128 .f32) (x6 : Vec Ideal S64x128 .f32) (x7 : Vec Ideal S6x128 .f32) (x8 : Vec Ideal S1x128 .f32) (x9 : Vec Ideal S128x2 .f32) (x10 : Vec Ideal S1x2 .f32) (x11 : Vec Ideal S64x128 .f32) (x12 : Vec Ideal S6x128 .f32) (x13 : Vec Ideal S1x128 .f32) (x14 : Vec Ideal S128x9 .f32) (x15 : Vec Ideal S1x9 .f32) :
    out0_17 x0 x1 x2 x3 x4 x5 x6 x7 x8 x9 x10 x11 x12 x13 x14 x15 = Cert.Spec.kHead x0 x1 x6 x7 x8 x9 x10 := by
  unfold out0_17
  rw [View.canon_unit_zero hz]
  simp only [View.ld_unit_zero (S := S256x64) hz, View.ld_unit_zero (S := S1x6) hz, View.ld_unit_zero (S := S64x128) hz, View.ld_unit_zero (S := S6x128) hz, View.ld_unit_zero (S := S1x128) hz, View.ld_unit_zero (S := S128x2) hz, View.ld_unit_zero (S := S1x2) hz]
  exact energyHead_eq x0 x1 x6 x7 x8 x9 x10

/-- The stress head's buffer holds the same two layers with the stress head's weights. -/
theorem stored_stress (x0 : Vec Ideal S256x64 .f32) (x1 : Vec Ideal S1x6 .f32) (x2 : Vec Ideal S64x256 .f32) (x3 : Vec Ideal S1x256 .f32) (x4 : Vec Ideal S256x128 .f32) (x5 : Vec Ideal S256x128 .f32) (x6 : Vec Ideal S64x128 .f32) (x7 : Vec Ideal S6x128 .f32) (x8 : Vec Ideal S1x128 .f32) (x9 : Vec Ideal S128x2 .f32) (x10 : Vec Ideal S1x2 .f32) (x11 : Vec Ideal S64x128 .f32) (x12 : Vec Ideal S6x128 .f32) (x13 : Vec Ideal S1x128 .f32) (x14 : Vec Ideal S128x9 .f32) (x15 : Vec Ideal S1x9 .f32) :
    out0_18 x0 x1 x2 x3 x4 x5 x6 x7 x8 x9 x10 x11 x12 x13 x14 x15 = Cert.Spec.kHead x0 x1 x11 x12 x13 x14 x15 := by
  unfold out0_18
  rw [View.canon_unit_zero hz]
  simp only [View.ld_unit_zero (S := S256x64) hz, View.ld_unit_zero (S := S1x6) hz, View.ld_unit_zero (S := S64x128) hz, View.ld_unit_zero (S := S6x128) hz, View.ld_unit_zero (S := S1x128) hz, View.ld_unit_zero (S := S128x9) hz, View.ld_unit_zero (S := S1x9) hz]
  exact stressHead_eq x0 x1 x11 x12 x13 x14 x15

/-- The buffer of `A` holds the latent projection of the loaded blocks times the top half of the edge weight. -/
theorem stored_tableA (x0 : Vec Ideal S256x64 .f32) (x1 : Vec Ideal S1x6 .f32) (x2 : Vec Ideal S64x256 .f32) (x3 : Vec Ideal S1x256 .f32) (x4 : Vec Ideal S256x128 .f32) (x5 : Vec Ideal S256x128 .f32) (x6 : Vec Ideal S64x128 .f32) (x7 : Vec Ideal S6x128 .f32) (x8 : Vec Ideal S1x128 .f32) (x9 : Vec Ideal S128x2 .f32) (x10 : Vec Ideal S1x2 .f32) (x11 : Vec Ideal S64x128 .f32) (x12 : Vec Ideal S6x128 .f32) (x13 : Vec Ideal S1x128 .f32) (x14 : Vec Ideal S128x9 .f32) (x15 : Vec Ideal S1x9 .f32) :
    out0_19 x0 x1 x2 x3 x4 x5 x6 x7 x8 x9 x10 x11 x12 x13 x14 x15 = Cert.Spec.mm (Cert.Spec.kZProj x0 x2 x3) x4 := by
  unfold out0_19
  rw [View.canon_unit_zero hz]
  simp only [View.ld_unit_zero (S := S256x64) hz, View.ld_unit_zero (S := S64x256) hz, View.ld_unit_zero (S := S1x256) hz, View.ld_unit_zero (S := S256x128) hz]
  exact tableA_eq x0 x2 x3 x4

/-- The buffer of `B` holds the latent projection of the loaded blocks times the bottom half of the edge weight. -/
theorem stored_tableB (x0 : Vec Ideal S256x64 .f32) (x1 : Vec Ideal S1x6 .f32) (x2 : Vec Ideal S64x256 .f32) (x3 : Vec Ideal S1x256 .f32) (x4 : Vec Ideal S256x128 .f32) (x5 : Vec Ideal S256x128 .f32) (x6 : Vec Ideal S64x128 .f32) (x7 : Vec Ideal S6x128 .f32) (x8 : Vec Ideal S1x128 .f32) (x9 : Vec Ideal S128x2 .f32) (x10 : Vec Ideal S1x2 .f32) (x11 : Vec Ideal S64x128 .f32) (x12 : Vec Ideal S6x128 .f32) (x13 : Vec Ideal S1x128 .f32) (x14 : Vec Ideal S128x9 .f32) (x15 : Vec Ideal S1x9 .f32) :
    out0_20 x0 x1 x2 x3 x4 x5 x6 x7 x8 x9 x10 x11 x12 x13 x14 x15 = Cert.Spec.mm (Cert.Spec.kZProj x0 x2 x3) x5 := by
  unfold out0_20
  rw [View.canon_unit_zero hz]
  simp only [View.ld_unit_zero (S := S256x64) hz, View.ld_unit_zero (S := S64x256) hz, View.ld_unit_zero (S := S1x256) hz, View.ld_unit_zero (S := S256x128) hz]
  exact tableB_eq x0 x2 x3 x5

/-! ## Every window sits at the origin of its array

The grid has one point, and every index map sends it to block `(0, 0)`: decided over the grid, window by window. -/

theorem origin0 : ∀ (t : Fin cfg0.N) (a : Fin 2), win0_0.index t a = 0 :=
  (by decide +kernel : ∀ (t : Fin grid0.N) (a : Fin 2), win0_0.index t a = 0)
theorem origin1 : ∀ (t : Fin cfg0.N) (a : Fin 2), win0_1.index t a = 0 :=
  (by decide +kernel : ∀ (t : Fin grid0.N) (a : Fin 2), win0_1.index t a = 0)
theorem origin2 : ∀ (t : Fin cfg0.N) (a : Fin 2), win0_2.index t a = 0 :=
  (by decide +kernel : ∀ (t : Fin grid0.N) (a : Fin 2), win0_2.index t a = 0)
theorem origin3 : ∀ (t : Fin cfg0.N) (a : Fin 2), win0_3.index t a = 0 :=
  (by decide +kernel : ∀ (t : Fin grid0.N) (a : Fin 2), win0_3.index t a = 0)
theorem origin4 : ∀ (t : Fin cfg0.N) (a : Fin 2), win0_4.index t a = 0 :=
  (by decide +kernel : ∀ (t : Fin grid0.N) (a : Fin 2), win0_4.index t a = 0)
theorem origin5 : ∀ (t : Fin cfg0.N) (a : Fin 2), win0_5.index t a = 0 :=
  (by decide +kernel : ∀ (t : Fin grid0.N) (a : Fin 2), win0_5.index t a = 0)
theorem origin6 : ∀ (t : Fin cfg0.N) (a : Fin 2), win0_6.index t a = 0 :=
  (by decide +kernel : ∀ (t : Fin grid0.N) (a : Fin 2), win0_6.index t a = 0)
theorem origin7 : ∀ (t : Fin cfg0.N) (a : Fin 2), win0_7.index t a = 0 :=
  (by decide +kernel : ∀ (t : Fin grid0.N) (a : Fin 2), win0_7.index t a = 0)
theorem origin8 : ∀ (t : Fin cfg0.N) (a : Fin 2), win0_8.index t a = 0 :=
  (by decide +kernel : ∀ (t : Fin grid0.N) (a : Fin 2), win0_8.index t a = 0)
theorem origin9 : ∀ (t : Fin cfg0.N) (a : Fin 2), win0_9.index t a = 0 :=
  (by decide +kernel : ∀ (t : Fin grid0.N) (a : Fin 2), win0_9.index t a = 0)
theorem origin10 : ∀ (t : Fin cfg0.N) (a : Fin 2), win0_10.index t a = 0 :=
  (by decide +kernel : ∀ (t : Fin grid0.N) (a : Fin 2), win0_10.index t a = 0)
theorem origin11 : ∀ (t : Fin cfg0.N) (a : Fin 2), win0_11.index t a = 0 :=
  (by decide +kernel : ∀ (t : Fin grid0.N) (a : Fin 2), win0_11.index t a = 0)
theorem origin12 : ∀ (t : Fin cfg0.N) (a : Fin 2), win0_12.index t a = 0 :=
  (by decide +kernel : ∀ (t : Fin grid0.N) (a : Fin 2), win0_12.index t a = 0)
theorem origin13 : ∀ (t : Fin cfg0.N) (a : Fin 2), win0_13.index t a = 0 :=
  (by decide +kernel : ∀ (t : Fin grid0.N) (a : Fin 2), win0_13.index t a = 0)
theorem origin14 : ∀ (t : Fin cfg0.N) (a : Fin 2), win0_14.index t a = 0 :=
  (by decide +kernel : ∀ (t : Fin grid0.N) (a : Fin 2), win0_14.index t a = 0)
theorem origin15 : ∀ (t : Fin cfg0.N) (a : Fin 2), win0_15.index t a = 0 :=
  (by decide +kernel : ∀ (t : Fin grid0.N) (a : Fin 2), win0_15.index t a = 0)
theorem origin16 : ∀ (t : Fin cfg0.N) (a : Fin 2), win0_16.index t a = 0 :=
  (by decide +kernel : ∀ (t : Fin grid0.N) (a : Fin 2), win0_16.index t a = 0)
theorem origin17 : ∀ (t : Fin cfg0.N) (a : Fin 2), win0_17.index t a = 0 :=
  (by decide +kernel : ∀ (t : Fin grid0.N) (a : Fin 2), win0_17.index t a = 0)
theorem origin18 : ∀ (t : Fin cfg0.N) (a : Fin 2), win0_18.index t a = 0 :=
  (by decide +kernel : ∀ (t : Fin grid0.N) (a : Fin 2), win0_18.index t a = 0)
theorem origin19 : ∀ (t : Fin cfg0.N) (a : Fin 2), win0_19.index t a = 0 :=
  (by decide +kernel : ∀ (t : Fin grid0.N) (a : Fin 2), win0_19.index t a = 0)
theorem origin20 : ∀ (t : Fin cfg0.N) (a : Fin 2), win0_20.index t a = 0 :=
  (by decide +kernel : ∀ (t : Fin grid0.N) (a : Fin 2), win0_20.index t a = 0)

/-! ## Each input block is its whole array

A block's coordinate in its array is the block index times the block's size plus the coordinate inside the block; the
index is zero on both axes, so the block read off the array is the array. -/

/-- The block of the graph latents `z`. -/
theorem block_z (c : Dev nD) (t : Fin cfg0.N) : (iblk0 V c 0 t : Vec Ideal S256x64 .f32) = V c main_arg0 := by
  funext y
  show V c main_arg0 (((cfg0.win 0).blk t).view.emb y) = V c main_arg0 y
  congr 1
  funext a
  apply Fin.ext
  exact (cfg0.win 0).rect_emb_val_of_index_zero t a (origin0 t a) y

/-- The block of the lattice row. -/
theorem block_lat (c : Dev nD) (t : Fin cfg0.N) : (iblk0 V c 1 t : Vec Ideal S1x6 .f32) = V c main_v6 := by
  funext y
  show V c main_v6 (((cfg0.win 1).blk t).view.emb y) = V c main_v6 y
  congr 1
  funext a
  apply Fin.ext
  exact (cfg0.win 1).rect_emb_val_of_index_zero t a (origin1 t a) y

/-- The block of the latent weight. -/
theorem block_Wlat (c : Dev nD) (t : Fin cfg0.N) : (iblk0 V c 2 t : Vec Ideal S64x256 .f32) = V c main_arg6 := by
  funext y
  show V c main_arg6 (((cfg0.win 2).blk t).view.emb y) = V c main_arg6 y
  congr 1
  funext a
  apply Fin.ext
  exact (cfg0.win 2).rect_emb_val_of_index_zero t a (origin2 t a) y

/-- The block of the latent bias row. -/
theorem block_blat (c : Dev nD) (t : Fin cfg0.N) : (iblk0 V c 3 t : Vec Ideal S1x256 .f32) = V c main_v7 := by
  funext y
  show V c main_v7 (((cfg0.win 3).blk t).view.emb y) = V c main_v7 y
  congr 1
  funext a
  apply Fin.ext
  exact (cfg0.win 3).rect_emb_val_of_index_zero t a (origin3 t a) y

/-- The block of the top half of the edge weight. -/
theorem block_Wtop (c : Dev nD) (t : Fin cfg0.N) : (iblk0 V c 4 t : Vec Ideal S256x128 .f32) = V c main_v4 := by
  funext y
  show V c main_v4 (((cfg0.win 4).blk t).view.emb y) = V c main_v4 y
  congr 1
  funext a
  apply Fin.ext
  exact (cfg0.win 4).rect_emb_val_of_index_zero t a (origin4 t a) y

/-- The block of the bottom half of the edge weight. -/
theorem block_Wbot (c : Dev nD) (t : Fin cfg0.N) : (iblk0 V c 5 t : Vec Ideal S256x128 .f32) = V c main_v5 := by
  funext y
  show V c main_v5 (((cfg0.win 5).blk t).view.emb y) = V c main_v5 y
  congr 1
  funext a
  apply Fin.ext
  exact (cfg0.win 5).rect_emb_val_of_index_zero t a (origin5 t a) y

/-- The block of the energy head's first weight, top rows. -/
theorem block_enW1t (c : Dev nD) (t : Fin cfg0.N) : (iblk0 V c 6 t : Vec Ideal S64x128 .f32) = V c main_v0 := by
  funext y
  show V c main_v0 (((cfg0.win 6).blk t).view.emb y) = V c main_v0 y
  congr 1
  funext a
  apply Fin.ext
  exact (cfg0.win 6).rect_emb_val_of_index_zero t a (origin6 t a) y

/-- The block of the energy head's first weight, bottom rows. -/
theorem block_enW1b (c : Dev nD) (t : Fin cfg0.N) : (iblk0 V c 7 t : Vec Ideal S6x128 .f32) = V c main_v1 := by
  funext y
  show V c main_v1 (((cfg0.win 7).blk t).view.emb y) = V c main_v1 y
  congr 1
  funext a
  apply Fin.ext
  exact (cfg0.win 7).rect_emb_val_of_index_zero t a (origin7 t a) y

/-- The block of the energy head's first bias row. -/
theorem block_enb1 (c : Dev nD) (t : Fin cfg0.N) : (iblk0 V c 8 t : Vec Ideal S1x128 .f32) = V c main_v13 := by
  funext y
  show V c main_v13 (((cfg0.win 8).blk t).view.emb y) = V c main_v13 y
  congr 1
  funext a
  apply Fin.ext
  exact (cfg0.win 8).rect_emb_val_of_index_zero t a (origin8 t a) y

/-- The block of the energy head's second weight. -/
theorem block_enW2 (c : Dev nD) (t : Fin cfg0.N) : (iblk0 V c 9 t : Vec Ideal S128x2 .f32) = V c main_arg20 := by
  funext y
  show V c main_arg20 (((cfg0.win 9).blk t).view.emb y) = V c main_arg20 y
  congr 1
  funext a
  apply Fin.ext
  exact (cfg0.win 9).rect_emb_val_of_index_zero t a (origin9 t a) y

/-- The block of the energy head's second bias row. -/
theorem block_enb2 (c : Dev nD) (t : Fin cfg0.N) : (iblk0 V c 10 t : Vec Ideal S1x2 .f32) = V c main_v14 := by
  funext y
  show V c main_v14 (((cfg0.win 10).blk t).view.emb y) = V c main_v14 y
  congr 1
  funext a
  apply Fin.ext
  exact (cfg0.win 10).rect_emb_val_of_index_zero t a (origin10 t a) y

/-- The block of the stress head's first weight, top rows. -/
theorem block_stW1t (c : Dev nD) (t : Fin cfg0.N) : (iblk0 V c 11 t : Vec Ideal S64x128 .f32) = V c main_v2 := by
  funext y
  show V c main_v2 (((cfg0.win 11).blk t).view.emb y) = V c main_v2 y
  congr 1
  funext a
  apply Fin.ext
  exact (cfg0.win 11).rect_emb_val_of_index_zero t a (origin11 t a) y

/-- The block of the stress head's first weight, bottom rows. -/
theorem block_stW1b (c : Dev nD) (t : Fin cfg0.N) : (iblk0 V c 12 t : Vec Ideal S6x128 .f32) = V c main_v3 := by
  funext y
  show V c main_v3 (((cfg0.win 12).blk t).view.emb y) = V c main_v3 y
  congr 1
  funext a
  apply Fin.ext
  exact (cfg0.win 12).rect_emb_val_of_index_zero t a (origin12 t a) y

/-- The block of the stress head's first bias row. -/
theorem block_stb1 (c : Dev nD) (t : Fin cfg0.N) : (iblk0 V c 13 t : Vec Ideal S1x128 .f32) = V c main_v15 := by
  funext y
  show V c main_v15 (((cfg0.win 13).blk t).view.emb y) = V c main_v15 y
  congr 1
  funext a
  apply Fin.ext
  exact (cfg0.win 13).rect_emb_val_of_index_zero t a (origin13 t a) y

/-- The block of the stress head's second weight. -/
theorem block_stW2 (c : Dev nD) (t : Fin cfg0.N) : (iblk0 V c 14 t : Vec Ideal S128x9 .f32) = V c main_arg24 := by
  funext y
  show V c main_arg24 (((cfg0.win 14).blk t).view.emb y) = V c main_arg24 y
  congr 1
  funext a
  apply Fin.ext
  exact (cfg0.win 14).rect_emb_val_of_index_zero t a (origin14 t a) y

/-- The block of the stress head's second bias row. -/
theorem block_stb2 (c : Dev nD) (t : Fin cfg0.N) : (iblk0 V c 15 t : Vec Ideal S1x9 .f32) = V c main_v16 := by
  funext y
  show V c main_v16 (((cfg0.win 15).blk t).view.emb y) = V c main_v16 y
  congr 1
  funext a
  apply Fin.ext
  exact (cfg0.win 15).rect_emb_val_of_index_zero t a (origin15 t a) y

/-! ## From the one point's write-back to the arrays

What the point writes back to an output array is the stored value read through the window's block, the block is the
whole array (every index lies in it), and so the array ends holding the value of the arrays the stage was handed. -/

/-- Reading a whole array through output window 16's block returns it entry for entry. -/
theorem read_latent (t : Fin cfg0.N) (G : Vec Ideal S256x256 .f32) :
    (cfg0.win 16).cut (grid0.coords t) G = ((cfg0.win 16).blk t).view.read (Elt Ideal) G := by
  funext y
  show G _ = G (((cfg0.win 16).blk t).view.emb y)
  congr 1
  funext a
  apply Fin.ext
  exact ((cfg0.win 16).rect_emb_val_of_index_zero t a (origin16 t a) y).symm

set_option maxHeartbeats 400000 in
/-- What the point writes back to output window 16's array. -/
theorem written_latent (c : Dev nD) (t : Fin cfg0.N) :
    (dat0 V c).flushed 16 t = ((cfg0.win 16).blk t).view.read (Elt Ideal)
      (Cert.Spec.kZProj (V c main_arg0) (V c main_arg6) (V c main_v7)) := by
  show (cfg0.win 16).cut (grid0.coords t) ((dat0 V c).after 16 t) = _
  rw [after0_16]
  refine (congrArg ((cfg0.win 16).cut (grid0.coords t)) (stored_latent (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t))).trans ?_
  rw [block_z V c t, block_Wlat V c t, block_blat V c t]
  exact read_latent t _

/-- Every index of output window 16's array lies in the point's block. -/
theorem whole_latent (t : Fin cfg0.N) (i : S256x256.Idx) : i ∈ ((cfg0.win 16).blk t).view.set := by
  show i ∈ ((View.whole main_v17_0).slice (win0_16.rect t)).set
  rw [View.set_slice_whole, Rect.mem_set_unit]
  intro a
  show win0_16.index t a * win0_16.size a ≤ (i a : Nat) ∧ (i a : Nat) < win0_16.index t a * win0_16.size a + S256x256.size a
  rw [origin16 t a, Nat.zero_mul, Nat.zero_add]
  exact ⟨Nat.zero_le _, (i a).isLt⟩

/-- Reading a whole array through output window 17's block returns it entry for entry. -/
theorem read_energy (t : Fin cfg0.N) (G : Vec Ideal S256x2 .f32) :
    (cfg0.win 17).cut (grid0.coords t) G = ((cfg0.win 17).blk t).view.read (Elt Ideal) G := by
  funext y
  show G _ = G (((cfg0.win 17).blk t).view.emb y)
  congr 1
  funext a
  apply Fin.ext
  exact ((cfg0.win 17).rect_emb_val_of_index_zero t a (origin17 t a) y).symm

set_option maxHeartbeats 400000 in
/-- What the point writes back to output window 17's array. -/
theorem written_energy (c : Dev nD) (t : Fin cfg0.N) :
    (dat0 V c).flushed 17 t = ((cfg0.win 17).blk t).view.read (Elt Ideal)
      (Cert.Spec.kHead (V c main_arg0) (V c main_v6) (V c main_v0) (V c main_v1) (V c main_v13) (V c main_arg20) (V c main_v14)) := by
  show (cfg0.win 17).cut (grid0.coords t) ((dat0 V c).after 17 t) = _
  rw [after0_17]
  refine (congrArg ((cfg0.win 17).cut (grid0.coords t)) (stored_energy (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t))).trans ?_
  rw [block_z V c t, block_lat V c t, block_enW1t V c t, block_enW1b V c t, block_enb1 V c t, block_enW2 V c t, block_enb2 V c t]
  exact read_energy t _

/-- Every index of output window 17's array lies in the point's block. -/
theorem whole_energy (t : Fin cfg0.N) (i : S256x2.Idx) : i ∈ ((cfg0.win 17).blk t).view.set := by
  show i ∈ ((View.whole main_v17_1).slice (win0_17.rect t)).set
  rw [View.set_slice_whole, Rect.mem_set_unit]
  intro a
  show win0_17.index t a * win0_17.size a ≤ (i a : Nat) ∧ (i a : Nat) < win0_17.index t a * win0_17.size a + S256x2.size a
  rw [origin17 t a, Nat.zero_mul, Nat.zero_add]
  exact ⟨Nat.zero_le _, (i a).isLt⟩

/-- Reading a whole array through output window 18's block returns it entry for entry. -/
theorem read_stress (t : Fin cfg0.N) (G : Vec Ideal S256x9 .f32) :
    (cfg0.win 18).cut (grid0.coords t) G = ((cfg0.win 18).blk t).view.read (Elt Ideal) G := by
  funext y
  show G _ = G (((cfg0.win 18).blk t).view.emb y)
  congr 1
  funext a
  apply Fin.ext
  exact ((cfg0.win 18).rect_emb_val_of_index_zero t a (origin18 t a) y).symm

set_option maxHeartbeats 400000 in
/-- What the point writes back to output window 18's array. -/
theorem written_stress (c : Dev nD) (t : Fin cfg0.N) :
    (dat0 V c).flushed 18 t = ((cfg0.win 18).blk t).view.read (Elt Ideal)
      (Cert.Spec.kHead (V c main_arg0) (V c main_v6) (V c main_v2) (V c main_v3) (V c main_v15) (V c main_arg24) (V c main_v16)) := by
  show (cfg0.win 18).cut (grid0.coords t) ((dat0 V c).after 18 t) = _
  rw [after0_18]
  refine (congrArg ((cfg0.win 18).cut (grid0.coords t)) (stored_stress (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t))).trans ?_
  rw [block_z V c t, block_lat V c t, block_stW1t V c t, block_stW1b V c t, block_stb1 V c t, block_stW2 V c t, block_stb2 V c t]
  exact read_stress t _

/-- Every index of output window 18's array lies in the point's block. -/
theorem whole_stress (t : Fin cfg0.N) (i : S256x9.Idx) : i ∈ ((cfg0.win 18).blk t).view.set := by
  show i ∈ ((View.whole main_v17_2).slice (win0_18.rect t)).set
  rw [View.set_slice_whole, Rect.mem_set_unit]
  intro a
  show win0_18.index t a * win0_18.size a ≤ (i a : Nat) ∧ (i a : Nat) < win0_18.index t a * win0_18.size a + S256x9.size a
  rw [origin18 t a, Nat.zero_mul, Nat.zero_add]
  exact ⟨Nat.zero_le _, (i a).isLt⟩

/-- Reading a whole array through output window 19's block returns it entry for entry. -/
theorem read_tableA (t : Fin cfg0.N) (G : Vec Ideal S256x128 .f32) :
    (cfg0.win 19).cut (grid0.coords t) G = ((cfg0.win 19).blk t).view.read (Elt Ideal) G := by
  funext y
  show G _ = G (((cfg0.win 19).blk t).view.emb y)
  congr 1
  funext a
  apply Fin.ext
  exact ((cfg0.win 19).rect_emb_val_of_index_zero t a (origin19 t a) y).symm

set_option maxHeartbeats 400000 in
/-- What the point writes back to output window 19's array. -/
theorem written_tableA (c : Dev nD) (t : Fin cfg0.N) :
    (dat0 V c).flushed 19 t = ((cfg0.win 19).blk t).view.read (Elt Ideal)
      (Cert.Spec.mm (Cert.Spec.kZProj (V c main_arg0) (V c main_arg6) (V c main_v7)) (V c main_v4)) := by
  show (cfg0.win 19).cut (grid0.coords t) ((dat0 V c).after 19 t) = _
  rw [after0_19]
  refine (congrArg ((cfg0.win 19).cut (grid0.coords t)) (stored_tableA (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t))).trans ?_
  rw [block_z V c t, block_Wlat V c t, block_blat V c t, block_Wtop V c t]
  exact read_tableA t _

/-- Every index of output window 19's array lies in the point's block. -/
theorem whole_tableA (t : Fin cfg0.N) (i : S256x128.Idx) : i ∈ ((cfg0.win 19).blk t).view.set := by
  show i ∈ ((View.whole main_v17_3).slice (win0_19.rect t)).set
  rw [View.set_slice_whole, Rect.mem_set_unit]
  intro a
  show win0_19.index t a * win0_19.size a ≤ (i a : Nat) ∧ (i a : Nat) < win0_19.index t a * win0_19.size a + S256x128.size a
  rw [origin19 t a, Nat.zero_mul, Nat.zero_add]
  exact ⟨Nat.zero_le _, (i a).isLt⟩

/-- Reading a whole array through output window 20's block returns it entry for entry. -/
theorem read_tableB (t : Fin cfg0.N) (G : Vec Ideal S256x128 .f32) :
    (cfg0.win 20).cut (grid0.coords t) G = ((cfg0.win 20).blk t).view.read (Elt Ideal) G := by
  funext y
  show G _ = G (((cfg0.win 20).blk t).view.emb y)
  congr 1
  funext a
  apply Fin.ext
  exact ((cfg0.win 20).rect_emb_val_of_index_zero t a (origin20 t a) y).symm

set_option maxHeartbeats 400000 in
/-- What the point writes back to output window 20's array. -/
theorem written_tableB (c : Dev nD) (t : Fin cfg0.N) :
    (dat0 V c).flushed 20 t = ((cfg0.win 20).blk t).view.read (Elt Ideal)
      (Cert.Spec.mm (Cert.Spec.kZProj (V c main_arg0) (V c main_arg6) (V c main_v7)) (V c main_v5)) := by
  show (cfg0.win 20).cut (grid0.coords t) ((dat0 V c).after 20 t) = _
  rw [after0_20]
  refine (congrArg ((cfg0.win 20).cut (grid0.coords t)) (stored_tableB (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t))).trans ?_
  rw [block_z V c t, block_Wlat V c t, block_blat V c t, block_Wbot V c t]
  exact read_tableB t _

/-- Every index of output window 20's array lies in the point's block. -/
theorem whole_tableB (t : Fin cfg0.N) (i : S256x128.Idx) : i ∈ ((cfg0.win 20).blk t).view.set := by
  show i ∈ ((View.whole main_v17_4).slice (win0_20.rect t)).set
  rw [View.set_slice_whole, Rect.mem_set_unit]
  intro a
  show win0_20.index t a * win0_20.size a ≤ (i a : Nat) ∧ (i a : Nat) < win0_20.index t a * win0_20.size a + S256x128.size a
  rw [origin20 t a, Nat.zero_mul, Nat.zero_add]
  exact ⟨Nat.zero_le _, (i a).isLt⟩

/-! ## The five arrays after the stage -/

/-- The latent projection. -/
theorem final16 (c : Dev nD) :
    (dat0 V c).arrAt 16 cfg0.N = Cert.Spec.kZProj (V c main_arg0) (V c main_arg6) (V c main_v7) :=
  (dat0 V c).arrAt_eq_of_cover 16 (Cert.Spec.kZProj (V c main_arg0) (V c main_arg6) (V c main_v7))
    (fun t _ => written_latent V c t) (fun i => ⟨⟨0, by decide⟩, flush0_16 _, whole_latent _ i⟩)

/-- The energy head. -/
theorem final17 (c : Dev nD) :
    (dat0 V c).arrAt 17 cfg0.N
      = Cert.Spec.kHead (V c main_arg0) (V c main_v6) (V c main_v0) (V c main_v1) (V c main_v13) (V c main_arg20) (V c main_v14) :=
  (dat0 V c).arrAt_eq_of_cover 17
    (Cert.Spec.kHead (V c main_arg0) (V c main_v6) (V c main_v0) (V c main_v1) (V c main_v13) (V c main_arg20) (V c main_v14))
    (fun t _ => written_energy V c t) (fun i => ⟨⟨0, by decide⟩, flush0_17 _, whole_energy _ i⟩)

/-- The stress head. -/
theorem final18 (c : Dev nD) :
    (dat0 V c).arrAt 18 cfg0.N
      = Cert.Spec.kHead (V c main_arg0) (V c main_v6) (V c main_v2) (V c main_v3) (V c main_v15) (V c main_arg24) (V c main_v16) :=
  (dat0 V c).arrAt_eq_of_cover 18
    (Cert.Spec.kHead (V c main_arg0) (V c main_v6) (V c main_v2) (V c main_v3) (V c main_v15) (V c main_arg24) (V c main_v16))
    (fun t _ => written_stress V c t) (fun i => ⟨⟨0, by decide⟩, flush0_18 _, whole_stress _ i⟩)

/-- The table `A`: the latent projection times the top half of the edge weight. -/
theorem final19 (c : Dev nD) :
    (dat0 V c).arrAt 19 cfg0.N
      = Cert.Spec.mm (Cert.Spec.kZProj (V c main_arg0) (V c main_arg6) (V c main_v7)) (V c main_v4) :=
  (dat0 V c).arrAt_eq_of_cover 19
    (Cert.Spec.mm (Cert.Spec.kZProj (V c main_arg0) (V c main_arg6) (V c main_v7)) (V c main_v4))
    (fun t _ => written_tableA V c t) (fun i => ⟨⟨0, by decide⟩, flush0_19 _, whole_tableA _ i⟩)

/-- The table `B`: the latent projection times the bottom half of the edge weight. -/
theorem final20 (c : Dev nD) :
    (dat0 V c).arrAt 20 cfg0.N
      = Cert.Spec.mm (Cert.Spec.kZProj (V c main_arg0) (V c main_arg6) (V c main_v7)) (V c main_v5) :=
  (dat0 V c).arrAt_eq_of_cover 20
    (Cert.Spec.mm (Cert.Spec.kZProj (V c main_arg0) (V c main_arg6) (V c main_v7)) (V c main_v5))
    (fun t _ => written_tableB V c t) (fun i => ⟨⟨0, by decide⟩, flush0_20 _, whole_tableB _ i⟩)

end Cert.KernelIdeal.KReg0

end
-- ==== Proof.LibHot.lean ====
/-
  One-hot rows. The kernel compares a column of ids, broadcast along the rows, with the column numbers and converts the
  bits to floats: at the ideal values that is the one-hot matrix `Cert.Spec.oneHot`. The product of a one-hot matrix
  with a table takes, for each row, the table's row the id names — when every id is a row number of the table; and a
  non-negative index word below the table's height is its own row number.
-/
import proofs.«401555_j79637283602854_1_alg».proof.Proof.Spec
import Idealize.ShloMosaic.Lib.Pipeline.Value
import Idealize.ShloMosaic.PureOps.Ideal.Laws

noncomputable section

open scoped BigOperators
open Idealize.ShloMosaic Idealize.ShloMosaic.ValueIdx

namespace Cert.Lib

open Cert.Spec

/-- An equality compare of equal words is the bit `1`. -/
private theorem cmpi_eq_of_eq {w : Nat} {a b : BitVec w} (h : a = b) : IntOp.cmpi .eq a b = 1#1 := by
  subst h; simp [IntOp.cmpi]
/-- An equality compare of different words is the bit `0`. -/
private theorem cmpi_eq_of_ne {w : Nat} {a b : BitVec w} (h : ¬a = b) : IntOp.cmpi .eq a b = 0#1 := by
  have hb : (a == b) = false := beq_eq_false_iff_ne.mpr h
  simp only [IntOp.cmpi, hb]
  rfl
/-- The bit `1` widened to 32 bits reads `1` as a signed integer. -/
private theorem toInt_bit_one : ((1#1 : BitVec 1).setWidth 32).toInt = 1 := by decide
/-- The bit `0` widened to 32 bits reads `0` as a signed integer. -/
private theorem toInt_bit_zero : ((0#1 : BitVec 1).setWidth 32).toInt = 0 := by decide

/-- An `R × 1` column broadcast along the rows reads, at `(r, c)`, the column's entry `r`. -/
private theorem bcast_col {α : Type} {R C : Nat} (s : (⟨2, ![R, 1]⟩ : Shape).Idx → α)
    (h1 : (⟨2, ![R, 1]⟩ : Shape).Broadcasts ⟨2, ![R, C]⟩) (j : (⟨2, ![R, C]⟩ : Shape).Idx) :
    broadcastTo ⟨2, ![R, C]⟩ s h1 j = s (ix2 (j 0) 0) := by
  refine broadcastTo_apply s h1 j (ix2 (j 0) 0) (fun a => ?_)
  match a with
  | ⟨0, _⟩ =>
    show (j 0).val = if R = 1 then 0 else (j 0).val
    split
    · have := idx2_lt0 j; omega
    · rfl
  | ⟨1, _⟩ => rfl

/-- The kernel's one-hot: `(ids == column number)` widened and converted, at the ideal values. -/
theorem onehot_eq {R C : Nat} (s : IVec ⟨2, ![R, 1]⟩ 32) (h1 : (⟨2, ![R, 1]⟩ : Shape).Broadcasts ⟨2, ![R, C]⟩)
    (h2 : (⟨2, ![R, C]⟩ : Shape).Iotas .tc 32 [1]) (h3 : 1 < 32) :
    (sitofp .f32 (extui 32 (cmpi .eq (broadcastTo ⟨2, ![R, C]⟩ s h1) (iota .tc ⟨2, ![R, C]⟩ 32 [1] h2)) h3) : FVec Ideal ⟨2, ![R, C]⟩ .f32)
      = oneHot C s := by
  funext j
  show FloatOps.sitofp (F := Ideal) .f32
      ((IntOp.cmpi .eq (broadcastTo ⟨2, ![R, C]⟩ s h1 j) (iota .tc ⟨2, ![R, C]⟩ 32 [1] h2 j)).setWidth 32)
    = hot C (s (ix2 (j 0) 0)) (j 1)
  rw [iota_single_apply, bcast_col s h1 j]
  show (((((IntOp.cmpi .eq (s (ix2 (j 0) 0)) (BitVec.ofNat 32 (j 1).val)).setWidth 32).toInt : ℤ) : ℝ) : EReal) = _
  unfold hot
  by_cases h : s (ix2 (j 0) 0) = BitVec.ofNat 32 (j 1).val
  · rw [if_pos h, cmpi_eq_of_eq h, toInt_bit_one]
    norm_num
  · rw [if_neg h, cmpi_eq_of_ne h, toInt_bit_zero]
    norm_num

/-- A one-hot matrix times a table takes the named rows, when each id is the word of a row number. -/
theorem mm_oneHot {R C N : Nat} (hC : C ≤ 2 ^ 32) (s : WCol R) (g : Fin R → Fin C)
    (hg : ∀ r : Fin R, s (ix2 r 0) = BitVec.ofNat 32 (g r).val) (X : Mat C N) :
    mm (oneHot C s) X = takeRows X g := by
  funext j
  show ∑ k : Fin C, hot C (s (ix2 (j 0) 0)) k * X (ix2 k (j 1)) = X (ix2 (g (j 0)) (j 1))
  rw [hg (j 0), Finset.sum_eq_single (g (j 0))]
  · unfold hot
    rw [if_pos rfl, one_mul]
  · intro b _ hb
    unfold hot
    rw [if_neg, zero_mul]
    intro h
    apply hb
    have hv := congrArg BitVec.toNat h
    rw [BitVec.toNat_ofNat, BitVec.toNat_ofNat, Nat.mod_eq_of_lt (by have := (g (j 0)).isLt; omega),
      Nat.mod_eq_of_lt (by have := b.isLt; omega)] at hv
    exact Fin.ext hv.symm
  · intro h
    exact absurd (Finset.mem_univ _) h

/-- A non-negative index word below the table's height is the word of the row it names. -/
theorem eq_ofNat_rowOf {N : Nat} (hN : 0 < N) (hN' : N ≤ 2 ^ 31) (w : BitVec 32) (h0 : 0 ≤ w.toInt) (h1 : w.toInt < N) :
    w = BitVec.ofNat 32 (rowOf N hN w).val := by
  have hslt : IntOp.cmpi .slt w 0#32 = 0#1 := by
    have hb : w.slt 0#32 = false := by
      rw [BitVec.slt]
      simpa using h0
    simp only [IntOp.cmpi, hb]
    rfl
  have hw : wrapW N w = w := by
    unfold wrapW
    rw [hslt, select_zero]
  have hint : w.toInt = (w.toNat : ℤ) := by
    have hc := BitVec.toInt_eq_toNat_cond w
    have hlt := w.isLt
    split at hc <;> omega
  have hnat : w.toInt.toNat = w.toNat := by
    rw [hint]; rfl
  have hle : w.toNat ≤ N - 1 := by omega
  show w = BitVec.ofNat 32 (min (wrapW N w).toInt.toNat (N - 1))
  rw [hw, hnat, min_eq_left hle, BitVec.ofNat_toNat, BitVec.setWidth_eq]

end Cert.Lib

end
-- ==== Proof.KReg1.lean ====
/-
  The node stage's output array. At every one of its 32 grid points the stage reads rows 2048 t … 2048 t + 2047 of the
  node embedding and of the segment-id column, and the whole of the small operands; it writes the same rows of the
  output. Every operation of the body acts row by row, so the blocks are the restrictions of ONE whole-array function:
  the one-hot description `Cert.Spec.kNode` of the node reconstruction, of the arrays as the stage finds them.
-/
import proofs.«401555_j79637283602854_1_alg».proof.Proof.Gen.KernelIdeal.Frame
import proofs.«401555_j79637283602854_1_alg».proof.Proof.Spec
import proofs.«401555_j79637283602854_1_alg».proof.Proof.LibDot
import proofs.«401555_j79637283602854_1_alg».proof.Proof.LibRow
import proofs.«401555_j79637283602854_1_alg».proof.Proof.LibHot

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.KReg1

open Cert.KernelIdeal Cert.KernelIdeal.Gen

variable (V : (c : Dev nD) → (b : Ref sig .tc) → Buf (Elt Ideal) ((c : Thread nD τ).loc b))

open Cert.Spec in
/-- The node reconstruction of `R` rows of nodes: the one-hot description at any number of rows. -/
private def nodeRows {R : Nat} (ne : Mat R 1024) (seg : WCol R) (zp : Mat 256 256) (Wnep : Mat 1024 256) (bnep : Mat 1 256)
    (Wnd1 : Mat 256 128) (bnd1 : Mat 1 128) (Wnd2 : Mat 128 4) (bnd2 : Mat 1 4) : Mat R 4 :=
  addRow2 (mm (relu (addRow2 (mm (add (mm (oneHot 256 seg) zp) (relu (addRow2 (mm ne Wnep) bnep))) Wnd1) bnd1)) Wnd2) bnd2

private theorem hz : (![0, 0] : Fin 2 → Nat) = fun _ => 0 := funext fun a => by fin_cases a <;> rfl

/-- What the body leaves in the output block is the node reconstruction of the 2048 rows it was handed. -/
private theorem out_eq (x0 : Vec Ideal S2048x1024 .f32) (x1 : Vec Ideal S2048x1 .i32) (x2 : Vec Ideal S256x256 .f32)
    (x3 : Vec Ideal S1024x256 .f32) (x4 : Vec Ideal S1x256 .f32) (x5 : Vec Ideal S256x128 .f32) (x6 : Vec Ideal S1x128 .f32)
    (x7 : Vec Ideal S128x4 .f32) (x8 : Vec Ideal S1x4 .f32) :
    out1_9 x0 x1 x2 x3 x4 x5 x6 x7 x8 = nodeRows (R := 2048) x0 x1 x2 x3 x4 x5 x6 x7 x8 := by
  unfold out1_9
  rw [View.canon_unit_zero hz]
  simp only [View.ld_unit_zero (S := S2048x1) hz, View.ld_unit_zero (S := S256x256) hz, View.ld_unit_zero (S := S2048x1024) hz,
    View.ld_unit_zero (S := S1024x256) hz, View.ld_unit_zero (S := S1x256) hz, View.ld_unit_zero (S := S256x128) hz,
    View.ld_unit_zero (S := S1x128) hz, View.ld_unit_zero (S := S128x4) hz, View.ld_unit_zero (S := S1x4) hz]
  unfold k1_pay1 k1_pay2 k1_pay3
  dsimp only
  simp only [Cert.Lib.truncf_id, shapeCast_self]
  rw [show dot_S2048x128_S128x4_S2048x4_1_0_0_1_n_n = DotDims.plain 2048 128 4 from rfl,
    show dot_S2048x256_S256x256_S2048x256_1_0_0_1_n_n = DotDims.plain 2048 256 256 from rfl,
    show dot_S2048x1024_S1024x256_S2048x256_1_0_0_1_n_n = DotDims.plain 2048 1024 256 from rfl,
    show dot_S2048x256_S256x128_S2048x128_1_0_0_1_n_n = DotDims.plain 2048 256 128 from rfl]
  simp only [Cert.Lib.matmul_plain, Cert.Lib.addf_broadcastTo_row, Cert.Lib.maximumf_broadcast_zero]
  rw [Cert.Lib.onehot_eq (R := 2048) (C := 256) x1 broadcasts_S2048x1_S2048x256 iota_S2048x256_d1_w32 natLt_1_32]
  rw [Cert.Lib.addf_eq_add]
  unfold nodeRows
  with_reducible rfl

/-! ## Row blocks -/

/-- Rows `off … off + R - 1` of a two-axis array, whatever its entries. -/
private def rowsAt {α : Type} {M N : Nat} (R off : Nat) (h : off + R ≤ M) (x : (⟨2, ![M, N]⟩ : Shape).Idx → α) :
    (⟨2, ![R, N]⟩ : Shape).Idx → α :=
  fun j => x (ix2 ⟨off + (j 0).val, Nat.lt_of_lt_of_le (Nat.add_lt_add_left (idx2_lt0 j) off) h⟩ (j 1))

section Rows
open Cert.Spec
variable {M K N R off : Nat} (h : off + R ≤ M)

/-- A product's rows are the products of the left operand's rows. -/
private theorem mm_rowsAt (l : Mat M K) (r : Mat K N) : mm (rowsAt R off h l) r = rowsAt R off h (mm l r) := rfl
/-- A row added to every row: row by row. -/
private theorem addRow2_rowsAt (x : Mat M N) (b : Mat 1 N) : addRow2 (rowsAt R off h x) b = rowsAt R off h (addRow2 x b) := rfl
/-- The positive part: entry by entry. -/
private theorem relu_rowsAt (x : Mat M N) : relu (rowsAt R off h x) = rowsAt R off h (relu x) := rfl
/-- The sum: entry by entry. -/
private theorem add_rowsAt (x y : Mat M N) : add (rowsAt R off h x) (rowsAt R off h y) = rowsAt R off h (add x y) := rfl
/-- A one-hot row depends on its own id only. -/
private theorem oneHot_rowsAt (C : Nat) (s : WCol M) : oneHot C (rowsAt R off h s) = rowsAt R off h (oneHot C s) := rfl

/-- The node reconstruction acts row by row. -/
private theorem nodeRows_rowsAt (ne : Mat M 1024) (seg : WCol M) (zp : Mat 256 256) (Wnep : Mat 1024 256) (bnep : Mat 1 256)
    (Wnd1 : Mat 256 128) (bnd1 : Mat 1 128) (Wnd2 : Mat 128 4) (bnd2 : Mat 1 4) :
    nodeRows (rowsAt R off h ne) (rowsAt R off h seg) zp Wnep bnep Wnd1 bnd1 Wnd2 bnd2
      = rowsAt R off h (nodeRows ne seg zp Wnep bnep Wnd1 bnd1 Wnd2 bnd2) := by
  unfold nodeRows
  rw [oneHot_rowsAt, mm_rowsAt, mm_rowsAt, addRow2_rowsAt, relu_rowsAt, add_rowsAt, mm_rowsAt, addRow2_rowsAt, relu_rowsAt,
    mm_rowsAt, addRow2_rowsAt]
end Rows

/-! ## The windows' blocks as rows of the arrays -/

/-- The block indices over the grid: the node embedding's, the id column's and the output's blocks are the point's own
    rows; the small operands are whole. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0 :=
  (by decide +kernel : ∀ t : Fin grid1.N, _)

private theorem idx_whole : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- Point `t`'s rows lie inside the 65536 rows. -/
private theorem rows_le (t : Fin cfg1.N) : 2048 * t.val + 2048 ≤ 65536 := by
  have h : t.val < 32 := t.isLt
  omega

/-- The node embedding's block at point `t` is its rows `2048 t …`. -/
private theorem blk0_eq (c : Dev nD) (t : Fin cfg1.N) :
    (iblk1 V c 0 t : Vec Ideal S2048x1024 .f32) = rowsAt 2048 (2048 * t.val) (rows_le t) (V c main_arg1) := by
  obtain ⟨e0, e1, -⟩ := idx_facts t
  funext y
  unfold iblk1
  rw [View.read_apply]
  show V c main_arg1 _ = V c main_arg1 _
  congr 1
  funext a
  apply Fin.ext
  match a with
  | ⟨0, _⟩ => show win1_0.index t (0 : Fin 2) * 2048 + 1 * (y 0).val = 2048 * t.val + (y 0).val; rw [e0]; omega
  | ⟨1, _⟩ => show win1_0.index t (1 : Fin 2) * 1024 + 1 * (y 1).val = (y 1).val; rw [e1]; omega

/-- The id column's block at point `t` is its rows `2048 t …`. -/
private theorem blk1_eq (c : Dev nD) (t : Fin cfg1.N) :
    (iblk1 V c 1 t : Vec Ideal S2048x1 .i32) = rowsAt 2048 (2048 * t.val) (rows_le t) (V c main_v18) := by
  obtain ⟨-, -, e0, e1, -⟩ := idx_facts t
  funext y
  unfold iblk1
  rw [View.read_apply]
  show V c main_v18 _ = V c main_v18 _
  congr 1
  funext a
  apply Fin.ext
  match a with
  | ⟨0, _⟩ => show win1_1.index t (0 : Fin 2) * 2048 + 1 * (y 0).val = 2048 * t.val + (y 0).val; rw [e0]; omega
  | ⟨1, _⟩ => show win1_1.index t (1 : Fin 2) * 1 + 1 * (y 1).val = (y 1).val; rw [e1]; omega

/-- The latent projection is handed over whole at every point. -/
private theorem blk2_eq (c : Dev nD) (t : Fin cfg1.N) : (iblk1 V c 2 t : Vec Ideal S256x256 .f32) = V c main_v17_0 := by
  obtain ⟨⟨e0, e1⟩, -, -, -, -, -, -⟩ := idx_whole t
  funext y
  unfold iblk1
  rw [View.read_apply]
  show V c main_v17_0 _ = V c main_v17_0 _
  congr 1
  funext a
  apply Fin.ext
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- The node projection's weight is handed over whole at every point. -/
private theorem blk3_eq (c : Dev nD) (t : Fin cfg1.N) : (iblk1 V c 3 t : Vec Ideal S1024x256 .f32) = V c main_arg8 := by
  obtain ⟨-, ⟨e0, e1⟩, -, -, -, -, -⟩ := idx_whole t
  funext y
  unfold iblk1
  rw [View.read_apply]
  show V c main_arg8 _ = V c main_arg8 _
  congr 1
  funext a
  apply Fin.ext
  match a with
  | ⟨0, _⟩ => show win1_3.index t (0 : Fin 2) * 1024 + 1 * (y 0).val = (y 0).val; rw [e0]; omega
  | ⟨1, _⟩ => show win1_3.index t (1 : Fin 2) * 256 + 1 * (y 1).val = (y 1).val; rw [e1]; omega

/-- The node projection's bias row is handed over whole at every point. -/
private theorem blk4_eq (c : Dev nD) (t : Fin cfg1.N) : (iblk1 V c 4 t : Vec Ideal S1x256 .f32) = V c main_v8 := by
  obtain ⟨-, -, ⟨e0, e1⟩, -, -, -, -⟩ := idx_whole t
  funext y
  unfold iblk1
  rw [View.read_apply]
  show V c main_v8 _ = V c main_v8 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- The first decoder weight is handed over whole at every point. -/
private theorem blk5_eq (c : Dev nD) (t : Fin cfg1.N) : (iblk1 V c 5 t : Vec Ideal S256x128 .f32) = V c main_arg10 := by
  obtain ⟨-, -, -, ⟨e0, e1⟩, -, -, -⟩ := idx_whole t
  funext y
  unfold iblk1
  rw [View.read_apply]
  show V c main_arg10 _ = V c main_arg10 _
  congr 1
  funext a
  apply Fin.ext
  match a with
  | ⟨0, _⟩ => show win1_5.index t (0 : Fin 2) * 256 + 1 * (y 0).val = (y 0).val; rw [e0]; omega
  | ⟨1, _⟩ => show win1_5.index t (1 : Fin 2) * 128 + 1 * (y 1).val = (y 1).val; rw [e1]; omega

/-- The first decoder bias row is handed over whole at every point. -/
private theorem blk6_eq (c : Dev nD) (t : Fin cfg1.N) : (iblk1 V c 6 t : Vec Ideal S1x128 .f32) = V c main_v9 := by
  obtain ⟨-, -, -, -, ⟨e0, e1⟩, -, -⟩ := idx_whole t
  funext y
  unfold iblk1
  rw [View.read_apply]
  show V c main_v9 _ = V c main_v9 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- The second decoder weight is handed over whole at every point. -/
private theorem blk7_eq (c : Dev nD) (t : Fin cfg1.N) : (iblk1 V c 7 t : Vec Ideal S128x4 .f32) = V c main_arg12 := by
  obtain ⟨-, -, -, -, -, ⟨e0, e1⟩, -⟩ := idx_whole t
  funext y
  unfold iblk1
  rw [View.read_apply]
  show V c main_arg12 _ = V c main_arg12 _
  congr 1
  funext a
  apply Fin.ext
  match a with
  | ⟨0, _⟩ => show win1_7.index t (0 : Fin 2) * 128 + 1 * (y 0).val = (y 0).val; rw [e0]; omega
  | ⟨1, _⟩ => show win1_7.index t (1 : Fin 2) * 4 + 1 * (y 1).val = (y 1).val; rw [e1]; omega

/-- The second decoder bias row is handed over whole at every point. -/
private theorem blk8_eq (c : Dev nD) (t : Fin cfg1.N) : (iblk1 V c 8 t : Vec Ideal S1x4 .f32) = V c main_v10 := by
  obtain ⟨-, -, -, -, -, -, ⟨e0, e1⟩⟩ := idx_whole t
  funext y
  unfold iblk1
  rw [View.read_apply]
  show V c main_v10 _ = V c main_v10 _
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 4 + 1 * (y 1).val = (y 1).val; rw [e1]; omega

/-- The output window's block at point `t`, read off any contents of the output array, is the contents' rows `2048 t …`. -/
private theorem blk9_read (t : Fin cfg1.N) (G : Cert.Spec.Mat 65536 4) :
    (((cfg1.win 9).blk t).view.read (Elt Ideal) G : Vec Ideal S2048x4 .f32) = rowsAt 2048 (2048 * t.val) (rows_le t) G := by
  obtain ⟨-, -, -, -, e0, e1⟩ := idx_facts t
  funext y
  rw [View.read_apply]
  show G _ = G _
  congr 1
  funext a
  apply Fin.ext
  match a with
  | ⟨0, _⟩ => show win1_9.index t (0 : Fin 2) * 2048 + 1 * (y 0).val = 2048 * t.val + (y 0).val; rw [e0]; omega
  | ⟨1, _⟩ => show win1_9.index t (1 : Fin 2) * 4 + 1 * (y 1).val = (y 1).val; rw [e1]; omega

/-! ## What a point writes back, and the array after the 32 points -/

/-- The whole-array description is the node reconstruction of all 65536 rows. -/
private theorem kNode_eq : @Cert.Spec.kNode = @nodeRows 65536 := rfl

/-- What point `t` writes back is block `t` of the node reconstruction of the arrays at the stage's entry. -/
private theorem flushed9_eq (c : Dev nD) (t : Fin cfg1.N) :
    (dat1 V c).flushed 9 t = ((cfg1.win 9).blk t).view.read (Elt Ideal)
      (Cert.Spec.kNode (V c main_arg1) (V c main_v18) (V c main_v17_0) (V c main_arg8) (V c main_v8) (V c main_arg10)
        (V c main_v9) (V c main_arg12) (V c main_v10)) := by
  show (cfg1.win 9).cut (grid1.coords t) ((dat1 V c).after 9 t) = _
  rw [after1_9, out_eq, blk0_eq, blk1_eq, blk2_eq, blk3_eq, blk4_eq, blk5_eq, blk6_eq, blk7_eq, blk8_eq, nodeRows_rowsAt,
    blk9_read, kNode_eq]
  rfl

/-- An index of the output array is in point `t`'s block iff each coordinate is in the block's range on its axis. -/
private theorem mem_blk9 (t : Fin cfg1.N) (i : S65536x4.Idx) :
    i ∈ ((cfg1.win 9).blk t).view.set ↔ ∀ a : Fin 2, win1_9.index t a * S2048x4.size a ≤ (i a).val ∧ (i a).val < win1_9.index t a * S2048x4.size a + S2048x4.size a := by
  show i ∈ ((View.whole main_v19).slice (win1_9.rect t)).set ↔ _
  rw [View.set_slice_whole, Rect.mem_set_unit]
  exact Iff.rfl

/-- Every row of the output array is written back by the point its number divided by 2048 names. -/
private theorem cover9 (i : S65536x4.Idx) : ∃ t : Fin cfg1.N, (cfg1.win 9).flush t = true ∧ i ∈ ((cfg1.win 9).blk t).view.set := by
  have hi0 : (i 0).val < 65536 := (i 0).isLt
  have hi1 : (i 1).val < 4 := (i 1).isLt
  have ht : (i 0).val / 2048 < 32 := by omega
  obtain ⟨-, -, -, -, e0, e1⟩ := idx_facts ⟨(i 0).val / 2048, ht⟩
  refine ⟨⟨(i 0).val / 2048, ht⟩, flush1_9 _, ?_⟩
  rw [mem_blk9]
  intro a
  match a with
  | ⟨0, _⟩ =>
    show win1_9.index ⟨(i 0).val / 2048, ht⟩ (0 : Fin 2) * 2048 ≤ (i 0).val ∧ (i 0).val < win1_9.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win1_9.index ⟨(i 0).val / 2048, ht⟩ (1 : Fin 2) * 4 ≤ (i 1).val ∧ (i 1).val < win1_9.index ⟨(i 0).val / 2048, ht⟩ (1 : Fin 2) * 4 + 4
    rw [e1]
    omega

/-- The output array after the stage's 32 points is the node reconstruction of the arrays at the stage's entry. -/
theorem final9 (c : Dev nD) :
    (dat1 V c).arrAt 9 cfg1.N
      = Cert.Spec.kNode (V c main_arg1) (V c main_v18) (V c main_v17_0) (V c main_arg8) (V c main_v8) (V c main_arg10)
          (V c main_v9) (V c main_arg12) (V c main_v10) :=
  (dat1 V c).arrAt_eq_of_cover 9 _ (fun t _ => flushed9_eq V c t) cover9

end Cert.KernelIdeal.KReg1

end
-- ==== Proof.KReg2.lean ====
/-
  The edge stage's output array. At every one of its 128 grid points the stage reads rows 4096 t … 4096 t + 4095 of the
  two columns of endpoint segment ids, and the whole of the small operands; it writes the same rows of the output. Every
  operation of the body acts row by row, so the blocks are the restrictions of ONE whole-array function: the one-hot
  description `Cert.Spec.kEdge` of the edge reconstruction, of the arrays as the stage finds them.
-/
import proofs.«401555_j79637283602854_1_alg».proof.Proof.Gen.KernelIdeal.Frame
import proofs.«401555_j79637283602854_1_alg».proof.Proof.Spec
import proofs.«401555_j79637283602854_1_alg».proof.Proof.LibDot
import proofs.«401555_j79637283602854_1_alg».proof.Proof.LibRow
import proofs.«401555_j79637283602854_1_alg».proof.Proof.LibHot

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.KReg2

open Cert.KernelIdeal Cert.KernelIdeal.Gen

variable (V : (c : Dev nD) → (b : Ref sig .tc) → Buf (Elt Ideal) ((c : Thread nD τ).loc b))

/-- The zero offsets of a whole-block access, however spelt. -/
private theorem hz : (![0, 0] : Fin 2 → Nat) = fun _ => 0 := funext fun a => by fin_cases a <;> rfl

/-- The edge reconstruction on any number of rows: `Cert.Spec.kEdge` is this at 524288 rows, a block's result this at
    4096 rows. -/
private def edge {R : Nat} (ss sd : Cert.Spec.WCol R) (A B : Cert.Spec.Mat 256 128) (b1 : Cert.Spec.Mat 1 128)
    (W2 : Cert.Spec.Mat 128 3) (b2 : Cert.Spec.Mat 1 3) : Cert.Spec.Mat R 3 :=
  Cert.Spec.addRow2 (Cert.Spec.mm (Cert.Spec.relu (Cert.Spec.addRow2
    (Cert.Spec.add (Cert.Spec.mm (Cert.Spec.oneHot 256 ss) A) (Cert.Spec.mm (Cert.Spec.oneHot 256 sd) B)) b1)) W2) b2

/-- What the body leaves in the output's buffer is the edge reconstruction of its 4096 rows of ids and the small operands. -/
private theorem out_eq (x0 x1 : Vec Ideal S4096x1 .i32) (x2 x3 : Vec Ideal S256x128 .f32) (x4 : Vec Ideal S1x128 .f32)
    (x5 : Vec Ideal S128x3 .f32) (x6 : Vec Ideal S1x3 .f32) :
    out2_7 (F := Ideal) x0 x1 x2 x3 x4 x5 x6 = edge (R := 4096) x0 x1 x2 x3 x4 x5 x6 := by
  unfold out2_7
  rw [View.canon_unit_zero hz]
  simp only [View.ld_unit_zero (S := S4096x1) hz, View.ld_unit_zero (S := S256x128) hz, View.ld_unit_zero (S := S1x128) hz,
    View.ld_unit_zero (S := S128x3) hz, View.ld_unit_zero (S := S1x3) hz]
  unfold k2_pay1
  dsimp only
  simp only [shapeCast_self, Cert.Lib.truncf_id]
  have e1 : dot_S4096x256_S256x128_S4096x128_1_0_0_1_n_n = DotDims.plain 4096 256 128 := rfl
  have e2 : dot_S4096x128_S128x3_S4096x3_1_0_0_1_n_n = DotDims.plain 4096 128 3 := rfl
  rw [e1, e2, Cert.Lib.onehot_eq, Cert.Lib.onehot_eq, Cert.Lib.addf_broadcastTo_row, Cert.Lib.addf_broadcastTo_row,
    Cert.Lib.addf_eq_add, Cert.Lib.maximumf_broadcast_zero, Cert.Lib.matmul_plain, Cert.Lib.matmul_plain, Cert.Lib.matmul_plain]
  rfl

/-- The stage's result is the edge reconstruction at 524288 rows. -/
private theorem kEdge_eq (ss sd : Cert.Spec.WCol 524288) (A B : Cert.Spec.Mat 256 128) (b1 : Cert.Spec.Mat 1 128)
    (W2 : Cert.Spec.Mat 128 3) (b2 : Cert.Spec.Mat 1 3) :
    Cert.Spec.kEdge ss sd A B b1 W2 b2 = edge ss sd A B b1 W2 b2 := rfl

/-- One row of the edge reconstruction, from the row's two ids: entry `q`. -/
private def edgeRow (A B : Cert.Spec.Mat 256 128) (b1 : Cert.Spec.Mat 1 128) (W2 : Cert.Spec.Mat 128 3)
    (b2 : Cert.Spec.Mat 1 3) (s d : BitVec 32) (q : Fin 3) : EReal :=
  (∑ k : Fin 128, max ((∑ p : Fin 256, Cert.Spec.hot 256 s p * A (ix2 p k))
      + (∑ p : Fin 256, Cert.Spec.hot 256 d p * B (ix2 p k)) + b1 (ix2 0 k)) 0 * W2 (ix2 k q)) + b2 (ix2 0 q)

/-- Every operation of the edge reconstruction acts row by row: entry `(r, q)` is a function of the two ids of row `r`. -/
private theorem edge_apply {R : Nat} (ss sd : Cert.Spec.WCol R) (A B : Cert.Spec.Mat 256 128) (b1 : Cert.Spec.Mat 1 128)
    (W2 : Cert.Spec.Mat 128 3) (b2 : Cert.Spec.Mat 1 3) (j : (⟨2, ![R, 3]⟩ : Shape).Idx) :
    edge ss sd A B b1 W2 b2 j = edgeRow A B b1 W2 b2 (ss (ix2 (j 0) 0)) (sd (ix2 (j 0) 0)) (j 1) := rfl

/-- So the edge reconstruction of some rows of the ids is the same rows of the edge reconstruction. -/
private theorem edge_block {R R' : Nat} (ss sd : Cert.Spec.WCol R) (ss' sd' : Cert.Spec.WCol R')
    (A B A' B' : Cert.Spec.Mat 256 128) (b1 b1' : Cert.Spec.Mat 1 128) (W2 W2' : Cert.Spec.Mat 128 3)
    (b2 b2' : Cert.Spec.Mat 1 3) (j : (⟨2, ![R', 3]⟩ : Shape).Idx) (i : (⟨2, ![R, 3]⟩ : Shape).Idx)
    (hs : ss' (ix2 (j 0) 0) = ss (ix2 (i 0) 0)) (hd : sd' (ix2 (j 0) 0) = sd (ix2 (i 0) 0)) (hj : (j 1).val = (i 1).val)
    (hA : A' = A) (hB : B' = B) (h1 : b1' = b1) (hW : W2' = W2) (h2 : b2' = b2) :
    edge ss' sd' A' B' b1' W2' b2' j = edge ss sd A B b1 W2 b2 i := by
  have hq : (j 1 : Fin 3) = (i 1 : Fin 3) := Fin.ext hj
  rw [edge_apply, edge_apply, hs, hd, hA, hB, h1, hW, h2, hq]

/-- The windows' index maps at each of the 128 points: the two id columns move with the output, block `t` at point
    `t`; the small operands stay at their one block. -/
private theorem idx_facts : ∀ t : Fin cfg2.N,
    win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The block of the table `A` at any point is the whole table. -/
private theorem blk2_eq (c : Dev nD) (t : Fin cfg2.N) : iblk2 V c 2 t = V c main_v17_3 := by
  obtain ⟨-, -, -, -, e0, e1, -⟩ := idx_facts t
  funext x
  show V c main_v17_3 (((cfg2.win 2).blk t).view.emb x) = V c main_v17_3 x
  refine congrArg _ (funext fun a => Fin.ext ?_)
  match a with
  | ⟨0, _⟩ => show win2_2.index t (0 : Fin 2) * 256 + 1 * (x 0).val = (x 0).val; rw [e0]; omega
  | ⟨1, _⟩ => show win2_2.index t (1 : Fin 2) * 128 + 1 * (x 1).val = (x 1).val; rw [e1]; omega

/-- The block of the table `B` at any point is the whole table. -/
private theorem blk3_eq (c : Dev nD) (t : Fin cfg2.N) : iblk2 V c 3 t = V c main_v17_4 := by
  obtain ⟨-, -, -, -, -, -, e0, e1, -⟩ := idx_facts t
  funext x
  show V c main_v17_4 (((cfg2.win 3).blk t).view.emb x) = V c main_v17_4 x
  refine congrArg _ (funext fun a => Fin.ext ?_)
  match a with
  | ⟨0, _⟩ => show win2_3.index t (0 : Fin 2) * 256 + 1 * (x 0).val = (x 0).val; rw [e0]; omega
  | ⟨1, _⟩ => show win2_3.index t (1 : Fin 2) * 128 + 1 * (x 1).val = (x 1).val; rw [e1]; omega

/-- The block of the first bias at any point is the whole row. -/
private theorem blk4_eq (c : Dev nD) (t : Fin cfg2.N) : iblk2 V c 4 t = V c main_v11 := by
  obtain ⟨-, -, -, -, -, -, -, -, e0, e1, -⟩ := idx_facts t
  funext x
  show V c main_v11 (((cfg2.win 4).blk t).view.emb x) = V c main_v11 x
  refine congrArg _ (funext fun a => Fin.ext ?_)
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- The block of the second weight at any point is the whole matrix. -/
private theorem blk5_eq (c : Dev nD) (t : Fin cfg2.N) : iblk2 V c 5 t = V c main_arg16 := by
  obtain ⟨-, -, -, -, -, -, -, -, -, -, e0, e1, -⟩ := idx_facts t
  funext x
  show V c main_arg16 (((cfg2.win 5).blk t).view.emb x) = V c main_arg16 x
  refine congrArg _ (funext fun a => Fin.ext ?_)
  match a with
  | ⟨0, _⟩ => show win2_5.index t (0 : Fin 2) * 128 + 1 * (x 0).val = (x 0).val; rw [e0]; omega
  | ⟨1, _⟩ => show win2_5.index t (1 : Fin 2) * 3 + 1 * (x 1).val = (x 1).val; rw [e1]; omega

/-- The block of the second bias at any point is the whole row. -/
private theorem blk6_eq (c : Dev nD) (t : Fin cfg2.N) : iblk2 V c 6 t = V c main_v12 := by
  obtain ⟨-, -, -, -, -, -, -, -, -, -, -, -, e0, e1, -⟩ := idx_facts t
  funext x
  show V c main_v12 (((cfg2.win 6).blk t).view.emb x) = V c main_v12 x
  refine congrArg _ (funext fun a => Fin.ext ?_)
  match a with
  | ⟨0, _⟩ => show win2_6.index t (0 : Fin 2) * 1 + 1 * (x 0).val = (x 0).val; rw [e0]; omega
  | ⟨1, _⟩ => show win2_6.index t (1 : Fin 2) * 3 + 1 * (x 1).val = (x 1).val; rw [e1]; omega

/-- What point `t` writes back is block `t` of the edge reconstruction of the arrays as the stage finds them. -/
private theorem flushed_eq (c : Dev nD) (t : Fin cfg2.N) :
    (dat2 V c).flushed 7 t = ((cfg2.win 7).blk t).view.read (Elt Ideal)
      (Cert.Spec.kEdge (V c main_v27) (V c main_v35) (V c main_v17_3) (V c main_v17_4) (V c main_v11) (V c main_arg16)
        (V c main_v12)) := by
  show (cfg2.win 7).cut (grid2.coords t) ((dat2 V c).after 7 t) = _
  rw [after2_7, out_eq, kEdge_eq]
  obtain ⟨e00, e01, e10, e11, -, -, -, -, -, -, -, -, -, -, -, e71⟩ := idx_facts t
  funext y
  show edge (iblk2 V c 0 t) (iblk2 V c 1 t) (iblk2 V c 2 t) (iblk2 V c 3 t) (iblk2 V c 4 t) (iblk2 V c 5 t) (iblk2 V c 6 t) y
    = edge (V c main_v27) (V c main_v35) (V c main_v17_3) (V c main_v17_4) (V c main_v11) (V c main_arg16) (V c main_v12)
        (((cfg2.win 7).blk t).view.emb y)
  refine edge_block _ _ _ _ _ _ _ _ _ _ _ _ _ _ y _ ?_ ?_ ?_ (blk2_eq V c t) (blk3_eq V c t) (blk4_eq V c t)
    (blk5_eq V c t) (blk6_eq V c t)
  · show V c main_v27 (((cfg2.win 0).blk t).view.emb (ix2 (y 0) 0)) = V c main_v27 (ix2 (((cfg2.win 7).blk t).view.emb y 0) 0)
    refine congrArg _ (funext fun a => Fin.ext ?_)
    match a with
    | ⟨0, _⟩ =>
      show win2_0.index t (0 : Fin 2) * 4096 + 1 * (y 0).val = win2_7.index t (0 : Fin 2) * 4096 + 1 * (y 0).val
      rw [e00]
    | ⟨1, _⟩ => show win2_0.index t (1 : Fin 2) * 1 + 1 * 0 = 0; rw [e01]
  · show V c main_v35 (((cfg2.win 1).blk t).view.emb (ix2 (y 0) 0)) = V c main_v35 (ix2 (((cfg2.win 7).blk t).view.emb y 0) 0)
    refine congrArg _ (funext fun a => Fin.ext ?_)
    match a with
    | ⟨0, _⟩ =>
      show win2_1.index t (0 : Fin 2) * 4096 + 1 * (y 0).val = win2_7.index t (0 : Fin 2) * 4096 + 1 * (y 0).val
      rw [e10]
    | ⟨1, _⟩ => show win2_1.index t (1 : Fin 2) * 1 + 1 * 0 = 0; rw [e11]
  · show (y 1).val = win2_7.index t (1 : Fin 2) * 3 + 1 * (y 1).val
    rw [e71]; omega

/-- An index of the output array is in point `t`'s block iff each coordinate is in the block's range on its axis. -/
private theorem mem_blk (t : Fin cfg2.N) (i : S524288x3.Idx) :
    i ∈ ((cfg2.win 7).blk t).view.set ↔ ∀ a : Fin 2, win2_7.index t a * S4096x3.size a ≤ (i a).val
      ∧ (i a).val < win2_7.index t a * S4096x3.size a + S4096x3.size a := by
  show i ∈ ((View.whole main_v36).slice (win2_7.rect t)).set ↔ _
  rw [View.set_slice_whole, Rect.mem_set_unit]
  exact Iff.rfl

/-- Every index of the output array is in a flushing point's block: row `r` is written by point `r / 4096`. -/
private theorem cover (i : S524288x3.Idx) :
    ∃ t : Fin cfg2.N, (cfg2.win 7).flush t = true ∧ i ∈ ((cfg2.win 7).blk t).view.set := by
  have hi0 : (i 0).val < 524288 := (i 0).isLt
  have hi1 : (i 1).val < 3 := (i 1).isLt
  have ht : (i 0).val / 4096 < cfg2.N := by show (i 0).val / 4096 < 128; omega
  obtain ⟨-, -, -, -, -, -, -, -, -, -, -, -, -, -, e70, e71⟩ := idx_facts ⟨(i 0).val / 4096, ht⟩
  refine ⟨⟨(i 0).val / 4096, ht⟩, flush2_7 _, ?_⟩
  rw [mem_blk]
  intro a
  match a with
  | ⟨0, _⟩ =>
    show win2_7.index ⟨(i 0).val / 4096, ht⟩ (0 : Fin 2) * 4096 ≤ (i 0).val
      ∧ (i 0).val < win2_7.index ⟨(i 0).val / 4096, ht⟩ (0 : Fin 2) * 4096 + 4096
    rw [e70]
    show (i 0).val / 4096 * 4096 ≤ (i 0).val ∧ (i 0).val < (i 0).val / 4096 * 4096 + 4096
    omega
  | ⟨1, _⟩ =>
    show win2_7.index ⟨(i 0).val / 4096, ht⟩ (1 : Fin 2) * 3 ≤ (i 1).val
      ∧ (i 1).val < win2_7.index ⟨(i 0).val / 4096, ht⟩ (1 : Fin 2) * 3 + 3
    rw [e71]
    omega

/-- The output array after the stage's 128 points is the edge reconstruction of the arrays at the stage's entry. -/
theorem final7 (c : Dev nD) :
    (dat2 V c).arrAt 7 cfg2.N
      = Cert.Spec.kEdge (V c main_v27) (V c main_v35) (V c main_v17_3) (V c main_v17_4) (V c main_v11) (V c main_arg16)
          (V c main_v12) := by
  exact (dat2 V c).arrAt_eq_of_cover 7 _ (fun t _ => flushed_eq V c t) cover

end Cert.KernelIdeal.KReg2

end
-- ==== Proof.KValue.lean ====
/-
  The kernel program's four results as the one-hot description of the decoder (Cert.Spec) of the ARGUMENT arrays.
  The run leaves every buffer at the contents of the last segment boundary, a fold through the program: a stretch of host
  operations computes its buffers from the contents before it and leaves every other buffer alone; a stage leaves each of
  its output arrays at its function of the arrays it was entered with and leaves every other buffer alone. So each result
  buffer is walked back, boundary by boundary, to the stage that wrote it, and that stage's operands are walked back to
  the arguments: the biases are the arguments reshaped to one row, the split weights are row slices of the arguments, the
  segment-id column is the argument reshaped, and the endpoints' segment-id columns are the segment ids taken at the
  (wrapped and clamped) endpoint words.
-/
import proofs.«401555_j79637283602854_1_alg».proof.Proof.Gen.KernelIdeal.Frame
import proofs.«401555_j79637283602854_1_alg».proof.Proof.Spec
import proofs.«401555_j79637283602854_1_alg».proof.Proof.LibRow
import proofs.«401555_j79637283602854_1_alg».proof.Proof.LibTake
import proofs.«401555_j79637283602854_1_alg».proof.Proof.KReg0
import proofs.«401555_j79637283602854_1_alg».proof.Proof.KReg1
import proofs.«401555_j79637283602854_1_alg».proof.Proof.KReg2
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.KValue

open Cert.KernelIdeal Cert.KernelIdeal.Gen Idealize.ShloMosaic.StableHlo Cert.Spec

variable (m : (ℓ : Loc nD τ sig) → Buf (Elt Ideal) ℓ) (ρ : Dev nD → PrngReg)

/-- No operation of a stretch writes the buffer: each operation writes one buffer, another one. -/
macro "not_written" : tactic => `(tactic| (
  refine List.forall_iff_forall_mem.mp ?_
  simp only [hostOps0, hostOps1, hostOps2, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-- Buffer `b`'s array as launched, on core `c`. -/
abbrev arg (c : Dev nD) (b : Ref sig .tc) : Buf (Elt Ideal) ((c : Thread nD τ).loc b) := m ((c : Thread nD τ).loc b)

/-! ## A stretch of host operations leaves the buffers it does not write alone -/

theorem keep0 (c : Dev nD) (b : Ref sig .tc)
    (h : ∀ op ∈ (hostOps0 : List (HloOp τ sig (Elt Ideal))), (Proc.devRef .tc b : DevRef τ sig) ∉ op.writes) :
    W1 m ρ c (Proc.devRef .tc b) = arg m c b :=
  (StableHlo.after_of_forall_not_mem (b := Proc.devRef .tc b) _ _ h).trans rfl
theorem keep1 (c : Dev nD) (b : Ref sig .tc)
    (h : ∀ op ∈ (hostOps1 : List (HloOp τ sig (Elt Ideal))), (Proc.devRef .tc b : DevRef τ sig) ∉ op.writes) :
    W3 m ρ c (Proc.devRef .tc b) = W2 m ρ c (Proc.devRef .tc b) :=
  StableHlo.after_of_forall_not_mem (b := Proc.devRef .tc b) _ _ h
theorem keep2 (c : Dev nD) (b : Ref sig .tc)
    (h : ∀ op ∈ (hostOps2 : List (HloOp τ sig (Elt Ideal))), (Proc.devRef .tc b : DevRef τ sig) ∉ op.writes) :
    W5 m ρ c (Proc.devRef .tc b) = W4 m ρ c (Proc.devRef .tc b) :=
  StableHlo.after_of_forall_not_mem (b := Proc.devRef .tc b) _ _ h

/-! ## What the host operations compute, over ANY contents they start from -/

variable (W : Valuation τ sig (Elt Ideal))

/-- A bias reshaped to one row. -/
theorem after0_v6 : StableHlo.after hostOps0 W (Proc.devRef .tc main_v6) = asRow2 (W (Proc.devRef .tc main_arg2)) := by
  after_results
  exact Cert.Lib.shapeCast_asRow2 (N := 6) (W (Proc.devRef .tc main_arg2)) shapeCasts_S6_S1x6
/-- A bias reshaped to one row. -/
theorem after0_v7 : StableHlo.after hostOps0 W (Proc.devRef .tc main_v7) = asRow2 (W (Proc.devRef .tc main_arg7)) := by
  after_results
  exact Cert.Lib.shapeCast_asRow2 (N := 256) (W (Proc.devRef .tc main_arg7)) shapeCasts_S256_S1x256
/-- A bias reshaped to one row. -/
theorem after0_v8 : StableHlo.after hostOps0 W (Proc.devRef .tc main_v8) = asRow2 (W (Proc.devRef .tc main_arg9)) := by
  after_results
  exact Cert.Lib.shapeCast_asRow2 (N := 256) (W (Proc.devRef .tc main_arg9)) shapeCasts_S256_S1x256
/-- A bias reshaped to one row. -/
theorem after0_v9 : StableHlo.after hostOps0 W (Proc.devRef .tc main_v9) = asRow2 (W (Proc.devRef .tc main_arg11)) := by
  after_results
  exact Cert.Lib.shapeCast_asRow2 (N := 128) (W (Proc.devRef .tc main_arg11)) shapeCasts_S128_S1x128
/-- A bias reshaped to one row. -/
theorem after0_v10 : StableHlo.after hostOps0 W (Proc.devRef .tc main_v10) = asRow2 (W (Proc.devRef .tc main_arg13)) := by
  after_results
  exact Cert.Lib.shapeCast_asRow2 (N := 4) (W (Proc.devRef .tc main_arg13)) shapeCasts_S4_S1x4
/-- A bias reshaped to one row. -/
theorem after0_v11 : StableHlo.after hostOps0 W (Proc.devRef .tc main_v11) = asRow2 (W (Proc.devRef .tc main_arg15)) := by
  after_results
  exact Cert.Lib.shapeCast_asRow2 (N := 128) (W (Proc.devRef .tc main_arg15)) shapeCasts_S128_S1x128
/-- A bias reshaped to one row. -/
theorem after0_v12 : StableHlo.after hostOps0 W (Proc.devRef .tc main_v12) = asRow2 (W (Proc.devRef .tc main_arg17)) := by
  after_results
  exact Cert.Lib.shapeCast_asRow2 (N := 3) (W (Proc.devRef .tc main_arg17)) shapeCasts_S3_S1x3
/-- A bias reshaped to one row. -/
theorem after0_v13 : StableHlo.after hostOps0 W (Proc.devRef .tc main_v13) = asRow2 (W (Proc.devRef .tc main_arg19)) := by
  after_results
  exact Cert.Lib.shapeCast_asRow2 (N := 128) (W (Proc.devRef .tc main_arg19)) shapeCasts_S128_S1x128
/-- A bias reshaped to one row. -/
theorem after0_v14 : StableHlo.after hostOps0 W (Proc.devRef .tc main_v14) = asRow2 (W (Proc.devRef .tc main_arg21)) := by
  after_results
  exact Cert.Lib.shapeCast_asRow2 (N := 2) (W (Proc.devRef .tc main_arg21)) shapeCasts_S2_S1x2
/-- A bias reshaped to one row. -/
theorem after0_v15 : StableHlo.after hostOps0 W (Proc.devRef .tc main_v15) = asRow2 (W (Proc.devRef .tc main_arg23)) := by
  after_results
  exact Cert.Lib.shapeCast_asRow2 (N := 128) (W (Proc.devRef .tc main_arg23)) shapeCasts_S128_S1x128
/-- A bias reshaped to one row. -/
theorem after0_v16 : StableHlo.after hostOps0 W (Proc.devRef .tc main_v16) = asRow2 (W (Proc.devRef .tc main_arg25)) := by
  after_results
  exact Cert.Lib.shapeCast_asRow2 (N := 9) (W (Proc.devRef .tc main_arg25)) shapeCasts_S9_S1x9
/-- A weight's rows 0 … 63. -/
theorem after0_v0 : StableHlo.after hostOps0 W (Proc.devRef .tc main_v0) = rowSlice 64 0 (by decide) (W (Proc.devRef .tc main_arg18)) := by
  after_results
  exact Cert.Lib.extractStridedSlice_rows (M := 70) (N := 128) (M' := 64) (off := 0) (W (Proc.devRef .tc main_arg18)) slices_S70x128_S64x128_0_0 (by decide)
/-- A weight's rows 64 … 69. -/
theorem after0_v1 : StableHlo.after hostOps0 W (Proc.devRef .tc main_v1) = rowSlice 6 64 (by decide) (W (Proc.devRef .tc main_arg18)) := by
  after_results
  exact Cert.Lib.extractStridedSlice_rows (M := 70) (N := 128) (M' := 6) (off := 64) (W (Proc.devRef .tc main_arg18)) slices_S70x128_S6x128_64_0 (by decide)
/-- A weight's rows 0 … 63. -/
theorem after0_v2 : StableHlo.after hostOps0 W (Proc.devRef .tc main_v2) = rowSlice 64 0 (by decide) (W (Proc.devRef .tc main_arg22)) := by
  after_results
  exact Cert.Lib.extractStridedSlice_rows (M := 70) (N := 128) (M' := 64) (off := 0) (W (Proc.devRef .tc main_arg22)) slices_S70x128_S64x128_0_0 (by decide)
/-- A weight's rows 64 … 69. -/
theorem after0_v3 : StableHlo.after hostOps0 W (Proc.devRef .tc main_v3) = rowSlice 6 64 (by decide) (W (Proc.devRef .tc main_arg22)) := by
  after_results
  exact Cert.Lib.extractStridedSlice_rows (M := 70) (N := 128) (M' := 6) (off := 64) (W (Proc.devRef .tc main_arg22)) slices_S70x128_S6x128_64_0 (by decide)
/-- A weight's rows 0 … 255. -/
theorem after0_v4 : StableHlo.after hostOps0 W (Proc.devRef .tc main_v4) = rowSlice 256 0 (by decide) (W (Proc.devRef .tc main_arg14)) := by
  after_results
  exact Cert.Lib.extractStridedSlice_rows (M := 512) (N := 128) (M' := 256) (off := 0) (W (Proc.devRef .tc main_arg14)) slices_S512x128_S256x128_0_0 (by decide)
/-- A weight's rows 256 … 511. -/
theorem after0_v5 : StableHlo.after hostOps0 W (Proc.devRef .tc main_v5) = rowSlice 256 256 (by decide) (W (Proc.devRef .tc main_arg14)) := by
  after_results
  exact Cert.Lib.extractStridedSlice_rows (M := 512) (N := 128) (M' := 256) (off := 256) (W (Proc.devRef .tc main_arg14)) slices_S512x128_S256x128_256_0 (by decide)
/-- The segment ids as a column. -/
theorem after1_v18 : StableHlo.after hostOps1 W (Proc.devRef .tc main_v18) = asCol (W (Proc.devRef .tc main_arg3)) := by
  after_results
  exact Cert.Lib.shapeCast_asCol (N := 65536) (W (Proc.devRef .tc main_arg3)) shapeCasts_S65536_S65536x1
set_option maxHeartbeats 4000000 in
/-- The segment ids of the nodes the endpoint words name, as a column. -/
theorem after2_v27 : StableHlo.after hostOps2 W (Proc.devRef .tc main_v27)
    = endSeg (W (Proc.devRef .tc main_arg3)) (W (Proc.devRef .tc main_arg4)) := by
  after_results
  have hg : gather_S65536_S524288x1_S524288_n_0_n_n_0_1_1
      = Cert.Lib.wordsDims 65536 524288 gather_S65536_S524288x1_S524288_n_0_n_n_0_1_1_wf := rfl
  show shapeCast (⟨2, ![524288, 1]⟩ : Shape) (Host.gather gather_S65536_S524288x1_S524288_n_0_n_n_0_1_1 (W (Proc.devRef .tc main_arg3))
      (broadcastInDim (⟨2, ![524288, 1]⟩ : Shape) ![0] bcast_S524288_S524288x1_0
        (select (cmpi .slt (W (Proc.devRef .tc main_arg4)) (broadcastInDim (⟨1, ![524288]⟩ : Shape) ![] bcast_S_S524288 (constantI ⟨0, ![]⟩ 32 0#32)))
          (addi (W (Proc.devRef .tc main_arg4)) (broadcastInDim (⟨1, ![524288]⟩ : Shape) ![] bcast_S_S524288 (constantI ⟨0, ![]⟩ 32 (BitVec.ofNat 32 65536))))
          (W (Proc.devRef .tc main_arg4))))) shapeCasts_S524288_S524288x1 = _
  rw [hg, Cert.Lib.wrap_col 65536 (W (Proc.devRef .tc main_arg4)) bcast_S_S524288 bcast_S524288_S524288x1_0,
    Cert.Lib.gather_words (by decide : 0 < 65536), Cert.Lib.shapeCast_asCol]
  rfl
set_option maxHeartbeats 4000000 in
/-- The segment ids of the nodes the endpoint words name, as a column. -/
theorem after2_v35 : StableHlo.after hostOps2 W (Proc.devRef .tc main_v35)
    = endSeg (W (Proc.devRef .tc main_arg3)) (W (Proc.devRef .tc main_arg5)) := by
  after_results
  have hg : gather_S65536_S524288x1_S524288_n_0_n_n_0_1_1
      = Cert.Lib.wordsDims 65536 524288 gather_S65536_S524288x1_S524288_n_0_n_n_0_1_1_wf := rfl
  show shapeCast (⟨2, ![524288, 1]⟩ : Shape) (Host.gather gather_S65536_S524288x1_S524288_n_0_n_n_0_1_1 (W (Proc.devRef .tc main_arg3))
      (broadcastInDim (⟨2, ![524288, 1]⟩ : Shape) ![0] bcast_S524288_S524288x1_0
        (select (cmpi .slt (W (Proc.devRef .tc main_arg5)) (broadcastInDim (⟨1, ![524288]⟩ : Shape) ![] bcast_S_S524288 (constantI ⟨0, ![]⟩ 32 0#32)))
          (addi (W (Proc.devRef .tc main_arg5)) (broadcastInDim (⟨1, ![524288]⟩ : Shape) ![] bcast_S_S524288 (constantI ⟨0, ![]⟩ 32 (BitVec.ofNat 32 65536))))
          (W (Proc.devRef .tc main_arg5))))) shapeCasts_S524288_S524288x1 = _
  rw [hg, Cert.Lib.wrap_col 65536 (W (Proc.devRef .tc main_arg5)) bcast_S_S524288 bcast_S524288_S524288x1_0,
    Cert.Lib.gather_words (by decide : 0 < 65536), Cert.Lib.shapeCast_asCol]
  rfl

/-! ## The heads stage's operands and outputs -/

variable (c : Dev nD)

theorem v1_arg0 : V1 m ρ c main_arg0 = arg m c main_arg0 := keep0 m ρ c main_arg0 (by not_written)
theorem v1_arg6 : V1 m ρ c main_arg6 = arg m c main_arg6 := keep0 m ρ c main_arg6 (by not_written)
theorem v1_arg20 : V1 m ρ c main_arg20 = arg m c main_arg20 := keep0 m ρ c main_arg20 (by not_written)
theorem v1_arg24 : V1 m ρ c main_arg24 = arg m c main_arg24 := keep0 m ρ c main_arg24 (by not_written)
theorem v1_v6 : V1 m ρ c main_v6 = asRow2 (arg m c main_arg2) := after0_v6 (W0 m ρ c)
theorem v1_v7 : V1 m ρ c main_v7 = asRow2 (arg m c main_arg7) := after0_v7 (W0 m ρ c)
theorem v1_v13 : V1 m ρ c main_v13 = asRow2 (arg m c main_arg19) := after0_v13 (W0 m ρ c)
theorem v1_v14 : V1 m ρ c main_v14 = asRow2 (arg m c main_arg21) := after0_v14 (W0 m ρ c)
theorem v1_v15 : V1 m ρ c main_v15 = asRow2 (arg m c main_arg23) := after0_v15 (W0 m ρ c)
theorem v1_v16 : V1 m ρ c main_v16 = asRow2 (arg m c main_arg25) := after0_v16 (W0 m ρ c)
theorem v1_v0 : V1 m ρ c main_v0 = rowSlice 64 0 (by decide) (arg m c main_arg18) := after0_v0 (W0 m ρ c)
theorem v1_v1 : V1 m ρ c main_v1 = rowSlice 6 64 (by decide) (arg m c main_arg18) := after0_v1 (W0 m ρ c)
theorem v1_v2 : V1 m ρ c main_v2 = rowSlice 64 0 (by decide) (arg m c main_arg22) := after0_v2 (W0 m ρ c)
theorem v1_v3 : V1 m ρ c main_v3 = rowSlice 6 64 (by decide) (arg m c main_arg22) := after0_v3 (W0 m ρ c)
theorem v1_v4 : V1 m ρ c main_v4 = rowSlice 256 0 (by decide) (arg m c main_arg14) := after0_v4 (W0 m ρ c)
theorem v1_v5 : V1 m ρ c main_v5 = rowSlice 256 256 (by decide) (arg m c main_arg14) := after0_v5 (W0 m ρ c)

/-- The latent projection of the arguments. -/
abbrev zp : Mat 256 256 := kZProj (arg m c main_arg0) (arg m c main_arg6) (asRow2 (arg m c main_arg7))

theorem w2_zproj : W2 m ρ c (Proc.devRef .tc main_v17_0) = zp m c :=
  ((W2_arr m ρ c 16).trans (Cert.KernelIdeal.KReg0.final16 (V1 m ρ) c)).trans (by rw [v1_arg0, v1_arg6, v1_v7])
theorem w2_energy : W2 m ρ c (Proc.devRef .tc main_v17_1)
    = kHead (arg m c main_arg0) (asRow2 (arg m c main_arg2)) (rowSlice 64 0 (by decide) (arg m c main_arg18)) (rowSlice 6 64 (by decide) (arg m c main_arg18))
        (asRow2 (arg m c main_arg19)) (arg m c main_arg20) (asRow2 (arg m c main_arg21)) :=
  ((W2_arr m ρ c 17).trans (Cert.KernelIdeal.KReg0.final17 (V1 m ρ) c)).trans
    (by rw [v1_arg0, v1_v6, v1_v0, v1_v1, v1_v13, v1_arg20, v1_v14])
theorem w2_stress : W2 m ρ c (Proc.devRef .tc main_v17_2)
    = kHead (arg m c main_arg0) (asRow2 (arg m c main_arg2)) (rowSlice 64 0 (by decide) (arg m c main_arg22)) (rowSlice 6 64 (by decide) (arg m c main_arg22))
        (asRow2 (arg m c main_arg23)) (arg m c main_arg24) (asRow2 (arg m c main_arg25)) :=
  ((W2_arr m ρ c 18).trans (Cert.KernelIdeal.KReg0.final18 (V1 m ρ) c)).trans
    (by rw [v1_arg0, v1_v6, v1_v2, v1_v3, v1_v15, v1_arg24, v1_v16])
theorem w2_A : W2 m ρ c (Proc.devRef .tc main_v17_3) = mm (zp m c) (rowSlice 256 0 (by decide) (arg m c main_arg14)) :=
  ((W2_arr m ρ c 19).trans (Cert.KernelIdeal.KReg0.final19 (V1 m ρ) c)).trans (by rw [v1_arg0, v1_arg6, v1_v7, v1_v4])
theorem w2_B : W2 m ρ c (Proc.devRef .tc main_v17_4) = mm (zp m c) (rowSlice 256 256 (by decide) (arg m c main_arg14)) :=
  ((W2_arr m ρ c 20).trans (Cert.KernelIdeal.KReg0.final20 (V1 m ρ) c)).trans (by rw [v1_arg0, v1_arg6, v1_v7, v1_v5])

/-- A buffer the heads stage does not name and the first stretch does not write is as launched after the stage. -/
theorem w2_arg (b : Ref sig .tc) (hb : ∀ w, Pipeline.arrRef spec0 w ≠ b)
    (h : ∀ op ∈ (hostOps0 : List (HloOp τ sig (Elt Ideal))), (Proc.devRef .tc b : DevRef τ sig) ∉ op.writes) :
    W2 m ρ c (Proc.devRef .tc b) = arg m c b :=
  (W2_of_ne m ρ c b hb).trans (keep0 m ρ c b h)
theorem w2_v8 : W2 m ρ c (Proc.devRef .tc main_v8) = asRow2 (arg m c main_arg9) :=
  (W2_of_ne m ρ c main_v8 (by decide)).trans (after0_v8 (W0 m ρ c))
theorem w2_v9 : W2 m ρ c (Proc.devRef .tc main_v9) = asRow2 (arg m c main_arg11) :=
  (W2_of_ne m ρ c main_v9 (by decide)).trans (after0_v9 (W0 m ρ c))
theorem w2_v10 : W2 m ρ c (Proc.devRef .tc main_v10) = asRow2 (arg m c main_arg13) :=
  (W2_of_ne m ρ c main_v10 (by decide)).trans (after0_v10 (W0 m ρ c))
theorem w2_v11 : W2 m ρ c (Proc.devRef .tc main_v11) = asRow2 (arg m c main_arg15) :=
  (W2_of_ne m ρ c main_v11 (by decide)).trans (after0_v11 (W0 m ρ c))
theorem w2_v12 : W2 m ρ c (Proc.devRef .tc main_v12) = asRow2 (arg m c main_arg17) :=
  (W2_of_ne m ρ c main_v12 (by decide)).trans (after0_v12 (W0 m ρ c))

/-! ## The node stage's operands and output -/

theorem v3_arg1 : V3 m ρ c main_arg1 = arg m c main_arg1 :=
  (keep1 m ρ c main_arg1 (by not_written)).trans (w2_arg m ρ c main_arg1 (by decide) (by not_written))
theorem v3_arg8 : V3 m ρ c main_arg8 = arg m c main_arg8 :=
  (keep1 m ρ c main_arg8 (by not_written)).trans (w2_arg m ρ c main_arg8 (by decide) (by not_written))
theorem v3_arg10 : V3 m ρ c main_arg10 = arg m c main_arg10 :=
  (keep1 m ρ c main_arg10 (by not_written)).trans (w2_arg m ρ c main_arg10 (by decide) (by not_written))
theorem v3_arg12 : V3 m ρ c main_arg12 = arg m c main_arg12 :=
  (keep1 m ρ c main_arg12 (by not_written)).trans (w2_arg m ρ c main_arg12 (by decide) (by not_written))
theorem v3_v8 : V3 m ρ c main_v8 = asRow2 (arg m c main_arg9) := (keep1 m ρ c main_v8 (by not_written)).trans (w2_v8 m ρ c)
theorem v3_v9 : V3 m ρ c main_v9 = asRow2 (arg m c main_arg11) := (keep1 m ρ c main_v9 (by not_written)).trans (w2_v9 m ρ c)
theorem v3_v10 : V3 m ρ c main_v10 = asRow2 (arg m c main_arg13) := (keep1 m ρ c main_v10 (by not_written)).trans (w2_v10 m ρ c)
theorem v3_zproj : V3 m ρ c main_v17_0 = zp m c := (keep1 m ρ c main_v17_0 (by not_written)).trans (w2_zproj m ρ c)
theorem v3_v18 : V3 m ρ c main_v18 = asCol (arg m c main_arg3) :=
  (after1_v18 (W2 m ρ c)).trans (congrArg asCol (w2_arg m ρ c main_arg3 (by decide) (by not_written)))

theorem w4_node : W4 m ρ c (Proc.devRef .tc main_v19)
    = kNode (arg m c main_arg1) (asCol (arg m c main_arg3)) (zp m c) (arg m c main_arg8) (asRow2 (arg m c main_arg9)) (arg m c main_arg10) (asRow2 (arg m c main_arg11)) (arg m c main_arg12) (asRow2 (arg m c main_arg13)) :=
  ((W4_arr m ρ c 9).trans (Cert.KernelIdeal.KReg1.final9 (V3 m ρ) c)).trans
    (by rw [v3_arg1, v3_v18, v3_zproj, v3_arg8, v3_v8, v3_arg10, v3_v9, v3_arg12, v3_v10])

/-- A buffer neither stage names and neither stretch writes is as launched after the node stage. -/
theorem w4_arg (b : Ref sig .tc) (hb0 : ∀ w, Pipeline.arrRef spec0 w ≠ b) (hb1 : ∀ w, Pipeline.arrRef spec1 w ≠ b)
    (h0 : ∀ op ∈ (hostOps0 : List (HloOp τ sig (Elt Ideal))), (Proc.devRef .tc b : DevRef τ sig) ∉ op.writes)
    (h1 : ∀ op ∈ (hostOps1 : List (HloOp τ sig (Elt Ideal))), (Proc.devRef .tc b : DevRef τ sig) ∉ op.writes) :
    W4 m ρ c (Proc.devRef .tc b) = arg m c b :=
  (W4_of_ne m ρ c b hb1).trans ((keep1 m ρ c b h1).trans (w2_arg m ρ c b hb0 h0))
/-- A buffer the node stage does not name and the second stretch does not write keeps the heads stage's exit contents. -/
theorem w4_w2 (b : Ref sig .tc) (hb1 : ∀ w, Pipeline.arrRef spec1 w ≠ b)
    (h1 : ∀ op ∈ (hostOps1 : List (HloOp τ sig (Elt Ideal))), (Proc.devRef .tc b : DevRef τ sig) ∉ op.writes) :
    W4 m ρ c (Proc.devRef .tc b) = W2 m ρ c (Proc.devRef .tc b) :=
  (W4_of_ne m ρ c b hb1).trans (keep1 m ρ c b h1)

/-! ## The edge stage's operands and output -/

theorem v5_v27 : V5 m ρ c main_v27 = endSeg (arg m c main_arg3) (arg m c main_arg4) :=
  (after2_v27 (W4 m ρ c)).trans (by
    rw [w4_arg m ρ c main_arg3 (by decide) (by decide) (by not_written) (by not_written),
      w4_arg m ρ c main_arg4 (by decide) (by decide) (by not_written) (by not_written)])
theorem v5_v35 : V5 m ρ c main_v35 = endSeg (arg m c main_arg3) (arg m c main_arg5) :=
  (after2_v35 (W4 m ρ c)).trans (by
    rw [w4_arg m ρ c main_arg3 (by decide) (by decide) (by not_written) (by not_written),
      w4_arg m ρ c main_arg5 (by decide) (by decide) (by not_written) (by not_written)])
theorem v5_A : V5 m ρ c main_v17_3 = mm (zp m c) (rowSlice 256 0 (by decide) (arg m c main_arg14)) :=
  (keep2 m ρ c main_v17_3 (by not_written)).trans ((w4_w2 m ρ c main_v17_3 (by decide) (by not_written)).trans (w2_A m ρ c))
theorem v5_B : V5 m ρ c main_v17_4 = mm (zp m c) (rowSlice 256 256 (by decide) (arg m c main_arg14)) :=
  (keep2 m ρ c main_v17_4 (by not_written)).trans ((w4_w2 m ρ c main_v17_4 (by decide) (by not_written)).trans (w2_B m ρ c))
theorem v5_v11 : V5 m ρ c main_v11 = asRow2 (arg m c main_arg15) :=
  (keep2 m ρ c main_v11 (by not_written)).trans ((w4_w2 m ρ c main_v11 (by decide) (by not_written)).trans (w2_v11 m ρ c))
theorem v5_v12 : V5 m ρ c main_v12 = asRow2 (arg m c main_arg17) :=
  (keep2 m ρ c main_v12 (by not_written)).trans ((w4_w2 m ρ c main_v12 (by decide) (by not_written)).trans (w2_v12 m ρ c))
theorem v5_arg16 : V5 m ρ c main_arg16 = arg m c main_arg16 :=
  (keep2 m ρ c main_arg16 (by not_written)).trans (w4_arg m ρ c main_arg16 (by decide) (by decide) (by not_written) (by not_written))

/-! ## The four results -/

/-- The node reconstruction. -/
theorem node : W6 m ρ c (Proc.devRef .tc main_v19)
    = kNode (arg m c main_arg1) (asCol (arg m c main_arg3)) (zp m c) (arg m c main_arg8) (asRow2 (arg m c main_arg9)) (arg m c main_arg10) (asRow2 (arg m c main_arg11)) (arg m c main_arg12) (asRow2 (arg m c main_arg13)) :=
  (W6_of_ne m ρ c main_v19 (by decide)).trans ((keep2 m ρ c main_v19 (by not_written)).trans (w4_node m ρ c))

/-- The edge reconstruction. -/
theorem edge : W6 m ρ c (Proc.devRef .tc main_v36)
    = kEdge (endSeg (arg m c main_arg3) (arg m c main_arg4)) (endSeg (arg m c main_arg3) (arg m c main_arg5)) (mm (zp m c) (rowSlice 256 0 (by decide) (arg m c main_arg14)))
        (mm (zp m c) (rowSlice 256 256 (by decide) (arg m c main_arg14))) (asRow2 (arg m c main_arg15)) (arg m c main_arg16) (asRow2 (arg m c main_arg17)) :=
  ((W6_arr m ρ c 7).trans (Cert.KernelIdeal.KReg2.final7 (V5 m ρ) c)).trans
    (by rw [v5_v27, v5_v35, v5_A, v5_B, v5_v11, v5_arg16, v5_v12])

/-- The energy head. -/
theorem energy : W6 m ρ c (Proc.devRef .tc main_v17_1)
    = kHead (arg m c main_arg0) (asRow2 (arg m c main_arg2)) (rowSlice 64 0 (by decide) (arg m c main_arg18)) (rowSlice 6 64 (by decide) (arg m c main_arg18))
        (asRow2 (arg m c main_arg19)) (arg m c main_arg20) (asRow2 (arg m c main_arg21)) :=
  (W6_of_ne m ρ c main_v17_1 (by decide)).trans ((keep2 m ρ c main_v17_1 (by not_written)).trans
    ((w4_w2 m ρ c main_v17_1 (by decide) (by not_written)).trans (w2_energy m ρ c)))

/-- The stress head. -/
theorem stress : W6 m ρ c (Proc.devRef .tc main_v17_2)
    = kHead (arg m c main_arg0) (asRow2 (arg m c main_arg2)) (rowSlice 64 0 (by decide) (arg m c main_arg22)) (rowSlice 6 64 (by decide) (arg m c main_arg22))
        (asRow2 (arg m c main_arg23)) (arg m c main_arg24) (asRow2 (arg m c main_arg25)) :=
  (W6_of_ne m ρ c main_v17_2 (by decide)).trans ((keep2 m ρ c main_v17_2 (by not_written)).trans
    ((w4_w2 m ρ c main_v17_2 (by decide) (by not_written)).trans (w2_stress m ρ c)))

end Cert.KernelIdeal.KValue

end
-- ==== Proof.RefValue.lean ====
/-
  The reference's four results as the gathering description of the decoder (Cert.Spec): each result's term — the
  composition of the host operations, as the generated run states it — read operation by operation: a host product is the
  matrix product, a bias broadcast and added is the bias added to every row, a maximum with zero the positive part, an
  indexing by an integer array the rows its words name (wrapped, then clamped into the table), a slice the rows it
  keeps, and the join of `z` with the broadcast lattice vector is `z` with the lattice appended.
-/
import proofs.«401555_j79637283602854_1_alg».proof.Proof.Gen.ReferenceIdeal.Read
import proofs.«401555_j79637283602854_1_alg».proof.Proof.Spec
import proofs.«401555_j79637283602854_1_alg».proof.Proof.LibDot
import proofs.«401555_j79637283602854_1_alg».proof.Proof.LibRow
import proofs.«401555_j79637283602854_1_alg».proof.Proof.LibTake

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read

/-- The latent projection: the first product, its bias, its positive part. -/
private theorem zProj_eq (x0 : (⟨S256x64, .f32⟩ : BufTy).Contents (Elt Ideal)) (x6 : (⟨S64x256, .f32⟩ : BufTy).Contents (Elt Ideal)) (x7 : (⟨S256, .f32⟩ : BufTy).Contents (Elt Ideal)) :
    val_main_v4 (F := Ideal) x0 x6 x7 = Cert.Spec.zProj x0 x6 x7 := by
  have h0 : val_main_v0 (F := Ideal) x0 x6 = Cert.Spec.mm x0 x6 :=
    Cert.Lib.dotGeneral_plain (M := 256) (K := 64) (N := 256) none x0 x6
  have h3 : val_main_v3 (F := Ideal) x0 x6 x7 = Cert.Spec.addRow (Cert.Spec.mm x0 x6) x7 := by
    unfold val_main_v3 val_main_v2 val_main_v1
    rw [h0]
    exact Cert.Lib.addf_broadcastInDim_row _ x7 _ _
  unfold val_main_v4 val_main_call0_v0 val_main_call0_cst
  rw [h3]
  exact Cert.Lib.maximumf_broadcastInDim_zero _ _

/-- Each node's latent row: the segment ids wrapped and made a column, then the rows of the latent projection they
    name. -/
private theorem zExp_eq (x0 : (⟨S256x64, .f32⟩ : BufTy).Contents (Elt Ideal)) (x3 : (⟨S65536, .i32⟩ : BufTy).Contents (Elt Ideal)) (x6 : (⟨S64x256, .f32⟩ : BufTy).Contents (Elt Ideal)) (x7 : (⟨S256, .f32⟩ : BufTy).Contents (Elt Ideal)) :
    val_main_v11 (F := Ideal) x0 x3 x6 x7 = Cert.Spec.zExp (Cert.Spec.zProj x0 x6 x7) x3 := by
  have h10 : val_main_v10 (F := Ideal) x3 = Cert.Spec.asCol (fun i => Cert.Spec.wrapW 256 (x3 i)) := by
    unfold val_main_v10 val_main_v9 val_main_v8 val_main_v7 val_main_v6 val_main_v5 val_main_c val_main_c_0
    exact Cert.Lib.wrap_col 256 x3 _ _
  unfold val_main_v11
  rw [zProj_eq, h10]
  exact Cert.Lib.gather_rows (M := 256) (R := 65536) (N := 256) (by decide) _ _ _

/-- The node reconstruction. -/
theorem node_eq (x0 : (⟨S256x64, .f32⟩ : BufTy).Contents (Elt Ideal)) (x1 : (⟨S65536x1024, .f32⟩ : BufTy).Contents (Elt Ideal)) (x3 : (⟨S65536, .i32⟩ : BufTy).Contents (Elt Ideal)) (x6 : (⟨S64x256, .f32⟩ : BufTy).Contents (Elt Ideal)) (x7 : (⟨S256, .f32⟩ : BufTy).Contents (Elt Ideal)) (x8 : (⟨S1024x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal)) (x12 : (⟨S128x4, .f32⟩ : BufTy).Contents (Elt Ideal)) (x13 : (⟨S4, .f32⟩ : BufTy).Contents (Elt Ideal)) :
    val_main_v26 (F := Ideal) x0 x1 x3 x6 x7 x8 x9 x10 x11 x12 x13
      = Cert.Spec.reconNode (Cert.Spec.zProj x0 x6 x7) x1 x3 x8 x9 x10 x11 x12 x13 := by
  -- each node's latent row
  have h11 := zExp_eq x0 x3 x6 x7
  -- the node embedding's projection
  have h12 : val_main_v12 (F := Ideal) x1 x8 = Cert.Spec.mm x1 x8 :=
    Cert.Lib.dotGeneral_plain (M := 65536) (K := 1024) (N := 256) none x1 x8
  have h15 : val_main_v15 (F := Ideal) x1 x8 x9 = Cert.Spec.addRow (Cert.Spec.mm x1 x8) x9 := by
    unfold val_main_v15 val_main_v14 val_main_v13
    rw [h12]
    exact Cert.Lib.addf_broadcastInDim_row _ x9 _ _
  have h16 : val_main_v16 (F := Ideal) x1 x8 x9 = Cert.Spec.nodeProj x1 x8 x9 := by
    unfold val_main_v16 val_main_call1_v0 val_main_call1_cst
    rw [h15]
    exact Cert.Lib.maximumf_broadcastInDim_zero _ _
  -- their sum
  have h17 : val_main_v17 (F := Ideal) x0 x1 x3 x6 x7 x8 x9
      = Cert.Spec.add (Cert.Spec.zExp (Cert.Spec.zProj x0 x6 x7) x3) (Cert.Spec.nodeProj x1 x8 x9) := by
    unfold val_main_v17
    rw [h11, h16]
    exact Cert.Lib.addf_eq_add _ _
  -- the first dense layer
  have h18 : val_main_v18 (F := Ideal) x0 x1 x3 x6 x7 x8 x9 x10
      = Cert.Spec.mm (Cert.Spec.add (Cert.Spec.zExp (Cert.Spec.zProj x0 x6 x7) x3) (Cert.Spec.nodeProj x1 x8 x9)) x10 := by
    unfold val_main_v18
    rw [h17]
    exact Cert.Lib.dotGeneral_plain (M := 65536) (K := 256) (N := 128) none _ x10
  have h21 : val_main_v21 (F := Ideal) x0 x1 x3 x6 x7 x8 x9 x10 x11
      = Cert.Spec.addRow (Cert.Spec.mm (Cert.Spec.add (Cert.Spec.zExp (Cert.Spec.zProj x0 x6 x7) x3)
          (Cert.Spec.nodeProj x1 x8 x9)) x10) x11 := by
    unfold val_main_v21 val_main_v20 val_main_v19
    rw [h18]
    exact Cert.Lib.addf_broadcastInDim_row _ x11 _ _
  have h22 : val_main_v22 (F := Ideal) x0 x1 x3 x6 x7 x8 x9 x10 x11
      = Cert.Spec.relu (Cert.Spec.addRow (Cert.Spec.mm (Cert.Spec.add (Cert.Spec.zExp (Cert.Spec.zProj x0 x6 x7) x3)
          (Cert.Spec.nodeProj x1 x8 x9)) x10) x11) := by
    unfold val_main_v22 val_main_call2_v0 val_main_call2_cst
    rw [h21]
    exact Cert.Lib.maximumf_broadcastInDim_zero _ _
  -- the second dense layer
  have h23 : val_main_v23 (F := Ideal) x0 x1 x3 x6 x7 x8 x9 x10 x11 x12
      = Cert.Spec.mm (Cert.Spec.relu (Cert.Spec.addRow (Cert.Spec.mm (Cert.Spec.add
          (Cert.Spec.zExp (Cert.Spec.zProj x0 x6 x7) x3) (Cert.Spec.nodeProj x1 x8 x9)) x10) x11)) x12 := by
    unfold val_main_v23
    rw [h22]
    exact Cert.Lib.dotGeneral_plain (M := 65536) (K := 128) (N := 4) none _ x12
  unfold val_main_v26 val_main_v25 val_main_v24
  rw [h23]
  exact Cert.Lib.addf_broadcastInDim_row _ x13 _ _

/-- The edge reconstruction. -/
theorem edge_eq (x0 : (⟨S256x64, .f32⟩ : BufTy).Contents (Elt Ideal)) (x3 : (⟨S65536, .i32⟩ : BufTy).Contents (Elt Ideal)) (x4 : (⟨S524288, .i32⟩ : BufTy).Contents (Elt Ideal)) (x5 : (⟨S524288, .i32⟩ : BufTy).Contents (Elt Ideal)) (x6 : (⟨S64x256, .f32⟩ : BufTy).Contents (Elt Ideal)) (x7 : (⟨S256, .f32⟩ : BufTy).Contents (Elt Ideal)) (x14 : (⟨S512x128, .f32⟩ : BufTy).Contents (Elt Ideal)) (x15 : (⟨S128, .f32⟩ : BufTy).Contents (Elt Ideal)) (x16 : (⟨S128x3, .f32⟩ : BufTy).Contents (Elt Ideal)) (x17 : (⟨S3, .f32⟩ : BufTy).Contents (Elt Ideal)) :
    val_main_v53 (F := Ideal) x0 x3 x4 x5 x6 x7 x14 x15 x16 x17
      = Cert.Spec.reconEdge (Cert.Spec.zProj x0 x6 x7) x3 x4 x5 x14 x15 x16 x17 := by
  -- the two halves of the first weight
  have h27 : val_main_v27 (F := Ideal) x14 = Cert.Spec.rowSlice 256 0 (by decide) x14 := by
    unfold val_main_v27
    exact Cert.Lib.extractStridedSlice_rows (M := 512) (N := 128) (M' := 256) (off := 0) x14 _ (by decide)
  have h28 : val_main_v28 (F := Ideal) x14 = Cert.Spec.rowSlice 256 256 (by decide) x14 := by
    unfold val_main_v28
    exact Cert.Lib.extractStridedSlice_rows (M := 512) (N := 128) (M' := 256) (off := 256) x14 _ (by decide)
  -- the sources' latent rows
  have h34 : val_main_v34 (F := Ideal) x4 = Cert.Spec.asCol (fun i => Cert.Spec.wrapW 65536 (x4 i)) := by
    unfold val_main_v34 val_main_v33 val_main_v32 val_main_v31 val_main_v30 val_main_v29 val_main_c_1 val_main_c_2
    exact Cert.Lib.wrap_col 65536 x4 _ _
  have h35 : val_main_v35 (F := Ideal) x0 x3 x4 x6 x7
      = Cert.Spec.takeRows (Cert.Spec.zExp (Cert.Spec.zProj x0 x6 x7) x3) (Cert.Spec.endRow x4) := by
    unfold val_main_v35
    rw [zExp_eq, h34]
    exact Cert.Lib.gather_rows (M := 65536) (R := 524288) (N := 256) (by decide) _ _ _
  have h36 : val_main_v36 (F := Ideal) x0 x3 x4 x6 x7 x14
      = Cert.Spec.mm (Cert.Spec.takeRows (Cert.Spec.zExp (Cert.Spec.zProj x0 x6 x7) x3) (Cert.Spec.endRow x4))
          (Cert.Spec.rowSlice 256 0 (by decide) x14) := by
    unfold val_main_v36
    rw [h35, h27]
    exact Cert.Lib.dotGeneral_plain (M := 524288) (K := 256) (N := 128) none _ _
  -- the destinations' latent rows
  have h42 : val_main_v42 (F := Ideal) x5 = Cert.Spec.asCol (fun i => Cert.Spec.wrapW 65536 (x5 i)) := by
    unfold val_main_v42 val_main_v41 val_main_v40 val_main_v39 val_main_v38 val_main_v37 val_main_c_3 val_main_c_4
    exact Cert.Lib.wrap_col 65536 x5 _ _
  have h43 : val_main_v43 (F := Ideal) x0 x3 x5 x6 x7
      = Cert.Spec.takeRows (Cert.Spec.zExp (Cert.Spec.zProj x0 x6 x7) x3) (Cert.Spec.endRow x5) := by
    unfold val_main_v43
    rw [zExp_eq, h42]
    exact Cert.Lib.gather_rows (M := 65536) (R := 524288) (N := 256) (by decide) _ _ _
  have h44 : val_main_v44 (F := Ideal) x0 x3 x5 x6 x7 x14
      = Cert.Spec.mm (Cert.Spec.takeRows (Cert.Spec.zExp (Cert.Spec.zProj x0 x6 x7) x3) (Cert.Spec.endRow x5))
          (Cert.Spec.rowSlice 256 256 (by decide) x14) := by
    unfold val_main_v44
    rw [h43, h28]
    exact Cert.Lib.dotGeneral_plain (M := 524288) (K := 256) (N := 128) none _ _
  -- the first layer: the two products' sum, the bias, the positive part
  have h45 : val_main_v45 (F := Ideal) x0 x3 x4 x5 x6 x7 x14
      = Cert.Spec.add
          (Cert.Spec.mm (Cert.Spec.takeRows (Cert.Spec.zExp (Cert.Spec.zProj x0 x6 x7) x3) (Cert.Spec.endRow x4))
            (Cert.Spec.rowSlice 256 0 (by decide) x14))
          (Cert.Spec.mm (Cert.Spec.takeRows (Cert.Spec.zExp (Cert.Spec.zProj x0 x6 x7) x3) (Cert.Spec.endRow x5))
            (Cert.Spec.rowSlice 256 256 (by decide) x14)) := by
    unfold val_main_v45
    rw [h36, h44]
    exact Cert.Lib.addf_eq_add _ _
  have h48 : val_main_v48 (F := Ideal) x0 x3 x4 x5 x6 x7 x14 x15
      = Cert.Spec.addRow (Cert.Spec.add
          (Cert.Spec.mm (Cert.Spec.takeRows (Cert.Spec.zExp (Cert.Spec.zProj x0 x6 x7) x3) (Cert.Spec.endRow x4))
            (Cert.Spec.rowSlice 256 0 (by decide) x14))
          (Cert.Spec.mm (Cert.Spec.takeRows (Cert.Spec.zExp (Cert.Spec.zProj x0 x6 x7) x3) (Cert.Spec.endRow x5))
            (Cert.Spec.rowSlice 256 256 (by decide) x14))) x15 := by
    unfold val_main_v48 val_main_v47 val_main_v46
    rw [h45]
    exact Cert.Lib.addf_broadcastInDim_row _ x15 _ _
  have h49 : val_main_v49 (F := Ideal) x0 x3 x4 x5 x6 x7 x14 x15
      = Cert.Spec.relu (Cert.Spec.addRow (Cert.Spec.add
          (Cert.Spec.mm (Cert.Spec.takeRows (Cert.Spec.zExp (Cert.Spec.zProj x0 x6 x7) x3) (Cert.Spec.endRow x4))
            (Cert.Spec.rowSlice 256 0 (by decide) x14))
          (Cert.Spec.mm (Cert.Spec.takeRows (Cert.Spec.zExp (Cert.Spec.zProj x0 x6 x7) x3) (Cert.Spec.endRow x5))
            (Cert.Spec.rowSlice 256 256 (by decide) x14))) x15) := by
    unfold val_main_v49 val_main_call3_v0 val_main_call3_cst
    rw [h48]
    exact Cert.Lib.maximumf_broadcastInDim_zero _ _
  -- the second layer
  have h50 : val_main_v50 (F := Ideal) x0 x3 x4 x5 x6 x7 x14 x15 x16
      = Cert.Spec.mm (Cert.Spec.relu (Cert.Spec.addRow (Cert.Spec.add
          (Cert.Spec.mm (Cert.Spec.takeRows (Cert.Spec.zExp (Cert.Spec.zProj x0 x6 x7) x3) (Cert.Spec.endRow x4))
            (Cert.Spec.rowSlice 256 0 (by decide) x14))
          (Cert.Spec.mm (Cert.Spec.takeRows (Cert.Spec.zExp (Cert.Spec.zProj x0 x6 x7) x3) (Cert.Spec.endRow x5))
            (Cert.Spec.rowSlice 256 256 (by decide) x14))) x15)) x16 := by
    unfold val_main_v50
    rw [h49]
    exact Cert.Lib.dotGeneral_plain (M := 524288) (K := 128) (N := 3) none _ x16
  unfold val_main_v53 val_main_v52 val_main_v51
  rw [h50]
  exact Cert.Lib.addf_broadcastInDim_row _ x17 _ _

/-- The energy head. -/
theorem energy_eq (x0 : (⟨S256x64, .f32⟩ : BufTy).Contents (Elt Ideal)) (x2 : (⟨S6, .f32⟩ : BufTy).Contents (Elt Ideal)) (x18 : (⟨S70x128, .f32⟩ : BufTy).Contents (Elt Ideal)) (x19 : (⟨S128, .f32⟩ : BufTy).Contents (Elt Ideal)) (x20 : (⟨S128x2, .f32⟩ : BufTy).Contents (Elt Ideal)) (x21 : (⟨S2, .f32⟩ : BufTy).Contents (Elt Ideal)) :
    val_main_v64 (F := Ideal) x0 x2 x18 x19 x20 x21 = Cert.Spec.head x0 x2 x18 x19 x20 x21 := by
  -- z with the lattice vector appended
  have h55 : val_main_v55 (F := Ideal) x0 x2 = Cert.Spec.zLat x0 x2 := by
    unfold val_main_v55 val_main_v54
    exact Cert.Lib.concatenate_zLat x0 x2 _ _
  -- the first layer's product
  have h56 : val_main_v56 (F := Ideal) x0 x2 x18 = Cert.Spec.mm (Cert.Spec.zLat x0 x2) x18 := by
    unfold val_main_v56
    rw [h55]
    exact Cert.Lib.dotGeneral_plain (M := 256) (K := 70) (N := 128) none _ x18
  -- its bias
  have h59 : val_main_v59 (F := Ideal) x0 x2 x18 x19
      = Cert.Spec.addRow (Cert.Spec.mm (Cert.Spec.zLat x0 x2) x18) x19 := by
    unfold val_main_v59 val_main_v58 val_main_v57
    rw [h56]
    exact Cert.Lib.addf_broadcastInDim_row _ x19 _ _
  -- its positive part
  have h60 : val_main_v60 (F := Ideal) x0 x2 x18 x19
      = Cert.Spec.relu (Cert.Spec.addRow (Cert.Spec.mm (Cert.Spec.zLat x0 x2) x18) x19) := by
    unfold val_main_v60 val_main_call4_v0 val_main_call4_cst
    rw [h59]
    exact Cert.Lib.maximumf_broadcastInDim_zero _ _
  -- the second layer's product
  have h61 : val_main_v61 (F := Ideal) x0 x2 x18 x19 x20
      = Cert.Spec.mm (Cert.Spec.relu (Cert.Spec.addRow (Cert.Spec.mm (Cert.Spec.zLat x0 x2) x18) x19)) x20 := by
    unfold val_main_v61
    rw [h60]
    exact Cert.Lib.dotGeneral_plain (M := 256) (K := 128) (N := 2) none _ x20
  -- its bias
  unfold val_main_v64 val_main_v63 val_main_v62
  rw [h61]
  exact Cert.Lib.addf_broadcastInDim_row _ x21 _ _

/-- The stress head. -/
theorem stress_eq (x0 : (⟨S256x64, .f32⟩ : BufTy).Contents (Elt Ideal)) (x2 : (⟨S6, .f32⟩ : BufTy).Contents (Elt Ideal)) (x22 : (⟨S70x128, .f32⟩ : BufTy).Contents (Elt Ideal)) (x23 : (⟨S128, .f32⟩ : BufTy).Contents (Elt Ideal)) (x24 : (⟨S128x9, .f32⟩ : BufTy).Contents (Elt Ideal)) (x25 : (⟨S9, .f32⟩ : BufTy).Contents (Elt Ideal)) :
    val_main_v73 (F := Ideal) x0 x2 x22 x23 x24 x25 = Cert.Spec.head x0 x2 x22 x23 x24 x25 := by
  -- z with the lattice vector appended
  have h55 : val_main_v55 (F := Ideal) x0 x2 = Cert.Spec.zLat x0 x2 := by
    unfold val_main_v55 val_main_v54
    exact Cert.Lib.concatenate_zLat x0 x2 _ _
  -- the first layer's product
  have h65 : val_main_v65 (F := Ideal) x0 x2 x22 = Cert.Spec.mm (Cert.Spec.zLat x0 x2) x22 := by
    unfold val_main_v65
    rw [h55]
    exact Cert.Lib.dotGeneral_plain (M := 256) (K := 70) (N := 128) none _ x22
  -- its bias
  have h68 : val_main_v68 (F := Ideal) x0 x2 x22 x23
      = Cert.Spec.addRow (Cert.Spec.mm (Cert.Spec.zLat x0 x2) x22) x23 := by
    unfold val_main_v68 val_main_v67 val_main_v66
    rw [h65]
    exact Cert.Lib.addf_broadcastInDim_row _ x23 _ _
  -- its positive part
  have h69 : val_main_v69 (F := Ideal) x0 x2 x22 x23
      = Cert.Spec.relu (Cert.Spec.addRow (Cert.Spec.mm (Cert.Spec.zLat x0 x2) x22) x23) := by
    unfold val_main_v69 val_main_call5_v0 val_main_call5_cst
    rw [h68]
    exact Cert.Lib.maximumf_broadcastInDim_zero _ _
  -- the second layer's product
  have h70 : val_main_v70 (F := Ideal) x0 x2 x22 x23 x24
      = Cert.Spec.mm (Cert.Spec.relu (Cert.Spec.addRow (Cert.Spec.mm (Cert.Spec.zLat x0 x2) x22) x23)) x24 := by
    unfold val_main_v70
    rw [h69]
    exact Cert.Lib.dotGeneral_plain (M := 256) (K := 128) (N := 9) none _ x24
  -- its bias
  unfold val_main_v73 val_main_v72 val_main_v71
  rw [h70]
  exact Cert.Lib.addf_broadcastInDim_row _ x25 _ _

end Cert.ReferenceIdeal.RefValue

end
-- ==== Proof.Algebra.lean ====
/-
  The two descriptions of the decoder agree (Cert.Spec): with the biases read as `1 × N` matrices and the ids as
  columns, the one-hot description of each result is the gathering description — for the node and edge results when every
  segment id is a row number of the 256-row latent table; for the graph heads always (a sum over 70 columns is the sum
  over the first 64 plus the sum over the last 6).
-/
import proofs.«401555_j79637283602854_1_alg».proof.Proof.Spec
import proofs.«401555_j79637283602854_1_alg».proof.Proof.LibHot
import Mathlib.Algebra.BigOperators.Fin

noncomputable section

open scoped BigOperators
open Idealize.ShloMosaic Idealize.ShloMosaic.ValueIdx

namespace Cert.Spec

/-! ## Small identities -/

/-- Adding a bias vector read as a `1 × N` matrix to every row is adding the bias vector to every row. -/
private theorem addRow2_asRow2 {M N : Nat} (x : Mat M N) (b : Row N) : addRow2 x (asRow2 b) = addRow x b :=
  funext fun _ => rfl

/-- Taking rows commutes with a product on the right: the product only reads the left operand's row coordinate. -/
private theorem takeRows_mm {M R K N : Nat} (x : Mat M K) (W : Mat K N) (g : Fin R → Fin M) :
    takeRows (mm x W) g = mm (takeRows x g) W :=
  funext fun _ => rfl

/-- Taking rows of taken rows is taking rows by the composite map. -/
private theorem takeRows_takeRows {M R S N : Nat} (x : Mat M N) (g : Fin R → Fin M) (h : Fin S → Fin R) :
    takeRows (takeRows x g) h = takeRows x (fun e => g (h e)) :=
  funext fun _ => rfl

/-- Under `SegOk` a segment id is the word of the row it names. -/
private theorem seg_eq_ofNat (seg : Words 65536) (hseg : SegOk seg) (n : Fin 65536) :
    seg (ix1 n) = BitVec.ofNat 32 (segRow seg n).val :=
  Cert.Lib.eq_ofNat_rowOf (by norm_num) (by norm_num) (seg (ix1 n)) (hseg n).1 (by exact_mod_cast (hseg n).2)

/-- The one-hot product with the latent table takes each node's latent row. -/
private theorem mm_oneHot_seg (zp : Mat 256 256) (seg : Words 65536) (hseg : SegOk seg) :
    mm (oneHot 256 (asCol seg)) zp = zExp zp seg :=
  Cert.Lib.mm_oneHot (by norm_num) (asCol seg) (segRow seg) (fun r => seg_eq_ofNat seg hseg r) zp

/-- The one-hot product of an endpoint's segment ids with `zp · W` is the endpoint's latent rows times `W`. -/
private theorem mm_oneHot_end {N : Nat} (zp : Mat 256 256) (seg : Words 65536) (hseg : SegOk seg) (w : Words 524288)
    (W : Mat 256 N) :
    mm (oneHot 256 (endSeg seg w)) (mm zp W) = mm (takeRows (zExp zp seg) (endRow w)) W := by
  rw [Cert.Lib.mm_oneHot (by norm_num) (endSeg seg w) (fun e => segRow seg (endRow w e))
    (fun e => seg_eq_ofNat seg hseg (endRow w e)) (mm zp W), takeRows_mm, zExp, takeRows_takeRows]

/-- The product over 70 columns of `z` with the lattice appended is the product of `z` with the top 64 rows plus, on
    every row, the product of the lattice row with the bottom 6 rows. -/
private theorem mm_zLat (z : Mat 256 64) (lat : Row 6) (W1 : Mat 70 128) :
    mm (zLat z lat) W1
      = addRow2 (mm z (rowSlice 64 0 (by decide) W1)) (mm (asRow2 lat) (rowSlice 6 64 (by decide) W1)) := by
  funext j
  have h := Fin.sum_univ_add (a := 64) (b := 6)
    (fun k : Fin (64 + 6) => zLat z lat (ix2 (j 0) k) * W1 (ix2 k (j 1)))
  refine h.trans ?_
  unfold addRow2 mm
  refine congrArg₂ (· + ·) ?_ ?_
  · -- the first 64 columns read `z` and the top rows of the weight
    refine Finset.sum_congr rfl fun k _ => ?_
    have hk : ((Fin.castAdd 6 k : Fin (64 + 6)) : Nat) < 64 := k.isLt
    have a1 : zLat z lat (ix2 (j 0) (Fin.castAdd 6 k)) = z (ix2 (j 0) k) := dif_pos hk
    have e0 : (Fin.castAdd 6 k : Fin 70) = ⟨0 + k.val, by have := k.isLt; omega⟩ := Fin.ext (Nat.zero_add _).symm
    have a2 : W1 (ix2 (Fin.castAdd 6 k) (j 1)) = rowSlice 64 0 (by decide) W1 (ix2 k (j 1)) :=
      congrArg (fun a : Fin 70 => W1 (ix2 a (j 1))) e0
    exact congrArg₂ (· * ·) a1 a2
  · -- the last 6 columns read the lattice vector and the bottom rows of the weight
    refine Finset.sum_congr rfl fun k _ => ?_
    have hk : ¬ ((Fin.natAdd 64 k : Fin (64 + 6)) : Nat) < 64 := by
      show ¬ (64 + k.val < 64)
      omega
    have e0 : (⟨64 + k.val - 64, by have := k.isLt; omega⟩ : Fin 6) = k := Fin.ext (by show 64 + k.val - 64 = k.val; omega)
    have a1 : zLat z lat (ix2 (j 0) (Fin.natAdd 64 k)) = asRow2 lat (ix2 0 k) :=
      (dif_neg hk).trans (congrArg (fun a : Fin 6 => lat (ix1 a)) e0)
    have a2 : W1 (ix2 (Fin.natAdd 64 k) (j 1)) = rowSlice 6 64 (by decide) W1 (ix2 k (j 1)) := rfl
    exact congrArg₂ (· * ·) a1 a2

/-! ## The four results -/

/-- The latent projection: the bias as a row matrix. -/
theorem kZProj_eq (z : Mat 256 64) (Wlat : Mat 64 256) (blat : Row 256) :
    kZProj z Wlat (asRow2 blat) = zProj z Wlat blat := by
  unfold kZProj zProj
  rw [addRow2_asRow2]

/-- A graph head with the weight split is the head on `z` with the lattice appended. -/
theorem kHead_eq {P : Nat} (z : Mat 256 64) (lat : Row 6) (W1 : Mat 70 128) (b1 : Row 128) (W2 : Mat 128 P) (b2 : Row P) :
    kHead z (asRow2 lat) (rowSlice 64 0 (by decide) W1) (rowSlice 6 64 (by decide) W1) (asRow2 b1) W2 (asRow2 b2)
      = head z lat W1 b1 W2 b2 := by
  unfold kHead head
  rw [addRow2_asRow2, addRow2_asRow2, mm_zLat]

/-- The node result: the one-hot product takes each node's latent row. -/
theorem kNode_eq (zp : Mat 256 256) (ne : Mat 65536 1024) (seg : Words 65536) (hseg : SegOk seg) (Wnep : Mat 1024 256)
    (bnep : Row 256) (Wnd1 : Mat 256 128) (bnd1 : Row 128) (Wnd2 : Mat 128 4) (bnd2 : Row 4) :
    kNode ne (asCol seg) zp Wnep (asRow2 bnep) Wnd1 (asRow2 bnd1) Wnd2 (asRow2 bnd2)
      = reconNode zp ne seg Wnep bnep Wnd1 bnd1 Wnd2 bnd2 := by
  unfold kNode reconNode nodeProj
  rw [addRow2_asRow2, addRow2_asRow2, addRow2_asRow2, mm_oneHot_seg zp seg hseg]

/-- The edge result: the one-hot products against `A = zp · W_top` and `B = zp · W_bot` are the endpoints' latent rows
    through the two halves of `W_ed1`. -/
theorem kEdge_eq (zp : Mat 256 256) (seg : Words 65536) (hseg : SegOk seg) (src dst : Words 524288) (Wed1 : Mat 512 128)
    (bed1 : Row 128) (Wed2 : Mat 128 3) (bed2 : Row 3) :
    kEdge (endSeg seg src) (endSeg seg dst) (mm zp (rowSlice 256 0 (by decide) Wed1)) (mm zp (rowSlice 256 256 (by decide) Wed1))
        (asRow2 bed1) Wed2 (asRow2 bed2)
      = reconEdge zp seg src dst Wed1 bed1 Wed2 bed2 := by
  unfold kEdge reconEdge
  rw [addRow2_asRow2, addRow2_asRow2, mm_oneHot_end zp seg hseg src, mm_oneHot_end zp seg hseg dst]

end Cert.Spec

end
-- ==== Proof.PreRange.lean ====
/-
  What the precondition says of the segment ids: its last two conjuncts are "every id is at least 0" and "every id is
  below 256", each an `and`-reduction of a word comparison over the 65536 ids, so where the precondition holds every
  segment id is a row number of the 256-row latent table.
-/
import proofs.«401555_j79637283602854_1_alg».proof.Pre_finite_inputs
import proofs.«401555_j79637283602854_1_alg».proof.Proof.Spec
import Idealize.ShloMosaic.Lib.ReduceAll
import Idealize.ShloMosaic.Lib.StableHlo.Predicate
import Idealize.ShloMosaic.Lib.Pipeline.Value

noncomputable section

open Idealize.ShloMosaic Idealize.ShloMosaic.ValueIdx

namespace Cert.PreRange

/-- Where the precondition is all ones, every segment id lies in `0 … 255`. -/
theorem segOk_of_pre [Cert.Pre_finite_inputs.Facts] (a0 : FVec Ideal Cert.Pre_finite_inputs.S256x64 .f32) (a1 : FVec Ideal Cert.Pre_finite_inputs.S65536x1024 .f32) (a2 : FVec Ideal Cert.Pre_finite_inputs.S6 .f32) (a3 : IVec Cert.Pre_finite_inputs.S65536 32) (a4 : IVec Cert.Pre_finite_inputs.S524288 32) (a5 : IVec Cert.Pre_finite_inputs.S524288 32) (a6 : FVec Ideal Cert.Pre_finite_inputs.S64x256 .f32) (a7 : FVec Ideal Cert.Pre_finite_inputs.S256 .f32) (a8 : FVec Ideal Cert.Pre_finite_inputs.S1024x256 .f32) (a9 : FVec Ideal Cert.Pre_finite_inputs.S256 .f32) (a10 : FVec Ideal Cert.Pre_finite_inputs.S256x128 .f32) (a11 : FVec Ideal Cert.Pre_finite_inputs.S128 .f32) (a12 : FVec Ideal Cert.Pre_finite_inputs.S128x4 .f32) (a13 : FVec Ideal Cert.Pre_finite_inputs.S4 .f32) (a14 : FVec Ideal Cert.Pre_finite_inputs.S512x128 .f32) (a15 : FVec Ideal Cert.Pre_finite_inputs.S128 .f32) (a16 : FVec Ideal Cert.Pre_finite_inputs.S128x3 .f32) (a17 : FVec Ideal Cert.Pre_finite_inputs.S3 .f32) (a18 : FVec Ideal Cert.Pre_finite_inputs.S70x128 .f32) (a19 : FVec Ideal Cert.Pre_finite_inputs.S128 .f32) (a20 : FVec Ideal Cert.Pre_finite_inputs.S128x2 .f32) (a21 : FVec Ideal Cert.Pre_finite_inputs.S2 .f32) (a22 : FVec Ideal Cert.Pre_finite_inputs.S70x128 .f32) (a23 : FVec Ideal Cert.Pre_finite_inputs.S128 .f32) (a24 : FVec Ideal Cert.Pre_finite_inputs.S128x9 .f32) (a25 : FVec Ideal Cert.Pre_finite_inputs.S9 .f32)
    (h : Cert.Pre_finite_inputs.fn (F := Ideal) a0 a1 a2 a3 a4 a5 a6 a7 a8 a9 a10 a11 a12 a13 a14 a15 a16 a17 a18 a19 a20 a21 a22 a23 a24 a25 = (fun _ => 1#1)) :
    Cert.Spec.SegOk a3 := by
  have : Subsingleton Cert.Pre_finite_inputs.S_.Idx := ⟨fun a b => funext fun d => d.elim0⟩
  -- the precondition at its one index is a chain of conjunctions; the outermost two conjuncts are the two bounds
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7] at h0
  obtain ⟨h1, hlt⟩ := IntOp.andi_eq_one.1 h0
  obtain ⟨_, hge⟩ := IntOp.andi_eq_one.1 h1
  -- an `and`-reduction equal to 1 had a 1 at every id; a signed comparison equal to 1 compares the signed values
  intro n
  have hge' := Host.reduce_andi_all _ _ _ _ _ hge (ix1 n)
  have hlt' := Host.reduce_andi_all _ _ _ _ _ hlt (ix1 n)
  exact ⟨IntOp.cmpi_sge.1 hge', IntOp.cmpi_slt.1 hlt'⟩

end Cert.PreRange

end
-- ==== Proof.lean ====
/-
  The proof of `Cert.Claim`: a three-stage decoder — graph heads and the latent projection; the node path; the edge
  path — computes, over the extended reals, what its plain reference computes, whenever every segment id is a row
  number of the 256-row latent table (the precondition's last two conjuncts).

  The reference takes each node's row of the latent projection by indexing with the segment ids, and each edge's two rows
  by indexing the node rows with the endpoint words. The kernel takes a row by multiplying a one-hot row with the table —
  the same row when the id is a row number — and pushes the edge layer's first product through the one-hot: the row of
  `zProj · W_top` an endpoint's segment id names is that endpoint's latent row times `W_top`. Its graph heads split the
  first weight into the rows meeting `z` and the rows meeting the lattice vector: a sum over 70 columns is the sum over
  the first 64 plus the sum over the last 6. No other law is used; finiteness of the floats plays no part.

  The three frames are the generated ones (the reference's is its generated run with the results dropped); nothing was
  rewritten by the ideal pass, so `preserves` is trivial. For `algebraic`: the kernel program's run leaves each result at
  the one-hot description of the arguments (Proof/KernelRun.lean, Proof/KValue.lean over the three stages
  Proof/KReg0.lean, KReg1.lean, KReg2.lean), the reference's run at the gathering description (Proof/RefValue.lean), and
  the two descriptions agree (Proof/Algebra.lean) where the segment ids are in range (Proof/PreRange.lean).
-/
import proofs.«401555_j79637283602854_1_alg».proof.Defs
import proofs.«401555_j79637283602854_1_alg».proof.Proof.Gen.Kernel
import proofs.«401555_j79637283602854_1_alg».proof.Proof.Gen.Kernel.Skeleton
import proofs.«401555_j79637283602854_1_alg».proof.Proof.Gen.Kernel.Launch
import proofs.«401555_j79637283602854_1_alg».proof.Proof.Gen.Kernel.Points
import proofs.«401555_j79637283602854_1_alg».proof.Proof.Gen.Kernel.Frame
import proofs.«401555_j79637283602854_1_alg».proof.Proof.Gen.KernelIdeal
import proofs.«401555_j79637283602854_1_alg».proof.Proof.Gen.KernelIdeal.Skeleton
import proofs.«401555_j79637283602854_1_alg».proof.Proof.Gen.KernelIdeal.Launch
import proofs.«401555_j79637283602854_1_alg».proof.Proof.Gen.KernelIdeal.Points
import proofs.«401555_j79637283602854_1_alg».proof.Proof.Gen.KernelIdeal.Frame
import proofs.«401555_j79637283602854_1_alg».proof.Proof.Gen.ReferenceIdeal
import proofs.«401555_j79637283602854_1_alg».proof.Proof.Gen.ReferenceIdeal.Run
import proofs.«401555_j79637283602854_1_alg».proof.Proof.Gen.ReferenceIdeal.Read
import proofs.«401555_j79637283602854_1_alg».proof.Proof.Gen.Pre_finite_inputs
import proofs.«401555_j79637283602854_1_alg».proof.Proof.KernelRun
import proofs.«401555_j79637283602854_1_alg».proof.Proof.KValue
import proofs.«401555_j79637283602854_1_alg».proof.Proof.RefValue
import proofs.«401555_j79637283602854_1_alg».proof.Proof.Algebra
import proofs.«401555_j79637283602854_1_alg».proof.Proof.PreRange
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ
/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ
/-- The reference runs and keeps its arguments: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.Value.run (F := Ideal) m ρ)

set_option maxHeartbeats 4000000 in
open Cert.Spec in
/-- The two idealized programs, from memories agreeing on the arguments, end with the same four results: the node and
    edge reconstructions and the two graph heads, in the gathering description of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hseg : ∀ c : Dev Cert.KernelIdeal.nD, SegOk (m ((c.tc : Thread Cert.KernelIdeal.nD Cert.KernelIdeal.τ).loc Cert.KernelIdeal.main_arg3)) := fun c =>
    @Cert.PreRange.segOk_of_pre Cert.Pre_finite_inputs.Gen.facts _ _ _ _ _ _ _ _ _ _ _ _ _ _ _ _ _ _ _ _ _ _ _ _ _ _ (hpre c)
  refine ⟨fun c => reconNode (zProj (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => reconEdge (zProj (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => head (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)),
    fun c => head (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)), ?_, ?_⟩
  · refine (θ_run Cert.KernelIdeal.defs _ _).mono (fun r h c => ⟨(h c).1.trans ?_, (h c).2.1.trans ?_, (h c).2.2.1.trans ?_,
      (h c).2.2.2.1.trans ?_, (h c).2.2.2.2⟩) (Cert.KernelIdeal.KRun.run (F := Ideal) m ρ)
    · exact (Cert.KernelIdeal.KValue.node m ρ c).trans
        ((kNode_eq _ _ _ (hseg c) _ _ _ _ _ _).trans (by rw [Cert.KernelIdeal.KValue.zp, kZProj_eq]))
    · exact (Cert.KernelIdeal.KValue.edge m ρ c).trans
        ((kEdge_eq _ _ (hseg c) _ _ _ _ _ _).trans (by rw [Cert.KernelIdeal.KValue.zp, kZProj_eq]))
    · exact (Cert.KernelIdeal.KValue.energy m ρ c).trans (kHead_eq _ _ _ _ _ _)
    · exact (Cert.KernelIdeal.KValue.stress m ρ c).trans (kHead_eq _ _ _ _ _ _)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16, e17, e18, e19, e20, e21, e22, e23, e24, e25⟩ := hagree c
    refine ⟨(h c).1.trans ?_, (h c).2.1.trans ?_, (h c).2.2.1.trans ?_, (h c).2.2.2.1.trans ?_, (h c).2.2.2.2⟩
    · exact (Cert.ReferenceIdeal.Read.val_main_v26_eq _ _ _ _ _ _ _ _ _ _ _).trans ((Cert.ReferenceIdeal.RefValue.node_eq _ _ _ _ _ _ _ _ _ _ _).trans
        (by rw [e0, e1, e3, e6, e7, e8, e9, e10, e11, e12, e13]))
    · exact (Cert.ReferenceIdeal.Read.val_main_v53_eq _ _ _ _ _ _ _ _ _ _).trans ((Cert.ReferenceIdeal.RefValue.edge_eq _ _ _ _ _ _ _ _ _ _).trans
        (by rw [e0, e3, e4, e5, e6, e7, e14, e15, e16, e17]))
    · exact (Cert.ReferenceIdeal.Read.val_main_v64_eq _ _ _ _ _ _).trans ((Cert.ReferenceIdeal.RefValue.energy_eq _ _ _ _ _ _).trans
        (by rw [e0, e2, e18, e19, e20, e21]))
    · exact (Cert.ReferenceIdeal.Read.val_main_v73_eq _ _ _ _ _ _).trans ((Cert.ReferenceIdeal.RefValue.stress_eq _ _ _ _ _ _).trans
        (by rw [e0, e2, e22, e23, e24, e25]))

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
